-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x20x256 : Shape := ⟨3, ![8192, 20, 256]⟩
abbrev S8192 : Shape := ⟨1, ![8192]⟩
abbrev S_ : Shape := ⟨0, ![]⟩

class Facts : Prop where
  bcast_S_S8192x20x256 : S_.BroadcastsInDim S8192x20x256 (![] : Fin 0 → Fin S8192x20x256.rank)
  reducesTo_S8192x20x256_S_d0_1_2 : S8192x20x256.ReducesTo [0, 1, 2] S_
  h_S_ : 0 < S_.numel

variable [Facts]

def fn {F : FTy → Type} [FloatOps F] (main_arg0 : FVec F S8192x20x256 .f32) (main_arg1 : IVec S8192 32) : IVec S_ 1 :=
  let main_v0 : FVec F S8192x20x256 .f32 := Host.absf main_arg0
  let main_cst : FVec F S_ .f32 := constant S_ .f32 0x7F800000#32
  let main_v1 : FVec F S8192x20x256 .f32 := broadcastInDim S8192x20x256 ![] bcast_S_S8192x20x256 main_cst
  let main_v2 : IVec S8192x20x256 1 := cmpf .olt main_v0 main_v1
  let main_c : IVec S_ 1 := constantI S_ 1 1#1
  let main_v3 : IVec S_ 1 := (fun x v => Host.reduce IntOp.andi x v reducesTo_S8192x20x256_S_d0_1_2 h_S_) main_v2 main_c
  main_v3
-- ==== Kernel.lean ====
abbrev S8192x20x256 : Shape := ⟨3, ![8192, 20, 256]⟩
abbrev S8192 : Shape := ⟨1, ![8192]⟩
abbrev S8192x5120 : Shape := ⟨2, ![8192, 5120]⟩
abbrev S8192x1 : Shape := ⟨2, ![8192, 1]⟩
abbrev S2x10x5120 : Shape := ⟨3, ![2, 10, 5120]⟩
abbrev S2x10x1 : Shape := ⟨3, ![2, 10, 1]⟩
abbrev S512x5120 : Shape := ⟨2, ![512, 5120]⟩
abbrev S512x1 : Shape := ⟨2, ![512, 1]⟩
abbrev S1x10x5120 : Shape := ⟨3, ![1, 10, 5120]⟩
abbrev S1x10x1 : Shape := ⟨3, ![1, 10, 1]⟩
abbrev S10x5120 : Shape := ⟨2, ![10, 5120]⟩
abbrev S10x1 : Shape := ⟨2, ![10, 1]⟩
abbrev S512x10 : Shape := ⟨2, ![512, 10]⟩
abbrev S128x5120 : Shape := ⟨2, ![128, 5120]⟩
abbrev S128 : Shape := ⟨1, ![128]⟩
abbrev S128x1 : Shape := ⟨2, ![128, 1]⟩
abbrev S_ : Shape := ⟨0, ![]⟩
abbrev S10 : Shape := ⟨1, ![10]⟩

abbrev nBuf : Space → Nat
  | .hbm => 91
  | .vmem => 11
  | .smem => 0
  | _ => 0

abbrev bufTy : (tb : Table) → Fin (tcTables nBuf tb) → BufTy
  | .hbm, ⟨0, _⟩ => ⟨S8192x20x256, .f32⟩
  | .hbm, ⟨1, _⟩ => ⟨S8192, .i32⟩
  | .hbm, ⟨2, _⟩ => ⟨S8192x5120, .f32⟩
  | .hbm, ⟨3, _⟩ => ⟨S8192x1, .i32⟩
  | .hbm, ⟨4, _⟩ => ⟨S2x10x5120, .f32⟩
  | .hbm, ⟨5, _⟩ => ⟨S2x10x1, .f32⟩
  | .hbm, ⟨6, _⟩ => ⟨S2x10x1, .f32⟩
  | .hbm, ⟨7, _⟩ => ⟨S_, .f32⟩
  | .hbm, ⟨8, _⟩ => ⟨S10x5120, .f32⟩
  | .hbm, ⟨9, _⟩ => ⟨S_, .f32⟩
  | .hbm, ⟨10, _⟩ => ⟨S10x1, .f32⟩
  | .hbm, ⟨11, _⟩ => ⟨S10, .f32⟩
  | .hbm, ⟨12, _⟩ => ⟨S_, .f32⟩
  | .hbm, ⟨13, _⟩ => ⟨S10x1, .f32⟩
  | .hbm, ⟨14, _⟩ => ⟨S10, .f32⟩
  | .hbm, ⟨15, _⟩ => ⟨S_, .f32⟩
  | .hbm, ⟨16, _⟩ => ⟨S10, .f32⟩
  | .hbm, ⟨17, _⟩ => ⟨S10, .f32⟩
  | .hbm, ⟨18, _⟩ => ⟨S10x1, .f32⟩
  | .hbm, ⟨19, _⟩ => ⟨S10x5120, .f32⟩
  | .hbm, ⟨20, _⟩ => ⟨S10x5120, .f32⟩
  | .hbm, ⟨21, _⟩ => ⟨S10x5120, .i1⟩
  | .hbm, ⟨22, _⟩ => ⟨S_, .f32⟩
  | .hbm, ⟨23, _⟩ => ⟨S10x5120, .f32⟩
  | .hbm, ⟨24, _⟩ => ⟨S10x5120, .f32⟩
  | .hbm, ⟨25, _⟩ => ⟨S_, .f32⟩
  | .hbm, ⟨26, _⟩ => ⟨S10x5120, .f32⟩
  | .hbm, ⟨27, _⟩ => ⟨S10x5120, .i1⟩
  | .hbm, ⟨28, _⟩ => ⟨S_, .f32⟩
  | .hbm, ⟨29, _⟩ => ⟨S10x5120, .f32⟩
  | .hbm, ⟨30, _⟩ => ⟨S10x5120, .f32⟩
  | .hbm, ⟨31, _⟩ => ⟨S_, .f32⟩
  | .hbm, ⟨32, _⟩ => ⟨S10x5120, .f32⟩
  | .hbm, ⟨33, _⟩ => ⟨S10x5120, .i1⟩
  | .hbm, ⟨34, _⟩ => ⟨S_, .f32⟩
  | .hbm, ⟨35, _⟩ => ⟨S10x5120, .f32⟩
  | .hbm, ⟨36, _⟩ => ⟨S10x5120, .f32⟩
  | .hbm, ⟨37, _⟩ => ⟨S10x5120, .f32⟩
  | .hbm, ⟨38, _⟩ => ⟨S_, .f32⟩
  | .hbm, ⟨39, _⟩ => ⟨S10, .f32⟩
  | .hbm, ⟨40, _⟩ => ⟨S10x5120, .f32⟩
  | .hbm, ⟨41, _⟩ => ⟨S_, .f32⟩
  | .hbm, ⟨42, _⟩ => ⟨S10, .f32⟩
  | .hbm, ⟨43, _⟩ => ⟨S_, .f32⟩
  | .hbm, ⟨44, _⟩ => ⟨S10, .f32⟩
  | .hbm, ⟨45, _⟩ => ⟨S_, .f32⟩
  | .hbm, ⟨46, _⟩ => ⟨S10, .f32⟩
  | .hbm, ⟨47, _⟩ => ⟨S10, .f32⟩
  | .hbm, ⟨48, _⟩ => ⟨S10, .f32⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S_, .f32⟩
  | .hbm, ⟨53, _⟩ => ⟨S10, .f32⟩
  | .hbm, ⟨54, _⟩ => ⟨S10, .f32⟩
  | .hbm, ⟨55, _⟩ => ⟨S10, .f32⟩
  | .hbm, ⟨56, _⟩ => ⟨S10, .f32⟩
  | .hbm, ⟨57, _⟩ => ⟨S10, .f32⟩
  | .hbm, ⟨58, _⟩ => ⟨S10, .f32⟩
  | .hbm, ⟨59, _⟩ => ⟨S_, .f32⟩
  | .hbm, ⟨60, _⟩ => ⟨S10, .f32⟩
  | .hbm, ⟨61, _⟩ => ⟨S10, .f32⟩
  | .hbm, ⟨62, _⟩ => ⟨S_, .f32⟩
  | .hbm, ⟨63, _⟩ => ⟨S10, .f32⟩
  | .hbm, ⟨64, _⟩ => ⟨S10, .f32⟩
  | .hbm, ⟨65, _⟩ => ⟨S10, .f32⟩
  | .hbm, ⟨66, _⟩ => ⟨S_, .f32⟩
  | .hbm, ⟨67, _⟩ => ⟨S10, .f32⟩
  | .hbm, ⟨68, _⟩ => ⟨S10, .i1⟩
  | .hbm, ⟨69, _⟩ => ⟨S10, .i1⟩
  | .hbm, ⟨70, _⟩ => ⟨S_, .f32⟩
  | .hbm, ⟨71, _⟩ => ⟨S10, .f32⟩
  | .hbm, ⟨72, _⟩ => ⟨S10, .f32⟩
  | .hbm, ⟨73, _⟩ => ⟨S_, .f32⟩
  | .hbm, ⟨74, _⟩ => ⟨S10, .f32⟩
  | .hbm, ⟨75, _⟩ => ⟨S10, .i1⟩
  | .hbm, ⟨76, _⟩ => ⟨S_, .f32⟩
  | .hbm, ⟨77, _⟩ => ⟨S10, .f32⟩
  | .hbm, ⟨78, _⟩ => ⟨S10, .f32⟩
  | .hbm, ⟨79, _⟩ => ⟨S_, .f32⟩
  | .hbm, ⟨80, _⟩ => ⟨S10, .f32⟩
  | .hbm, ⟨81, _⟩ => ⟨S10, .i1⟩
  | .hbm, ⟨82, _⟩ => ⟨S_, .f32⟩
  | .hbm, ⟨83, _⟩ => ⟨S10, .f32⟩
  | .hbm, ⟨84, _⟩ => ⟨S10, .f32⟩
  | .hbm, ⟨85, _⟩ => ⟨S_, .f32⟩
  | .hbm, ⟨86, _⟩ => ⟨S_, .f32⟩
  | .hbm, ⟨87, _⟩ => ⟨S10, .f32⟩
  | .hbm, ⟨88, _⟩ => ⟨S10, .f32⟩
  | .hbm, ⟨89, _⟩ => ⟨S_, .f32⟩
  | .hbm, ⟨90, _⟩ => ⟨S_, .f32⟩
  | .local _ .vmem, ⟨0, _⟩ => ⟨S512x5120, .f32⟩
  | .local _ .vmem, ⟨1, _⟩ => ⟨S512x5120, .f32⟩
  | .local _ .vmem, ⟨2, _⟩ => ⟨S512x1, .i32⟩
  | .local _ .vmem, ⟨3, _⟩ => ⟨S512x1, .i32⟩
  | .local _ .vmem, ⟨4, _⟩ => ⟨S1x10x5120, .f32⟩
  | .local _ .vmem, ⟨5, _⟩ => ⟨S1x10x5120, .f32⟩
  | .local _ .vmem, ⟨6, _⟩ => ⟨S1x10x1, .f32⟩
  | .local _ .vmem, ⟨7, _⟩ => ⟨S1x10x1, .f32⟩
  | .local _ .vmem, ⟨8, _⟩ => ⟨S1x10x1, .f32⟩
  | .local _ .vmem, ⟨9, _⟩ => ⟨S1x10x1, .f32⟩
  | .local _ .vmem, ⟨10, _⟩ => ⟨S512x1, .f32⟩
  | _, _ => ⟨S8192x20x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_cst : Ref sig .tc := ⟨.hbm, 22, rfl⟩
abbrev main_call0_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_cst_1 : Ref sig .tc := ⟨.hbm, 28, rfl⟩
abbrev main_call0_call1_v0 : Ref sig .tc := ⟨.hbm, 29, rfl⟩
abbrev main_call0_v4 : Ref sig .tc := ⟨.hbm, 30, rfl⟩
abbrev main_call0_cst_2 : Ref sig .tc := ⟨.hbm, 31, rfl⟩
abbrev main_call0_v5 : Ref sig .tc := ⟨.hbm, 32, rfl⟩
abbrev main_call0_v6 : Ref sig .tc := ⟨.hbm, 33, rfl⟩
abbrev main_call0_cst_3 : Ref sig .tc := ⟨.hbm, 34, rfl⟩
abbrev main_call0_call2_v0 : Ref sig .tc := ⟨.hbm, 35, rfl⟩
abbrev main_v13 : Ref sig .tc := ⟨.hbm, 36, rfl⟩
abbrev main_v14 : Ref sig .tc := ⟨.hbm, 37, rfl⟩
abbrev main_cst_3 : Ref sig .tc := ⟨.hbm, 38, rfl⟩
abbrev main_v15 : Ref sig .tc := ⟨.hbm, 39, rfl⟩
abbrev main_v16 : Ref sig .tc := ⟨.hbm, 40, rfl⟩
abbrev main_cst_4 : Ref sig .tc := ⟨.hbm, 41, rfl⟩
abbrev main_v17 : Ref sig .tc := ⟨.hbm, 42, rfl⟩
abbrev main_cst_5 : Ref sig .tc := ⟨.hbm, 43, rfl⟩
abbrev main_v18 : Ref sig .tc := ⟨.hbm, 44, rfl⟩
abbrev main_cst_6 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_7 : Ref sig .tc := ⟨.hbm, 49, rfl⟩
abbrev main_v22 : Ref sig .tc := ⟨.hbm, 50, rfl⟩
abbrev main_v23 : Ref sig .tc := ⟨.hbm, 51, rfl⟩
abbrev main_cst_8 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_9 : Ref sig .tc := ⟨.hbm, 59, rfl⟩
abbrev main_v30 : Ref sig .tc := ⟨.hbm, 60, rfl⟩
abbrev main_v31 : Ref sig .tc := ⟨.hbm, 61, rfl⟩
abbrev main_cst_10 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_11 : Ref sig .tc := ⟨.hbm, 66, rfl⟩
abbrev main_v35 : Ref sig .tc := ⟨.hbm, 67, rfl⟩
abbrev main_v36 : Ref sig .tc := ⟨.hbm, 68, rfl⟩
abbrev main_call1_v0 : Ref sig .tc := ⟨.hbm, 69, rfl⟩
abbrev main_call1_cst : Ref sig .tc := ⟨.hbm, 70, rfl⟩
abbrev main_call1_call0_v0 : Ref sig .tc := ⟨.hbm, 71, rfl⟩
abbrev main_call1_v1 : Ref sig .tc := ⟨.hbm, 72, rfl⟩
abbrev main_call1_cst_0 : Ref sig .tc := ⟨.hbm, 73, rfl⟩
abbrev main_call1_v2 : Ref sig .tc := ⟨.hbm, 74, rfl⟩
abbrev main_call1_v3 : Ref sig .tc := ⟨.hbm, 75, rfl⟩
abbrev main_call1_cst_1 : Ref sig .tc := ⟨.hbm, 76, rfl⟩
abbrev main_call1_call1_v0 : Ref sig .tc := ⟨.hbm, 77, rfl⟩
abbrev main_call1_v4 : Ref sig .tc := ⟨.hbm, 78, rfl⟩
abbrev main_call1_cst_2 : Ref sig .tc := ⟨.hbm, 79, rfl⟩
abbrev main_call1_v5 : Ref sig .tc := ⟨.hbm, 80, rfl⟩
abbrev main_call1_v6 : Ref sig .tc := ⟨.hbm, 81, rfl⟩
abbrev main_call1_cst_3 : Ref sig .tc := ⟨.hbm, 82, rfl⟩
abbrev main_call1_call2_v0 : Ref sig .tc := ⟨.hbm, 83, rfl⟩
abbrev main_v37 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v38 : Ref sig .tc := ⟨.hbm, 88, rfl⟩
abbrev main_cst_13 : Ref sig .tc := ⟨.hbm, 89, rfl⟩
abbrev main_v39 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_15 : BitVec 32 := 0#32
  let c4_i32 : BitVec 32 := 4#32
  let v30 : BitVec 32 := Scalar.addi c0_i32_15 c4_i32
  let c1_i32 : BitVec 32 := 1#32
  ⟨c0_i32_15, v30, c1_i32⟩
def k0_mult1 (k0_t1 : Fin k0_t1_loop.trips) : BitVec 32 :=
  let c0_i32_15 : BitVec 32 := 0#32
  let c1_i32 : BitVec 32 := 1#32
  let arg8 : BitVec 32 := Scf.iv c0_i32_15 c1_i32 k0_t1
  let c128_i32 : BitVec 32 := 128#32
  let v47 : BitVec 32 := Scalar.muli arg8 c128_i32
  v47
def k0_off1 (k0_t1 : Fin k0_t1_loop.trips) : Fin 2 → Nat :=
  let c0_i32_15 : BitVec 32 := 0#32
  let c1_i32 : BitVec 32 := 1#32
  let arg8 : BitVec 32 := Scf.iv c0_i32_15 c1_i32 k0_t1
  let c128_i32 : BitVec 32 := 128#32
  let v47 : BitVec 32 := Scalar.muli arg8 c128_i32
  let v48 : BitVec 32 := v47
  let v49 : Index := Scalar.indexCast v48
  let c0_34 : Index := 0#32
  ![v49.toNat, 0]
def k0_off2 (k0_t1 : Fin k0_t1_loop.trips) : Fin 2 → Nat :=
  let c0_i32_15 : BitVec 32 := 0#32
  let c1_i32 : BitVec 32 := 1#32
  let arg8 : BitVec 32 := Scf.iv c0_i32_15 c1_i32 k0_t1
  let c128_i32 : BitVec 32 := 128#32
  let v47 : BitVec 32 := Scalar.muli arg8 c128_i32
  let v48 : BitVec 32 := v47
  let v68 : Index := Scalar.indexCast v48
  let c0_42 : Index := 0#32
  ![v68.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x10x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x10x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x10x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192x20x256_S8192x5120 : S8192x20x256.ShapeCasts S8192x5120
  shapeCasts_S8192_S8192x1 : S8192.ShapeCasts S8192x1
  inb_S1x10x5120_S1x10x5120_0_0_0 : ∀ a, (![0, 0, 0] : Fin 3 → Nat) a + S1x10x5120.size a ≤ S1x10x5120.size a
  h_S1x10x5120 : 0 < S1x10x5120.numel
  shapeCasts_S1x10x5120_S10x5120 : S1x10x5120.ShapeCasts S10x5120
  shapeCasts_S10x5120_S1x10x5120 : S10x5120.ShapeCasts S1x10x5120
  inb_S1x10x1_S1x10x1_0_0_0 : ∀ a, (![0, 0, 0] : Fin 3 → Nat) a + S1x10x1.size a ≤ S1x10x1.size a
  h_S1x10x1 : 0 < S1x10x1.numel
  shapeCasts_S1x10x1_S10x1 : S1x10x1.ShapeCasts S10x1
  shapeCasts_S10x1_S1x10x1 : S10x1.ShapeCasts S1x10x1
  iota_S512x10_d1_w32 : S512x10.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x10 : S512x1.Broadcasts S512x10
  natLt_1_32 : 1 < 32
  inb_S512x5120_S512x5120_0_0 : ∀ a, (![0, 0] : Fin 2 → Nat) a + S512x5120.size a ≤ S512x5120.size a
  h_S512x5120 : 0 < S512x5120.numel
  shapeCasts_S512x5120_S512x5120 : S512x5120.ShapeCasts S512x5120
  h_S128x5120 : 0 < S128x5120.numel
  shapeCasts_S128x5120_S128x5120 : S128x5120.ShapeCasts S128x5120
  reduces_S128x5120_S128 : S128x5120.Reduces [1] S128
  shapeCasts_S128_S128x1 : S128.ShapeCasts S128x1
  h_S128x1 : 0 < S128x1.numel
  shapeCasts_S128x1_S128x1 : S128x1.ShapeCasts S128x1
  reducesTo_S2x10x5120_S10x5120_d0 : S2x10x5120.ReducesTo [0] S10x5120
  h_S_ : 0 < S_.numel
  reducesTo_S2x10x1_S10x1_d0 : S2x10x1.ReducesTo [0] S10x1
  shapeCasts_S10x1_S10 : S10x1.ShapeCasts S10
  bcast_S_S10 : S_.BroadcastsInDim S10 (![] : Fin 0 → Fin S10.rank)
  bcast_S10_S10x1_0 : S10.BroadcastsInDim S10x1 (![0] : Fin 1 → Fin S10x1.rank)
  bcast_S10x1_S10x5120_0_1 : S10x1.BroadcastsInDim S10x5120 (![0, 1] : Fin 2 → Fin S10x5120.rank)
  bcast_S_S10x5120 : S_.BroadcastsInDim S10x5120 (![] : Fin 0 → Fin S10x5120.rank)
  reducesTo_S10x5120_S10_d1 : S10x5120.ReducesTo [1] S10
  reducesTo_S10_S_d0 : S10.ReducesTo [0] S_
  dot_S512x10_S512x5120_S10x5120_0_0_1_1_n_n_wf : DotDims.WF S512x10 S512x5120 S10x5120 [0] [0] [1] [1] [] []
  dot_S512x10_S512x1_S10x1_0_0_1_1_n_n_wf : DotDims.WF S512x10 S512x1 S10x1 [0] [0] [1] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x5120.size a ≤ S512x5120.size a
  k0_off2_inb : ∀ k0_t1 : Fin k0_t1_loop.trips, ∀ a, (k0_off2 k0_t1) a + S128x1.size a ≤ S512x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x5120.size a ≤ S8192x5120.size a
  hwx0_0 : ∀ i : grid0.Coords, EltTy.bits .f32 = 32 ∨ (Rect.block (s := S8192x5120) S512x5120.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10x5120.size a ≤ S2x10x5120.size a
  hwx0_2 : ∀ i : grid0.Coords, EltTy.bits .f32 = 32 ∨ (Rect.block (s := S2x10x5120) S1x10x5120.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10x1.size a ≤ S2x10x1.size a
  hwx0_3 : ∀ i : grid0.Coords, EltTy.bits .f32 = 32 ∨ (Rect.block (s := S2x10x1) S1x10x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x10x1.size a ≤ S2x10x1.size a
  hwx0_4 : ∀ i : grid0.Coords, EltTy.bits .f32 = 32 ∨ (Rect.block (s := S2x10x1) S1x10x1.size (cc0_transform_4 i) (hinb0_4 i)).WholeWords (EltTy.packing .f32)

variable [Facts₀]

def dot_S512x10_S512x5120_S10x5120_0_0_1_1_n_n : DotDims S512x10 S512x5120 S10x5120 where
  lhsContracting := [0]
  rhsContracting := [0]
  lhsNonContracting := [1]
  rhsNonContracting := [1]
  lhsBatch := []
  rhsBatch := []
  wf := dot_S512x10_S512x5120_S10x5120_0_0_1_1_n_n_wf
def dot_S512x10_S512x1_S10x1_0_0_1_1_n_n : DotDims S512x10 S512x1 S10x1 where
  lhsContracting := [0]
  rhsContracting := [0]
  lhsNonContracting := [1]
  rhsNonContracting := [1]
  lhsBatch := []
  rhsBatch := []
  wf := dot_S512x10_S512x1_S10x1_0_0_1_1_n_n_wf

abbrev win0_0 : Pipeline.Window sig grid0 :=
  Pipeline.Window.ofSpec (Memref.whole main_v0) S512x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x10x5120.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x10x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x10x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x20x256 : Shape := ⟨3, ![8192, 20, 256]⟩
abbrev S8192 : Shape := ⟨1, ![8192]⟩
abbrev S_ : Shape := ⟨0, ![]⟩
abbrev S10 : Shape := ⟨1, ![10]⟩
abbrev S8192x1 : Shape := ⟨2, ![8192, 1]⟩
abbrev S10x20x256 : Shape := ⟨3, ![10, 20, 256]⟩
abbrev S10x1x1 : Shape := ⟨3, ![10, 1, 1]⟩

abbrev nBuf : Space → Nat
  | .hbm => 102
  | .vmem => 0
  | .smem => 0
  | _ => 0

abbrev bufTy : (tb : Table) → Fin (tcTables nBuf tb) → BufTy
  | .hbm, ⟨0, _⟩ => ⟨S8192x20x256, .f32⟩
  | .hbm, ⟨1, _⟩ => ⟨S8192, .i32⟩
  | .hbm, ⟨2, _⟩ => ⟨S8192x20x256, .i1⟩
  | .hbm, ⟨3, _⟩ => ⟨S_, .f32⟩
  | .hbm, ⟨4, _⟩ => ⟨S8192x20x256, .f32⟩
  | .hbm, ⟨5, _⟩ => ⟨S8192x20x256, .f32⟩
  | .hbm, ⟨6, _⟩ => ⟨S_, .f32⟩
  | .hbm, ⟨7, _⟩ => ⟨S8192x20x256, .f32⟩
  | .hbm, ⟨8, _⟩ => ⟨S8192x20x256, .i1⟩
  | .hbm, ⟨9, _⟩ => ⟨S_, .f32⟩
  | .hbm, ⟨10, _⟩ => ⟨S8192x20x256, .f32⟩
  | .hbm, ⟨11, _⟩ => ⟨S8192x20x256, .f32⟩
  | .hbm, ⟨12, _⟩ => ⟨S_, .f32⟩
  | .hbm, ⟨13, _⟩ => ⟨S8192x20x256, .f32⟩
  | .hbm, ⟨14, _⟩ => ⟨S8192x20x256, .i1⟩
  | .hbm, ⟨15, _⟩ => ⟨S_, .f32⟩
  | .hbm, ⟨16, _⟩ => ⟨S8192x20x256, .f32⟩
  | .hbm, ⟨17, _⟩ => ⟨S8192x20x256, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S10, .f32⟩
  | .hbm, ⟨22, _⟩ => ⟨S8192x1, .i32⟩
  | .hbm, ⟨23, _⟩ => ⟨S10, .f32⟩
  | .hbm, ⟨24, _⟩ => ⟨S_, .f32⟩
  | .hbm, ⟨25, _⟩ => ⟨S10x20x256, .f32⟩
  | .hbm, ⟨26, _⟩ => ⟨S8192x1, .i32⟩
  | .hbm, ⟨27, _⟩ => ⟨S10x20x256, .f32⟩
  | .hbm, ⟨28, _⟩ => ⟨S_, .f32⟩
  | .hbm, ⟨29, _⟩ => ⟨S10, .f32⟩
  | .hbm, ⟨30, _⟩ => ⟨S10, .f32⟩
  | .hbm, ⟨31, _⟩ => ⟨S10x1x1, .f32⟩
  | .hbm, ⟨32, _⟩ => ⟨S10x20x256, .f32⟩
  | .hbm, ⟨33, _⟩ => ⟨S10x20x256, .f32⟩
  | .hbm, ⟨34, _⟩ => ⟨S10x20x256, .i1⟩
  | .hbm, ⟨35, _⟩ => ⟨S_, .f32⟩
  | .hbm, ⟨36, _⟩ => ⟨S10x20x256, .f32⟩
  | .hbm, ⟨37, _⟩ => ⟨S10x20x256, .f32⟩
  | .hbm, ⟨38, _⟩ => ⟨S_, .f32⟩
  | .hbm, ⟨39, _⟩ => ⟨S10x20x256, .f32⟩
  | .hbm, ⟨40, _⟩ => ⟨S10x20x256, .i1⟩
  | .hbm, ⟨41, _⟩ => ⟨S_, .f32⟩
  | .hbm, ⟨42, _⟩ => ⟨S10x20x256, .f32⟩
  | .hbm, ⟨43, _⟩ => ⟨S10x20x256, .f32⟩
  | .hbm, ⟨44, _⟩ => ⟨S_, .f32⟩
  | .hbm, ⟨45, _⟩ => ⟨S10x20x256, .f32⟩
  | .hbm, ⟨46, _⟩ => ⟨S10x20x256, .i1⟩
  | .hbm, ⟨47, _⟩ => ⟨S_, .f32⟩
  | .hbm, ⟨48, _⟩ => ⟨S10x20x256, .f32⟩
  | .hbm, ⟨49, _⟩ => ⟨S10x20x256, .f32⟩
  | .hbm, ⟨50, _⟩ => ⟨S_, .f32⟩
  | .hbm, ⟨51, _⟩ => ⟨S8192x20x256, .f32⟩
  | .hbm, ⟨52, _⟩ => ⟨S8192x20x256, .f32⟩
  | .hbm, ⟨53, _⟩ => ⟨S_, .i32⟩
  | .hbm, ⟨54, _⟩ => ⟨S8192, .i32⟩
  | .hbm, ⟨55, _⟩ => ⟨S8192, .i1⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .i32⟩
  | .hbm, ⟨60, _⟩ => ⟨S8192x1, .i32⟩
  | .hbm, ⟨61, _⟩ => ⟨S8192x20x256, .f32⟩
  | .hbm, ⟨62, _⟩ => ⟨S8192x20x256, .f32⟩
  | .hbm, ⟨63, _⟩ => ⟨S8192x20x256, .f32⟩
  | .hbm, ⟨64, _⟩ => ⟨S_, .f32⟩
  | .hbm, ⟨65, _⟩ => ⟨S8192, .f32⟩
  | .hbm, ⟨66, _⟩ => ⟨S_, .f32⟩
  | .hbm, ⟨67, _⟩ => ⟨S10, .f32⟩
  | .hbm, ⟨68, _⟩ => ⟨S8192x1, .i32⟩
  | .hbm, ⟨69, _⟩ => ⟨S10, .f32⟩
  | .hbm, ⟨70, _⟩ => ⟨S_, .f32⟩
  | .hbm, ⟨71, _⟩ => ⟨S10, .f32⟩
  | .hbm, ⟨72, _⟩ => ⟨S10, .f32⟩
  | .hbm, ⟨73, _⟩ => ⟨S_, .f32⟩
  | .hbm, ⟨74, _⟩ => ⟨S10, .f32⟩
  | .hbm, ⟨75, _⟩ => ⟨S10, .f32⟩
  | .hbm, ⟨76, _⟩ => ⟨S10, .f32⟩
  | .hbm, ⟨77, _⟩ => ⟨S_, .f32⟩
  | .hbm, ⟨78, _⟩ => ⟨S10, .f32⟩
  | .hbm, ⟨79, _⟩ => ⟨S10, .i1⟩
  | .hbm, ⟨80, _⟩ => ⟨S10, .i1⟩
  | .hbm, ⟨81, _⟩ => ⟨S_, .f32⟩
  | .hbm, ⟨82, _⟩ => ⟨S10, .f32⟩
  | .hbm, ⟨83, _⟩ => ⟨S10, .f32⟩
  | .hbm, ⟨84, _⟩ => ⟨S_, .f32⟩
  | .hbm, ⟨85, _⟩ => ⟨S10, .f32⟩
  | .hbm, ⟨86, _⟩ => ⟨S10, .i1⟩
  | .hbm, ⟨87, _⟩ => ⟨S_, .f32⟩
  | .hbm, ⟨88, _⟩ => ⟨S10, .f32⟩
  | .hbm, ⟨89, _⟩ => ⟨S10, .f32⟩
  | .hbm, ⟨90, _⟩ => ⟨S_, .f32⟩
  | .hbm, ⟨91, _⟩ => ⟨S10, .f32⟩
  | .hbm, ⟨92, _⟩ => ⟨S10, .i1⟩
  | .hbm, ⟨93, _⟩ => ⟨S_, .f32⟩
  | .hbm, ⟨94, _⟩ => ⟨S10, .f32⟩
  | .hbm, ⟨95, _⟩ => ⟨S10, .f32⟩
  | .hbm, ⟨96, _⟩ => ⟨S_, .f32⟩
  | .hbm, ⟨97, _⟩ => ⟨S_, .f32⟩
  | .hbm, ⟨98, _⟩ => ⟨S10, .f32⟩
  | .hbm, ⟨99, _⟩ => ⟨S10, .f32⟩
  | .hbm, ⟨100, _⟩ => ⟨S_, .f32⟩
  | .hbm, ⟨101, _⟩ => ⟨S_, .f32⟩
  | _, _ => ⟨S8192x20x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_call0_v0 : Ref sig .tc := ⟨.hbm, 4, rfl⟩
abbrev main_call0_v1 : Ref sig .tc := ⟨.hbm, 5, rfl⟩
abbrev main_call0_cst_0 : Ref sig .tc := ⟨.hbm, 6, rfl⟩
abbrev main_call0_v2 : Ref sig .tc := ⟨.hbm, 7, rfl⟩
abbrev main_call0_v3 : Ref sig .tc := ⟨.hbm, 8, rfl⟩
abbrev main_call0_cst_1 : Ref sig .tc := ⟨.hbm, 9, rfl⟩
abbrev main_call0_call1_v0 : Ref sig .tc := ⟨.hbm, 10, rfl⟩
abbrev main_call0_v4 : Ref sig .tc := ⟨.hbm, 11, rfl⟩
abbrev main_call0_cst_2 : Ref sig .tc := ⟨.hbm, 12, rfl⟩
abbrev main_call0_v5 : Ref sig .tc := ⟨.hbm, 13, rfl⟩
abbrev main_call0_v6 : Ref sig .tc := ⟨.hbm, 14, rfl⟩
abbrev main_call0_cst_3 : Ref sig .tc := ⟨.hbm, 15, rfl⟩
abbrev main_call0_call2_v0 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call1_v0 : Ref sig .tc := ⟨.hbm, 34, rfl⟩
abbrev main_call1_cst : Ref sig .tc := ⟨.hbm, 35, rfl⟩
abbrev main_call1_call0_v0 : Ref sig .tc := ⟨.hbm, 36, rfl⟩
abbrev main_call1_v1 : Ref sig .tc := ⟨.hbm, 37, rfl⟩
abbrev main_call1_cst_0 : Ref sig .tc := ⟨.hbm, 38, rfl⟩
abbrev main_call1_v2 : Ref sig .tc := ⟨.hbm, 39, rfl⟩
abbrev main_call1_v3 : Ref sig .tc := ⟨.hbm, 40, rfl⟩
abbrev main_call1_cst_1 : Ref sig .tc := ⟨.hbm, 41, rfl⟩
abbrev main_call1_call1_v0 : Ref sig .tc := ⟨.hbm, 42, rfl⟩
abbrev main_call1_v4 : Ref sig .tc := ⟨.hbm, 43, rfl⟩
abbrev main_call1_cst_2 : Ref sig .tc := ⟨.hbm, 44, rfl⟩
abbrev main_call1_v5 : Ref sig .tc := ⟨.hbm, 45, rfl⟩
abbrev main_call1_v6 : Ref sig .tc := ⟨.hbm, 46, rfl⟩
abbrev main_call1_cst_3 : Ref sig .tc := ⟨.hbm, 47, rfl⟩
abbrev main_call1_call2_v0 : Ref sig .tc := ⟨.hbm, 48, rfl⟩
abbrev main_v13 : Ref sig .tc := ⟨.hbm, 49, rfl⟩
abbrev main_cst_3 : Ref sig .tc := ⟨.hbm, 50, rfl⟩
abbrev main_v14 : Ref sig .tc := ⟨.hbm, 51, rfl⟩
abbrev main_v15 : Ref sig .tc := ⟨.hbm, 52, rfl⟩
abbrev main_c : Ref sig .tc := ⟨.hbm, 53, rfl⟩
abbrev main_v16 : Ref sig .tc := ⟨.hbm, 54, rfl⟩
abbrev main_v17 : Ref sig .tc := ⟨.hbm, 55, rfl⟩
abbrev main_c_4 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_5 : Ref sig .tc := ⟨.hbm, 64, rfl⟩
abbrev main_v25 : Ref sig .tc := ⟨.hbm, 65, rfl⟩
abbrev main_cst_6 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_cst_7 : Ref sig .tc := ⟨.hbm, 70, rfl⟩
abbrev main_v29 : Ref sig .tc := ⟨.hbm, 71, rfl⟩
abbrev main_v30 : Ref sig .tc := ⟨.hbm, 72, rfl⟩
abbrev main_cst_8 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_9 : Ref sig .tc := ⟨.hbm, 77, rfl⟩
abbrev main_v34 : Ref sig .tc := ⟨.hbm, 78, rfl⟩
abbrev main_v35 : Ref sig .tc := ⟨.hbm, 79, rfl⟩
abbrev main_call2_v0 : Ref sig .tc := ⟨.hbm, 80, rfl⟩
abbrev main_call2_cst : Ref sig .tc := ⟨.hbm, 81, rfl⟩
abbrev main_call2_call0_v0 : Ref sig .tc := ⟨.hbm, 82, rfl⟩
abbrev main_call2_v1 : Ref sig .tc := ⟨.hbm, 83, rfl⟩
abbrev main_call2_cst_0 : Ref sig .tc := ⟨.hbm, 84, rfl⟩
abbrev main_call2_v2 : Ref sig .tc := ⟨.hbm, 85, rfl⟩
abbrev main_call2_v3 : Ref sig .tc := ⟨.hbm, 86, rfl⟩
abbrev main_call2_cst_1 : Ref sig .tc := ⟨.hbm, 87, rfl⟩
abbrev main_call2_call1_v0 : Ref sig .tc := ⟨.hbm, 88, rfl⟩
abbrev main_call2_v4 : Ref sig .tc := ⟨.hbm, 89, rfl⟩
abbrev main_call2_cst_2 : Ref sig .tc := ⟨.hbm, 90, rfl⟩
abbrev main_call2_v5 : Ref sig .tc := ⟨.hbm, 91, rfl⟩
abbrev main_call2_v6 : Ref sig .tc := ⟨.hbm, 92, rfl⟩
abbrev main_call2_cst_3 : Ref sig .tc := ⟨.hbm, 93, rfl⟩
abbrev main_call2_call2_v0 : Ref sig .tc := ⟨.hbm, 94, rfl⟩
abbrev main_v36 : Ref sig .tc := ⟨.hbm, 95, rfl⟩
abbrev main_cst_10 : Ref sig .tc := ⟨.hbm, 96, rfl⟩
abbrev main_call3_v0 : Ref sig .tc := ⟨.hbm, 97, rfl⟩
abbrev main_call3_v1 : Ref sig .tc := ⟨.hbm, 98, rfl⟩
abbrev main_v37 : Ref sig .tc := ⟨.hbm, 99, rfl⟩
abbrev main_cst_11 : Ref sig .tc := ⟨.hbm, 100, rfl⟩
abbrev main_v38 : Ref sig .tc := ⟨.hbm, 101, rfl⟩

abbrev nD : Nat := 1
abbrev τ : Topo := Topo.v7x

variable {F : FTy → Type} [FloatOps F]

class Facts₀ : Prop where
  bcast_S_S8192x20x256 : S_.BroadcastsInDim S8192x20x256 (![] : Fin 0 → Fin S8192x20x256.rank)
  bcast_S_S8192 : S_.BroadcastsInDim S8192 (![] : Fin 0 → Fin S8192.rank)
  bcast_S_S10 : S_.BroadcastsInDim S10 (![] : Fin 0 → Fin S10.rank)
  bcast_S8192_S8192x1_0 : S8192.BroadcastsInDim S8192x1 (![0] : Fin 1 → Fin S8192x1.rank)
  bcast_S_S10x20x256 : S_.BroadcastsInDim S10x20x256 (![] : Fin 0 → Fin S10x20x256.rank)
  bcast_S10_S10x1x1_0 : S10.BroadcastsInDim S10x1x1 (![0] : Fin 1 → Fin S10x1x1.rank)
  bcast_S10x1x1_S10x20x256_0_1_2 : S10x1x1.BroadcastsInDim S10x20x256 (![0, 1, 2] : Fin 3 → Fin S10x20x256.rank)
  reducesTo_S8192x20x256_S8192_d1_2 : S8192x20x256.ReducesTo [1, 2] S8192
  h_S_ : 0 < S_.numel
  reducesTo_S10_S_d0 : S10.ReducesTo [0] S_
  scatter_S10_S8192x1_S8192_n_0_0_1_wf : ScatterDims.WF S10 S8192x1 S8192 [] [0] [0] 1
  scatter_S10x20x256_S8192x1_S8192x20x256_12_0_0_1_wf : ScatterDims.WF S10x20x256 S8192x1 S8192x20x256 [1, 2] [0] [0] 1
  gather_S10x20x256_S8192x1_S8192x20x256_12_0_n_n_0_1_120256_wf : GatherDims.WF S10x20x256 S8192x1 S8192x20x256 [1, 2] [0] [] [0] [] 1 ![1, 20, 256]

variable [Facts₀]

def scatter_S10_S8192x1_S8192_n_0_0_1 : ScatterDims S10 S8192x1 S8192 where
  updateWindowDims := []
  insertedWindowDims := [0]
  scatterDimsToOperandDims := [0]
  indexVectorDim := 1
  wf := scatter_S10_S8192x1_S8192_n_0_0_1_wf
def scatter_S10x20x256_S8192x1_S8192x20x256_12_0_0_1 : ScatterDims S10x20x256 S8192x1 S8192x20x256 where
  updateWindowDims := [1, 2]
  insertedWindowDims := [0]
  scatterDimsToOperandDims := [0]
  indexVectorDim := 1
  wf := scatter_S10x20x256_S8192x1_S8192x20x256_12_0_0_1_wf
def gather_S10x20x256_S8192x1_S8192x20x256_12_0_n_n_0_1_120256 : GatherDims S10x20x256 S8192x1 S8192x20x256 where
  offsetDims := [1, 2]
  collapsedSliceDims := [0]
  operandBatchingDims := []
  startIndicesBatchingDims := []
  startIndexMap := [0]
  indexVectorDim := 1
  sliceSizes := ![1, 20, 256]
  wf := gather_S10x20x256_S8192x1_S8192x20x256_12_0_n_n_0_1_120256_wf

class Facts : Prop extends Facts₀ where

variable [Facts]
-- ==== Proof.K.Kit.lean ====
import proofs.«411193_j75273596830476_3_alg».proof.Proof.Gen.Kernel.Launch
import proofs.«411193_j75273596830476_3_alg».proof.Proof.Gen.Kernel.Skeleton
import proofs.«411193_j75273596830476_3_alg».proof.Proof.Gen.Kernel.Points
import proofs.«411193_j75273596830476_3_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the region -/

/-- The seven stretches of host operations after the region, in program order. -/
abbrev tailOps : List (List (HloOp τ sig (Elt F))) :=
  [Gen.hostOps1, Gen.hostOps1_1, Gen.hostOps1_2, Gen.hostOps1_3, Gen.hostOps1_4, Gen.hostOps1_5, Gen.hostOps1_6]

/-- A core's buffer contents when the region is entered: the launch contents after the two reshapes. -/
abbrev V0 (c : Dev nD) : Valuation τ sig (Elt F) := StableHlo.after (List.flatten [Gen.hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (Gen.hostOps0 : List (HloOp τ sig (Elt F))).Forall fun op => op.fresh = ∅ := by
  simp only [List.Forall]; repeat' constructor
theorem hostOps1_fresh : (Gen.hostOps1 : List (HloOp τ sig (Elt F))).Forall fun op => op.fresh = ∅ := by
  simp only [List.Forall]; repeat' constructor
theorem hostOps1_1_fresh : (Gen.hostOps1_1 : List (HloOp τ sig (Elt F))).Forall fun op => op.fresh = ∅ := by
  simp only [List.Forall]; repeat' constructor
theorem hostOps1_2_fresh : (Gen.hostOps1_2 : List (HloOp τ sig (Elt F))).Forall fun op => op.fresh = ∅ := by
  simp only [List.Forall]; repeat' constructor
theorem hostOps1_3_fresh : (Gen.hostOps1_3 : List (HloOp τ sig (Elt F))).Forall fun op => op.fresh = ∅ := by
  simp only [List.Forall]; repeat' constructor
theorem hostOps1_4_fresh : (Gen.hostOps1_4 : List (HloOp τ sig (Elt F))).Forall fun op => op.fresh = ∅ := by
  simp only [List.Forall]; repeat' constructor
theorem hostOps1_5_fresh : (Gen.hostOps1_5 : List (HloOp τ sig (Elt F))).Forall fun op => op.fresh = ∅ := by
  simp only [List.Forall]; repeat' constructor
theorem hostOps1_6_fresh : (Gen.hostOps1_6 : List (HloOp τ sig (Elt F))).Forall fun op => op.fresh = ∅ := by
  simp only [List.Forall]; repeat' constructor

/-- The program is the two reshapes, the region, then the seven later stretches: so it reduces to the region
    continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [Gen.hostOps0] tailOps (by simp only [List.Forall]; exact Gen.hostOps0_sub)
    (by simp only [List.Forall]; exact hostOps0_fresh) Gen.main_chain

/-- Membership in the later stretches, stretch by stretch. -/
theorem tail_cases {p : List (HloOp τ sig (Elt F)) → Prop} (h : p Gen.hostOps1 ∧ p Gen.hostOps1_1 ∧ p Gen.hostOps1_2 ∧ p Gen.hostOps1_3 ∧ p Gen.hostOps1_4 ∧ p Gen.hostOps1_5 ∧ p Gen.hostOps1_6) :
    ∀ ops ∈ (tailOps : List (List (HloOp τ sig (Elt F)))), p ops := by
  intro ops hops
  simp only [List.mem_cons, List.mem_nil_iff, or_false] at hops
  obtain ⟨h0, h1, h2, h3, h4, h5, h6⟩ := h
  rcases hops with rfl | rfl | rfl | rfl | rfl | rfl | rfl
  exacts [h0, h1, h2, h3, h4, h5, h6]

/-- Every later operation touches unscoped TensorCore buffers only, which are the arrays and the bypassing buffers. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  refine tail_cases (p := fun ops => ∀ op ∈ ops, op.bufs ⊆ Pipeline.ucRefs τ sig) ⟨?_, ?_, ?_, ?_, ?_, ?_, ?_⟩
  · exact fun op hop => Pipeline.sub_ucRefs op ((List.forall_iff_forall_mem.mp Gen.hostOps1_sub) op hop)
  · exact fun op hop => Pipeline.sub_ucRefs op ((List.forall_iff_forall_mem.mp Gen.hostOps1_1_sub) op hop)
  · exact fun op hop => Pipeline.sub_ucRefs op ((List.forall_iff_forall_mem.mp Gen.hostOps1_2_sub) op hop)
  · exact fun op hop => Pipeline.sub_ucRefs op ((List.forall_iff_forall_mem.mp Gen.hostOps1_3_sub) op hop)
  · exact fun op hop => Pipeline.sub_ucRefs op ((List.forall_iff_forall_mem.mp Gen.hostOps1_4_sub) op hop)
  · exact fun op hop => Pipeline.sub_ucRefs op ((List.forall_iff_forall_mem.mp Gen.hostOps1_5_sub) op hop)
  · exact fun op hop => Pipeline.sub_ucRefs op ((List.forall_iff_forall_mem.mp Gen.hostOps1_6_sub) op hop)

/-- None allocates. -/
theorem sfx_fresh : ∀ ops ∈ (tailOps : List (List (HloOp τ sig (Elt F)))), ∀ op ∈ ops, op.fresh = ∅ :=
  tail_cases (p := fun ops => ∀ op ∈ ops, op.fresh = ∅)
    ⟨List.forall_iff_forall_mem.mp hostOps1_fresh, List.forall_iff_forall_mem.mp hostOps1_1_fresh, List.forall_iff_forall_mem.mp hostOps1_2_fresh, List.forall_iff_forall_mem.mp hostOps1_3_fresh, List.forall_iff_forall_mem.mp hostOps1_4_fresh, List.forall_iff_forall_mem.mp hostOps1_5_fresh, List.forall_iff_forall_mem.mp hostOps1_6_fresh⟩

/-- The references whose contents the later operations leave alone: the two arguments and the five arrays. -/
abbrev keptRefs : List (Ref sig .tc) := [main_arg0, main_arg1, main_v0, main_v1, main_v2_0, main_v2_1, main_v2_2]

theorem hostOps1_keeps (r : Ref sig .tc) (hr : r ∈ keptRefs) :
    (Gen.hostOps1 : List (HloOp τ sig (Elt F))).Forall fun op => Proc.devRef .tc r ∉ op.writes := by
  simp only [keptRefs, List.mem_cons, List.mem_nil_iff, or_false] at hr
  rcases hr with rfl | rfl | rfl | rfl | rfl | rfl | rfl <;>
    (simp only [Gen.hostOps1, List.Forall, StableHlo.nullary_writes, StableHlo.unary_writes, StableHlo.binary_writes, StableHlo.ternary_writes, StableHlo.quaternary_writes, StableHlo.reshape_writes, Finset.mem_singleton]
     repeat' apply And.intro
     all_goals exact StableHlo.devRef_ne_of_ne (by decide))
theorem hostOps1_1_keeps (r : Ref sig .tc) (hr : r ∈ keptRefs) :
    (Gen.hostOps1_1 : List (HloOp τ sig (Elt F))).Forall fun op => Proc.devRef .tc r ∉ op.writes := by
  simp only [keptRefs, List.mem_cons, List.mem_nil_iff, or_false] at hr
  rcases hr with rfl | rfl | rfl | rfl | rfl | rfl | rfl <;>
    (simp only [Gen.hostOps1_1, List.Forall, StableHlo.nullary_writes, StableHlo.unary_writes, StableHlo.binary_writes, StableHlo.ternary_writes, StableHlo.quaternary_writes, StableHlo.reshape_writes, Finset.mem_singleton]
     repeat' apply And.intro
     all_goals exact StableHlo.devRef_ne_of_ne (by decide))
theorem hostOps1_2_keeps (r : Ref sig .tc) (hr : r ∈ keptRefs) :
    (Gen.hostOps1_2 : List (HloOp τ sig (Elt F))).Forall fun op => Proc.devRef .tc r ∉ op.writes := by
  simp only [keptRefs, List.mem_cons, List.mem_nil_iff, or_false] at hr
  rcases hr with rfl | rfl | rfl | rfl | rfl | rfl | rfl <;>
    (simp only [Gen.hostOps1_2, List.Forall, StableHlo.nullary_writes, StableHlo.unary_writes, StableHlo.binary_writes, StableHlo.ternary_writes, StableHlo.quaternary_writes, StableHlo.reshape_writes, Finset.mem_singleton]
     repeat' apply And.intro
     all_goals exact StableHlo.devRef_ne_of_ne (by decide))
theorem hostOps1_3_keeps (r : Ref sig .tc) (hr : r ∈ keptRefs) :
    (Gen.hostOps1_3 : List (HloOp τ sig (Elt F))).Forall fun op => Proc.devRef .tc r ∉ op.writes := by
  simp only [keptRefs, List.mem_cons, List.mem_nil_iff, or_false] at hr
  rcases hr with rfl | rfl | rfl | rfl | rfl | rfl | rfl <;>
    (simp only [Gen.hostOps1_3, List.Forall, StableHlo.nullary_writes, StableHlo.unary_writes, StableHlo.binary_writes, StableHlo.ternary_writes, StableHlo.quaternary_writes, StableHlo.reshape_writes, Finset.mem_singleton]
     repeat' apply And.intro
     all_goals exact StableHlo.devRef_ne_of_ne (by decide))
theorem hostOps1_4_keeps (r : Ref sig .tc) (hr : r ∈ keptRefs) :
    (Gen.hostOps1_4 : List (HloOp τ sig (Elt F))).Forall fun op => Proc.devRef .tc r ∉ op.writes := by
  simp only [keptRefs, List.mem_cons, List.mem_nil_iff, or_false] at hr
  rcases hr with rfl | rfl | rfl | rfl | rfl | rfl | rfl <;>
    (simp only [Gen.hostOps1_4, List.Forall, StableHlo.nullary_writes, StableHlo.unary_writes, StableHlo.binary_writes, StableHlo.ternary_writes, StableHlo.quaternary_writes, StableHlo.reshape_writes, Finset.mem_singleton]
     repeat' apply And.intro
     all_goals exact StableHlo.devRef_ne_of_ne (by decide))
theorem hostOps1_5_keeps (r : Ref sig .tc) (hr : r ∈ keptRefs) :
    (Gen.hostOps1_5 : List (HloOp τ sig (Elt F))).Forall fun op => Proc.devRef .tc r ∉ op.writes := by
  simp only [keptRefs, List.mem_cons, List.mem_nil_iff, or_false] at hr
  rcases hr with rfl | rfl | rfl | rfl | rfl | rfl | rfl <;>
    (simp only [Gen.hostOps1_5, List.Forall, StableHlo.nullary_writes, StableHlo.unary_writes, StableHlo.binary_writes, StableHlo.ternary_writes, StableHlo.quaternary_writes, StableHlo.reshape_writes, Finset.mem_singleton]
     repeat' apply And.intro
     all_goals exact StableHlo.devRef_ne_of_ne (by decide))
theorem hostOps1_6_keeps (r : Ref sig .tc) (hr : r ∈ keptRefs) :
    (Gen.hostOps1_6 : List (HloOp τ sig (Elt F))).Forall fun op => Proc.devRef .tc r ∉ op.writes := by
  simp only [keptRefs, List.mem_cons, List.mem_nil_iff, or_false] at hr
  rcases hr with rfl | rfl | rfl | rfl | rfl | rfl | rfl <;>
    (simp only [Gen.hostOps1_6, List.Forall, StableHlo.nullary_writes, StableHlo.unary_writes, StableHlo.binary_writes, StableHlo.ternary_writes, StableHlo.quaternary_writes, StableHlo.reshape_writes, Finset.mem_singleton]
     repeat' apply And.intro
     all_goals exact StableHlo.devRef_ne_of_ne (by decide))

/-- Each later operation writes its own result only, which is none of the kept references. -/
theorem tail_keeps (r : Ref sig .tc) (hr : r ∈ keptRefs) :
    ∀ ops ∈ (tailOps : List (List (HloOp τ sig (Elt F)))), ∀ op ∈ ops, Proc.devRef .tc r ∉ op.writes :=
  tail_cases (p := fun ops => ∀ op ∈ ops, Proc.devRef .tc r ∉ op.writes)
    ⟨List.forall_iff_forall_mem.mp (hostOps1_keeps r hr), List.forall_iff_forall_mem.mp (hostOps1_1_keeps r hr), List.forall_iff_forall_mem.mp (hostOps1_2_keeps r hr), List.forall_iff_forall_mem.mp (hostOps1_3_keeps r hr), List.forall_iff_forall_mem.mp (hostOps1_4_keeps r hr), List.forall_iff_forall_mem.mp (hostOps1_5_keeps r hr), List.forall_iff_forall_mem.mp (hostOps1_6_keeps r hr)⟩

/-- In particular none writes an array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_keeps main_v0 (by decide) ops hops op hop
  · exact tail_keeps main_v1 (by decide) ops hops op hop
  · exact tail_keeps main_v2_0 (by decide) ops hops op hop
  · exact tail_keeps main_v2_1 (by decide) ops hops op hop
  · exact tail_keeps main_v2_2 (by decide) ops hops op hop

/-- The reshapes before the region write their own results, not the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [Gen.hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [Gen.hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block of the flattened input is in its staging buffer at every point: fetched there at each. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the labels' row block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments after the whole program -/

/-- An argument is no array of the region and no later operation writes it: after the later operations it holds
    what the region found, which is what was launched. -/
theorem afterTail_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem _ _ fun op hop => ?_, Pipeline.withArrays_of_ne _ c (V0 m c) _ main_arg0 (by decide)]
  · exact V_main_arg0 m c
  · obtain ⟨ops, hops, hop'⟩ := List.mem_flatten.mp hop
    exact tail_keeps main_arg0 (by decide) ops hops op hop'
theorem afterTail_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem _ _ fun op hop => ?_, Pipeline.withArrays_of_ne _ c (V0 m c) _ main_arg1 (by decide)]
  · exact V_main_arg1 m c
  · obtain ⟨ops, hops, hop'⟩ := List.mem_flatten.mp hop
    exact tail_keeps main_arg1 (by decide) ops hops op hop'

/-- The frame claim's post from the frame run's: both arguments are unscoped buffers that no window stages, so the
    run's post gives each at its contents after the later operations. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (afterTail_main_arg0 m dats c),
     ((h c).2 main_arg1 (Pipeline.mem_restRefs_of main_arg1 (by decide) (by decide))).trans (afterTail_main_arg1 m dats c)⟩) h

/-! ## The body's one condition -/

/-- The reset's condition from the grid coordinates: the second coordinate is zero. -/
abbrev cond0_0 (i : grid0.Coords) : Prop := (Scalar.cmpi .ne (Scalar.extui (Scalar.cmpi .eq (BitVec.ofNat 32 (i 1).val) 0#32)) 0#32) = 1#1
/-- It holds exactly at the first point of each row of the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The memrefs the body is called on -/

/-- One staging buffer of each output window, through which its contents are stated. -/
abbrev VO0_2 : View sig .tc .vmem S1x10x5120 .f32 := (Memref.whole cc0_stg2_0 : Memref sig .tc .vmem S1x10x5120 .f32).view
abbrev VO0_3 : View sig .tc .vmem S1x10x1 .f32 := (Memref.whole cc0_stg3_0 : Memref sig .tc .vmem S1x10x1 .f32).view
abbrev VO0_4 : View sig .tc .vmem S1x10x1 .f32 := (Memref.whole cc0_stg4_0 : Memref sig .tc .vmem S1x10x1 .f32).view
/-- Each window's current staging memref at a point, and its wholeness. -/
abbrev ms0_0 (t : Fin cfg0.N) : Memref sig .tc .vmem S512x5120 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x10x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x10x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x10x1 .f32 := win0_4.stage (cfg0.slots t 4)
abbrev hs0_4 (t : Fin cfg0.N) : (ms0_4 t).IsWhole := hstage0_4 ((cfg0.slots t 4).cast nbuf0_4)
/-- The per-row squared-norm scratch: a whole scoped buffer of the kernel's own. -/
abbrev scM0_0 : Memref sig .tc .vmem S512x1 .f32 := Memref.whole cc0_scratch0
abbrev VS0_0 : View sig .tc .vmem S512x1 .f32 := scM0_0.view

/-- The region invariant is the scratch owned at some contents and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
import proofs.«411193_j75273596830476_3_alg».proof.Proof.K.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four trips of the row-chunk loop write the four 128-row quarters of the 512-row scratch column, so their
    pieces cover it. -/
theorem scratch_cover (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole)
    (X : BufTy.Contents (Elt F) arg2.view.ty) (y : S512x1.Idx) :
    ∃ pc ∈ pb_k0_t1 (F := F) Variants.none c none i arg2 harg2 arg3 harg3 arg4 harg4 arg5 harg5 arg6 harg6 arg7 harg7 X (Scf.trips k0_t1_loop.lb k0_t1_loop.ub k0_t1_loop.st), y ∈ pc.1.set :=
  View.cover_of_tiledL (s := S512x1) _ S128x1.size (by sl_kernel_rfl) y

set_option maxHeartbeats 1000000 in
/-- The body where the second grid coordinate is zero. The three accumulators are zero-filled before they are
    read, so their buffers come in at any contents; the scratch column is rewritten by the loop's four trips before
    its whole load, so it too comes in at any contents, and that load reads the trips' pieces alone. The four piece
    lists are what the stores leave, last first. -/
noncomputable def kernelRun0_A (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i)
    (x0 : Vec F S512x5120 .f32) (x1 : Vec F S512x1 .i32) :
    Σ' (L2 : List (View.Piece (Elt F) S1x10x5120 .f32)) (L3 : List (View.Piece (Elt F) S1x10x1 .f32)) (L4 : List (View.Piece (Elt F) S1x10x1 .f32)),
    { LS0 : List (View.Piece (Elt F) S512x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__sums_sq_kernel i arg2 harg2 arg3 harg3 arg4 harg4 arg5 harg5 arg6 harg6 arg7 harg7) K } := by
  refine ⟨?_, ?_, ?_, ?_, fun E K => ?run⟩
  case run =>
    simp only [cc0__sums_sq_kernel_eq_skeleton]; unfold cc0__sums_sq_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, Hk⟩
    obtain rfl := harg2.eq_unread hf0; obtain rfl := harg3.eq_unread hf1
    sl_exec (disch := first | exact hc0)
    sl_unfold_run_names
    rw [View.readAt_writes_of_cover arg7.view fs0 _ _ (fun j => scratch_cover c i arg2 harg2 arg3 harg3 arg4 harg4 arg5 harg5 arg6 harg6 arg7 harg7 (harg2.unread x0) _)]
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact HS0

end Cert.Kernel.Hand

end
-- ==== Proof.K.RunB.lean ====
import proofs.«411193_j75273596830476_3_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the second grid coordinate is not zero. Nothing is reset: the three accumulators are read
    before they are covered, so they come in at what the point before left (`xo2`, `xo3`, `xo4`); the scratch
    column is again rewritten before its whole load and comes in at any contents. -/
noncomputable def kernelRun0_B (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i)
    (x0 : Vec F S512x5120 .f32) (x1 : Vec F S512x1 .i32) (xo2 : Vec F S1x10x5120 .f32) (xo3 : Vec F S1x10x1 .f32) (xo4 : Vec F S1x10x1 .f32) :
    Σ' (L2 : List (View.Piece (Elt F) S1x10x5120 .f32)) (L3 : List (View.Piece (Elt F) S1x10x1 .f32)) (L4 : List (View.Piece (Elt F) S1x10x1 .f32)),
    { LS0 : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__sums_sq_kernel i arg2 harg2 arg3 harg3 arg4 harg4 arg5 harg5 arg6 harg6 arg7 harg7) K } := by
  refine ⟨?_, ?_, ?_, ?_, fun E K => ?run⟩
  case run =>
    simp only [cc0__sums_sq_kernel_eq_skeleton]; unfold cc0__sums_sq_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_unfold_run_names
    rw [View.readAt_writes_of_cover arg7.view fs0 _ _ (fun j => scratch_cover c i arg2 harg2 arg3 harg3 arg4 harg4 arg5 harg5 arg6 harg6 arg7 harg7 (harg2.unread x0) _)]
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact HS0

end Cert.Kernel.Hand

end
-- ==== Proof.K.Frame.lean ====
import proofs.«411193_j75273596830476_3_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the reset case the stores into the per-label sums' block tile it, so they cover it. -/
theorem cover0_A_2 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i) (x0 : Vec F S512x5120 .f32) (x1 : Vec F S512x1 .i32) (y : S1x10x5120.Idx) :
    ∃ pc ∈ (kernelRun0_A c i arg2 harg2 arg3 harg3 arg4 harg4 arg5 harg5 arg6 harg6 arg7 harg7 hc0 x0 x1).1, y ∈ pc.1.set :=
  View.cover_of_tiledL (kernelRun0_A c i arg2 harg2 arg3 harg3 arg4 harg4 arg5 harg5 arg6 harg6 arg7 harg7 hc0 x0 x1).1 S1x10x5120.size (by sl_kernel_rfl) y

/-- What the reset case leaves in that block: its pieces read back, whatever was there before. -/
def out0_A_2 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i) (x0 : Vec F S512x5120 .f32) (x1 : Vec F S512x1 .i32) : Vec F S1x10x5120 .f32 :=
  VO0_2.read (Elt F) (VO0_2.writes (Elt F) VO0_2.junk (kernelRun0_A c i arg2 harg2 arg3 harg3 arg4 harg4 arg5 harg5 arg6 harg6 arg7 harg7 hc0 x0 x1).1)

/-- In the reset case the stores into the per-label sums of squares' block tile it, so they cover it. -/
theorem cover0_A_3 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i) (x0 : Vec F S512x5120 .f32) (x1 : Vec F S512x1 .i32) (y : S1x10x1.Idx) :
    ∃ pc ∈ (kernelRun0_A c i arg2 harg2 arg3 harg3 arg4 harg4 arg5 harg5 arg6 harg6 arg7 harg7 hc0 x0 x1).2.1, y ∈ pc.1.set :=
  View.cover_of_tiledL (kernelRun0_A c i arg2 harg2 arg3 harg3 arg4 harg4 arg5 harg5 arg6 harg6 arg7 harg7 hc0 x0 x1).2.1 S1x10x1.size (by sl_kernel_rfl) y

/-- What the reset case leaves in that block: its pieces read back, whatever was there before. -/
def out0_A_3 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i) (x0 : Vec F S512x5120 .f32) (x1 : Vec F S512x1 .i32) : Vec F S1x10x1 .f32 :=
  VO0_3.read (Elt F) (VO0_3.writes (Elt F) VO0_3.junk (kernelRun0_A c i arg2 harg2 arg3 harg3 arg4 harg4 arg5 harg5 arg6 harg6 arg7 harg7 hc0 x0 x1).2.1)

/-- In the reset case the stores into the per-label counts' block tile it, so they cover it. -/
theorem cover0_A_4 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i) (x0 : Vec F S512x5120 .f32) (x1 : Vec F S512x1 .i32) (y : S1x10x1.Idx) :
    ∃ pc ∈ (kernelRun0_A c i arg2 harg2 arg3 harg3 arg4 harg4 arg5 harg5 arg6 harg6 arg7 harg7 hc0 x0 x1).2.2.1, y ∈ pc.1.set :=
  View.cover_of_tiledL (kernelRun0_A c i arg2 harg2 arg3 harg3 arg4 harg4 arg5 harg5 arg6 harg6 arg7 harg7 hc0 x0 x1).2.2.1 S1x10x1.size (by sl_kernel_rfl) y

/-- What the reset case leaves in that block: its pieces read back, whatever was there before. -/
def out0_A_4 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i) (x0 : Vec F S512x5120 .f32) (x1 : Vec F S512x1 .i32) : Vec F S1x10x1 .f32 :=
  VO0_4.read (Elt F) (VO0_4.writes (Elt F) VO0_4.junk (kernelRun0_A c i arg2 harg2 arg3 harg3 arg4 harg4 arg5 harg5 arg6 harg6 arg7 harg7 hc0 x0 x1).2.2.1)

/-- In the carrying case the stores into the per-label sums' block tile it, so they cover it. -/
theorem cover0_B_2 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i) (x0 : Vec F S512x5120 .f32) (x1 : Vec F S512x1 .i32) (xo2 : Vec F S1x10x5120 .f32) (xo3 : Vec F S1x10x1 .f32) (xo4 : Vec F S1x10x1 .f32) (y : S1x10x5120.Idx) :
    ∃ pc ∈ (kernelRun0_B c i arg2 harg2 arg3 harg3 arg4 harg4 arg5 harg5 arg6 harg6 arg7 harg7 hc0 x0 x1 xo2 xo3 xo4).1, y ∈ pc.1.set :=
  View.cover_of_tiledL (kernelRun0_B c i arg2 harg2 arg3 harg3 arg4 harg4 arg5 harg5 arg6 harg6 arg7 harg7 hc0 x0 x1 xo2 xo3 xo4).1 S1x10x5120.size (by sl_kernel_rfl) y

/-- What the carrying case leaves in that block: its pieces read back, whatever was there before. -/
def out0_B_2 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i) (x0 : Vec F S512x5120 .f32) (x1 : Vec F S512x1 .i32) (xo2 : Vec F S1x10x5120 .f32) (xo3 : Vec F S1x10x1 .f32) (xo4 : Vec F S1x10x1 .f32) : Vec F S1x10x5120 .f32 :=
  VO0_2.read (Elt F) (VO0_2.writes (Elt F) VO0_2.junk (kernelRun0_B c i arg2 harg2 arg3 harg3 arg4 harg4 arg5 harg5 arg6 harg6 arg7 harg7 hc0 x0 x1 xo2 xo3 xo4).1)

/-- In the carrying case the stores into the per-label sums of squares' block tile it, so they cover it. -/
theorem cover0_B_3 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i) (x0 : Vec F S512x5120 .f32) (x1 : Vec F S512x1 .i32) (xo2 : Vec F S1x10x5120 .f32) (xo3 : Vec F S1x10x1 .f32) (xo4 : Vec F S1x10x1 .f32) (y : S1x10x1.Idx) :
    ∃ pc ∈ (kernelRun0_B c i arg2 harg2 arg3 harg3 arg4 harg4 arg5 harg5 arg6 harg6 arg7 harg7 hc0 x0 x1 xo2 xo3 xo4).2.1, y ∈ pc.1.set :=
  View.cover_of_tiledL (kernelRun0_B c i arg2 harg2 arg3 harg3 arg4 harg4 arg5 harg5 arg6 harg6 arg7 harg7 hc0 x0 x1 xo2 xo3 xo4).2.1 S1x10x1.size (by sl_kernel_rfl) y

/-- What the carrying case leaves in that block: its pieces read back, whatever was there before. -/
def out0_B_3 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i) (x0 : Vec F S512x5120 .f32) (x1 : Vec F S512x1 .i32) (xo2 : Vec F S1x10x5120 .f32) (xo3 : Vec F S1x10x1 .f32) (xo4 : Vec F S1x10x1 .f32) : Vec F S1x10x1 .f32 :=
  VO0_3.read (Elt F) (VO0_3.writes (Elt F) VO0_3.junk (kernelRun0_B c i arg2 harg2 arg3 harg3 arg4 harg4 arg5 harg5 arg6 harg6 arg7 harg7 hc0 x0 x1 xo2 xo3 xo4).2.1)

/-- In the carrying case the stores into the per-label counts' block tile it, so they cover it. -/
theorem cover0_B_4 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i) (x0 : Vec F S512x5120 .f32) (x1 : Vec F S512x1 .i32) (xo2 : Vec F S1x10x5120 .f32) (xo3 : Vec F S1x10x1 .f32) (xo4 : Vec F S1x10x1 .f32) (y : S1x10x1.Idx) :
    ∃ pc ∈ (kernelRun0_B c i arg2 harg2 arg3 harg3 arg4 harg4 arg5 harg5 arg6 harg6 arg7 harg7 hc0 x0 x1 xo2 xo3 xo4).2.2.1, y ∈ pc.1.set :=
  View.cover_of_tiledL (kernelRun0_B c i arg2 harg2 arg3 harg3 arg4 harg4 arg5 harg5 arg6 harg6 arg7 harg7 hc0 x0 x1 xo2 xo3 xo4).2.2.1 S1x10x1.size (by sl_kernel_rfl) y

/-- What the carrying case leaves in that block: its pieces read back, whatever was there before. -/
def out0_B_4 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i) (x0 : Vec F S512x5120 .f32) (x1 : Vec F S512x1 .i32) (xo2 : Vec F S1x10x5120 .f32) (xo3 : Vec F S1x10x1 .f32) (xo4 : Vec F S1x10x1 .f32) : Vec F S1x10x1 .f32 :=
  VO0_4.read (Elt F) (VO0_4.writes (Elt F) VO0_4.junk (kernelRun0_B c i arg2 harg2 arg3 harg3 arg4 harg4 arg5 harg5 arg6 harg6 arg7 harg7 hc0 x0 x1 xo2 xo3 xo4).2.2.1)

/-! ## What the three accumulators hold after each point -/

/-- The accumulation along a row of the grid. After the point at position `n` the three output blocks hold: at a
    row's first point, what the reset case leaves from the point's two input blocks; at any other point, what the
    carrying case leaves from them and from what the point before left (no block is written back in between). -/
def outsAt0 (c : Dev nD) : (n : ℕ) → n < cfg0.N → Vec F S1x10x5120 .f32 × Vec F S1x10x1 .f32 × Vec F S1x10x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2)

/-- At a row's first point: the reset case's contents. -/
theorem outsAt0_A (c : Dev nD) (t : Fin cfg0.N) (h0 : t.val % 8 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t)) := by
  obtain ⟨n, hn⟩ := t
  cases n with
  | zero => exact rfl
  | succ n => exact (dif_pos h0).trans rfl

/-- At any other point: the carrying case's contents over what the point before left. -/
theorem outsAt0_B (c : Dev nD) (t : Fin cfg0.N) (h0 : ¬t.val % 8 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region's proof data -/

/-- On core `c`: the arrays as the region finds them; after the body at a point each input's buffer still at its
    block and the three outputs' at `outsAt0`; the invariant the scratch at some contents with the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- Away from a row's first point the per-label sums' staging buffer holds what the body left at the point before: that point
    is not a row's last, so the block was not written back in between. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
/-- Away from a row's first point the per-label sums of squares' staging buffer holds what the body left at the point before: that point
    is not a row's last, so the block was not written back in between. -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]
/-- Away from a row's first point the per-label counts' staging buffer holds what the body left at the point before: that point
    is not a row's last, so the block was not written back in between. -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)).2.2 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point. The inputs' buffers hold their blocks; the point is a row's first or not; in the second
    case the outputs' buffers hold what the point before left; so that case's run applies. The invariant lends the
    scratch at whatever it holds and takes it back at whatever the run leaves; nothing is owed throughout. Each
    output's buffer ends at its pieces read back, by the cover. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  have hN : t.val < 16 := lt_of_lt_of_eq t.isLt (show cfg0.N = 16 from N_0)
  by_cases h0 : t.val % 8 = 0
  · rw [outsAt0_A m c t h0]
    unfold out0_A_2 out0_A_3 out0_A_4; dsimp only
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (iblk m c 0 t) (iblk m c 1 t)).2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    iintro ⟨H0, H1, ⟨%e2, H2⟩, ⟨%e3, H3⟩, ⟨%e4, H4⟩, ⟨%es0, HS0⟩⟩
    isplitl [HS0 Hg]
    · isplitl [HS0]
      · iexists (VS0_0.read (Elt F) _); unfold owns; iexists _; isplitr
        swap; · iexact HS0
        ipureintro; rfl
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_2_B m c t h0, before0_3_B m c t h0, before0_4_B m c t h0]
    unfold out0_B_2 out0_B_3 out0_B_4; dsimp only
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk m c 0 t) (iblk m c 1 t) _ _ _).2.2.2.2 Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, ⟨%e2, H2⟩, ⟨%e3, H3⟩, ⟨%e4, H4⟩, ⟨%es0, HS0⟩⟩
    isplitl [HS0 Hg]
    · isplitl [HS0]
      · iexists (VS0_0.read (Elt F) _); unfold owns; iexists _; isplitr
        swap; · iexact HS0
        ipureintro; rfl
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the TensorCores terminates
    without a fault; at the end each array of the region holds what the proof data give it and every other unscoped
    buffer what the later host operations leave in it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- The frame claim at any float instance: the program runs to the end and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Hand

end
-- ==== Proof.KI.Kit.lean ====
import proofs.«411193_j75273596830476_3_alg».proof.Proof.Gen.KernelIdeal.Launch
import proofs.«411193_j75273596830476_3_alg».proof.Proof.Gen.KernelIdeal.Skeleton
import proofs.«411193_j75273596830476_3_alg».proof.Proof.Gen.KernelIdeal.Points
import proofs.«411193_j75273596830476_3_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the region -/

/-- The seven stretches of host operations after the region, in program order. -/
abbrev tailOps : List (List (HloOp τ sig (Elt F))) :=
  [Gen.hostOps1, Gen.hostOps1_1, Gen.hostOps1_2, Gen.hostOps1_3, Gen.hostOps1_4, Gen.hostOps1_5, Gen.hostOps1_6]

/-- A core's buffer contents when the region is entered: the launch contents after the two reshapes. -/
abbrev V0 (c : Dev nD) : Valuation τ sig (Elt F) := StableHlo.after (List.flatten [Gen.hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (Gen.hostOps0 : List (HloOp τ sig (Elt F))).Forall fun op => op.fresh = ∅ := by
  simp only [List.Forall]; repeat' constructor
theorem hostOps1_fresh : (Gen.hostOps1 : List (HloOp τ sig (Elt F))).Forall fun op => op.fresh = ∅ := by
  simp only [List.Forall]; repeat' constructor
theorem hostOps1_1_fresh : (Gen.hostOps1_1 : List (HloOp τ sig (Elt F))).Forall fun op => op.fresh = ∅ := by
  simp only [List.Forall]; repeat' constructor
theorem hostOps1_2_fresh : (Gen.hostOps1_2 : List (HloOp τ sig (Elt F))).Forall fun op => op.fresh = ∅ := by
  simp only [List.Forall]; repeat' constructor
theorem hostOps1_3_fresh : (Gen.hostOps1_3 : List (HloOp τ sig (Elt F))).Forall fun op => op.fresh = ∅ := by
  simp only [List.Forall]; repeat' constructor
theorem hostOps1_4_fresh : (Gen.hostOps1_4 : List (HloOp τ sig (Elt F))).Forall fun op => op.fresh = ∅ := by
  simp only [List.Forall]; repeat' constructor
theorem hostOps1_5_fresh : (Gen.hostOps1_5 : List (HloOp τ sig (Elt F))).Forall fun op => op.fresh = ∅ := by
  simp only [List.Forall]; repeat' constructor
theorem hostOps1_6_fresh : (Gen.hostOps1_6 : List (HloOp τ sig (Elt F))).Forall fun op => op.fresh = ∅ := by
  simp only [List.Forall]; repeat' constructor

/-- The program is the two reshapes, the region, then the seven later stretches: so it reduces to the region
    continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [Gen.hostOps0] tailOps (by simp only [List.Forall]; exact Gen.hostOps0_sub)
    (by simp only [List.Forall]; exact hostOps0_fresh) Gen.main_chain

/-- Membership in the later stretches, stretch by stretch. -/
theorem tail_cases {p : List (HloOp τ sig (Elt F)) → Prop} (h : p Gen.hostOps1 ∧ p Gen.hostOps1_1 ∧ p Gen.hostOps1_2 ∧ p Gen.hostOps1_3 ∧ p Gen.hostOps1_4 ∧ p Gen.hostOps1_5 ∧ p Gen.hostOps1_6) :
    ∀ ops ∈ (tailOps : List (List (HloOp τ sig (Elt F)))), p ops := by
  intro ops hops
  simp only [List.mem_cons, List.mem_nil_iff, or_false] at hops
  obtain ⟨h0, h1, h2, h3, h4, h5, h6⟩ := h
  rcases hops with rfl | rfl | rfl | rfl | rfl | rfl | rfl
  exacts [h0, h1, h2, h3, h4, h5, h6]

/-- Every later operation touches unscoped TensorCore buffers only, which are the arrays and the bypassing buffers. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  refine tail_cases (p := fun ops => ∀ op ∈ ops, op.bufs ⊆ Pipeline.ucRefs τ sig) ⟨?_, ?_, ?_, ?_, ?_, ?_, ?_⟩
  · exact fun op hop => Pipeline.sub_ucRefs op ((List.forall_iff_forall_mem.mp Gen.hostOps1_sub) op hop)
  · exact fun op hop => Pipeline.sub_ucRefs op ((List.forall_iff_forall_mem.mp Gen.hostOps1_1_sub) op hop)
  · exact fun op hop => Pipeline.sub_ucRefs op ((List.forall_iff_forall_mem.mp Gen.hostOps1_2_sub) op hop)
  · exact fun op hop => Pipeline.sub_ucRefs op ((List.forall_iff_forall_mem.mp Gen.hostOps1_3_sub) op hop)
  · exact fun op hop => Pipeline.sub_ucRefs op ((List.forall_iff_forall_mem.mp Gen.hostOps1_4_sub) op hop)
  · exact fun op hop => Pipeline.sub_ucRefs op ((List.forall_iff_forall_mem.mp Gen.hostOps1_5_sub) op hop)
  · exact fun op hop => Pipeline.sub_ucRefs op ((List.forall_iff_forall_mem.mp Gen.hostOps1_6_sub) op hop)

/-- None allocates. -/
theorem sfx_fresh : ∀ ops ∈ (tailOps : List (List (HloOp τ sig (Elt F)))), ∀ op ∈ ops, op.fresh = ∅ :=
  tail_cases (p := fun ops => ∀ op ∈ ops, op.fresh = ∅)
    ⟨List.forall_iff_forall_mem.mp hostOps1_fresh, List.forall_iff_forall_mem.mp hostOps1_1_fresh, List.forall_iff_forall_mem.mp hostOps1_2_fresh, List.forall_iff_forall_mem.mp hostOps1_3_fresh, List.forall_iff_forall_mem.mp hostOps1_4_fresh, List.forall_iff_forall_mem.mp hostOps1_5_fresh, List.forall_iff_forall_mem.mp hostOps1_6_fresh⟩

/-- The references whose contents the later operations leave alone: the two arguments and the five arrays. -/
abbrev keptRefs : List (Ref sig .tc) := [main_arg0, main_arg1, main_v0, main_v1, main_v2_0, main_v2_1, main_v2_2]

theorem hostOps1_keeps (r : Ref sig .tc) (hr : r ∈ keptRefs) :
    (Gen.hostOps1 : List (HloOp τ sig (Elt F))).Forall fun op => Proc.devRef .tc r ∉ op.writes := by
  simp only [keptRefs, List.mem_cons, List.mem_nil_iff, or_false] at hr
  rcases hr with rfl | rfl | rfl | rfl | rfl | rfl | rfl <;>
    (simp only [Gen.hostOps1, List.Forall, StableHlo.nullary_writes, StableHlo.unary_writes, StableHlo.binary_writes, StableHlo.ternary_writes, StableHlo.quaternary_writes, StableHlo.reshape_writes, Finset.mem_singleton]
     repeat' apply And.intro
     all_goals exact StableHlo.devRef_ne_of_ne (by decide))
theorem hostOps1_1_keeps (r : Ref sig .tc) (hr : r ∈ keptRefs) :
    (Gen.hostOps1_1 : List (HloOp τ sig (Elt F))).Forall fun op => Proc.devRef .tc r ∉ op.writes := by
  simp only [keptRefs, List.mem_cons, List.mem_nil_iff, or_false] at hr
  rcases hr with rfl | rfl | rfl | rfl | rfl | rfl | rfl <;>
    (simp only [Gen.hostOps1_1, List.Forall, StableHlo.nullary_writes, StableHlo.unary_writes, StableHlo.binary_writes, StableHlo.ternary_writes, StableHlo.quaternary_writes, StableHlo.reshape_writes, Finset.mem_singleton]
     repeat' apply And.intro
     all_goals exact StableHlo.devRef_ne_of_ne (by decide))
theorem hostOps1_2_keeps (r : Ref sig .tc) (hr : r ∈ keptRefs) :
    (Gen.hostOps1_2 : List (HloOp τ sig (Elt F))).Forall fun op => Proc.devRef .tc r ∉ op.writes := by
  simp only [keptRefs, List.mem_cons, List.mem_nil_iff, or_false] at hr
  rcases hr with rfl | rfl | rfl | rfl | rfl | rfl | rfl <;>
    (simp only [Gen.hostOps1_2, List.Forall, StableHlo.nullary_writes, StableHlo.unary_writes, StableHlo.binary_writes, StableHlo.ternary_writes, StableHlo.quaternary_writes, StableHlo.reshape_writes, Finset.mem_singleton]
     repeat' apply And.intro
     all_goals exact StableHlo.devRef_ne_of_ne (by decide))
theorem hostOps1_3_keeps (r : Ref sig .tc) (hr : r ∈ keptRefs) :
    (Gen.hostOps1_3 : List (HloOp τ sig (Elt F))).Forall fun op => Proc.devRef .tc r ∉ op.writes := by
  simp only [keptRefs, List.mem_cons, List.mem_nil_iff, or_false] at hr
  rcases hr with rfl | rfl | rfl | rfl | rfl | rfl | rfl <;>
    (simp only [Gen.hostOps1_3, List.Forall, StableHlo.nullary_writes, StableHlo.unary_writes, StableHlo.binary_writes, StableHlo.ternary_writes, StableHlo.quaternary_writes, StableHlo.reshape_writes, Finset.mem_singleton]
     repeat' apply And.intro
     all_goals exact StableHlo.devRef_ne_of_ne (by decide))
theorem hostOps1_4_keeps (r : Ref sig .tc) (hr : r ∈ keptRefs) :
    (Gen.hostOps1_4 : List (HloOp τ sig (Elt F))).Forall fun op => Proc.devRef .tc r ∉ op.writes := by
  simp only [keptRefs, List.mem_cons, List.mem_nil_iff, or_false] at hr
  rcases hr with rfl | rfl | rfl | rfl | rfl | rfl | rfl <;>
    (simp only [Gen.hostOps1_4, List.Forall, StableHlo.nullary_writes, StableHlo.unary_writes, StableHlo.binary_writes, StableHlo.ternary_writes, StableHlo.quaternary_writes, StableHlo.reshape_writes, Finset.mem_singleton]
     repeat' apply And.intro
     all_goals exact StableHlo.devRef_ne_of_ne (by decide))
theorem hostOps1_5_keeps (r : Ref sig .tc) (hr : r ∈ keptRefs) :
    (Gen.hostOps1_5 : List (HloOp τ sig (Elt F))).Forall fun op => Proc.devRef .tc r ∉ op.writes := by
  simp only [keptRefs, List.mem_cons, List.mem_nil_iff, or_false] at hr
  rcases hr with rfl | rfl | rfl | rfl | rfl | rfl | rfl <;>
    (simp only [Gen.hostOps1_5, List.Forall, StableHlo.nullary_writes, StableHlo.unary_writes, StableHlo.binary_writes, StableHlo.ternary_writes, StableHlo.quaternary_writes, StableHlo.reshape_writes, Finset.mem_singleton]
     repeat' apply And.intro
     all_goals exact StableHlo.devRef_ne_of_ne (by decide))
theorem hostOps1_6_keeps (r : Ref sig .tc) (hr : r ∈ keptRefs) :
    (Gen.hostOps1_6 : List (HloOp τ sig (Elt F))).Forall fun op => Proc.devRef .tc r ∉ op.writes := by
  simp only [keptRefs, List.mem_cons, List.mem_nil_iff, or_false] at hr
  rcases hr with rfl | rfl | rfl | rfl | rfl | rfl | rfl <;>
    (simp only [Gen.hostOps1_6, List.Forall, StableHlo.nullary_writes, StableHlo.unary_writes, StableHlo.binary_writes, StableHlo.ternary_writes, StableHlo.quaternary_writes, StableHlo.reshape_writes, Finset.mem_singleton]
     repeat' apply And.intro
     all_goals exact StableHlo.devRef_ne_of_ne (by decide))

/-- Each later operation writes its own result only, which is none of the kept references. -/
theorem tail_keeps (r : Ref sig .tc) (hr : r ∈ keptRefs) :
    ∀ ops ∈ (tailOps : List (List (HloOp τ sig (Elt F)))), ∀ op ∈ ops, Proc.devRef .tc r ∉ op.writes :=
  tail_cases (p := fun ops => ∀ op ∈ ops, Proc.devRef .tc r ∉ op.writes)
    ⟨List.forall_iff_forall_mem.mp (hostOps1_keeps r hr), List.forall_iff_forall_mem.mp (hostOps1_1_keeps r hr), List.forall_iff_forall_mem.mp (hostOps1_2_keeps r hr), List.forall_iff_forall_mem.mp (hostOps1_3_keeps r hr), List.forall_iff_forall_mem.mp (hostOps1_4_keeps r hr), List.forall_iff_forall_mem.mp (hostOps1_5_keeps r hr), List.forall_iff_forall_mem.mp (hostOps1_6_keeps r hr)⟩

/-- In particular none writes an array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_keeps main_v0 (by decide) ops hops op hop
  · exact tail_keeps main_v1 (by decide) ops hops op hop
  · exact tail_keeps main_v2_0 (by decide) ops hops op hop
  · exact tail_keeps main_v2_1 (by decide) ops hops op hop
  · exact tail_keeps main_v2_2 (by decide) ops hops op hop

/-- The reshapes before the region write their own results, not the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [Gen.hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [Gen.hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block of the flattened input is in its staging buffer at every point: fetched there at each. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the labels' row block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments after the whole program -/

/-- An argument is no array of the region and no later operation writes it: after the later operations it holds
    what the region found, which is what was launched. -/
theorem afterTail_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem _ _ fun op hop => ?_, Pipeline.withArrays_of_ne _ c (V0 m c) _ main_arg0 (by decide)]
  · exact V_main_arg0 m c
  · obtain ⟨ops, hops, hop'⟩ := List.mem_flatten.mp hop
    exact tail_keeps main_arg0 (by decide) ops hops op hop'
theorem afterTail_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem _ _ fun op hop => ?_, Pipeline.withArrays_of_ne _ c (V0 m c) _ main_arg1 (by decide)]
  · exact V_main_arg1 m c
  · obtain ⟨ops, hops, hop'⟩ := List.mem_flatten.mp hop
    exact tail_keeps main_arg1 (by decide) ops hops op hop'

/-- The frame claim's post from the frame run's: both arguments are unscoped buffers that no window stages, so the
    run's post gives each at its contents after the later operations. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (afterTail_main_arg0 m dats c),
     ((h c).2 main_arg1 (Pipeline.mem_restRefs_of main_arg1 (by decide) (by decide))).trans (afterTail_main_arg1 m dats c)⟩) h

/-! ## The body's one condition -/

/-- The reset's condition from the grid coordinates: the second coordinate is zero. -/
abbrev cond0_0 (i : grid0.Coords) : Prop := (Scalar.cmpi .ne (Scalar.extui (Scalar.cmpi .eq (BitVec.ofNat 32 (i 1).val) 0#32)) 0#32) = 1#1
/-- It holds exactly at the first point of each row of the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The memrefs the body is called on -/

/-- One staging buffer of each output window, through which its contents are stated. -/
abbrev VO0_2 : View sig .tc .vmem S1x10x5120 .f32 := (Memref.whole cc0_stg2_0 : Memref sig .tc .vmem S1x10x5120 .f32).view
abbrev VO0_3 : View sig .tc .vmem S1x10x1 .f32 := (Memref.whole cc0_stg3_0 : Memref sig .tc .vmem S1x10x1 .f32).view
abbrev VO0_4 : View sig .tc .vmem S1x10x1 .f32 := (Memref.whole cc0_stg4_0 : Memref sig .tc .vmem S1x10x1 .f32).view
/-- Each window's current staging memref at a point, and its wholeness. -/
abbrev ms0_0 (t : Fin cfg0.N) : Memref sig .tc .vmem S512x5120 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x10x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x10x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x10x1 .f32 := win0_4.stage (cfg0.slots t 4)
abbrev hs0_4 (t : Fin cfg0.N) : (ms0_4 t).IsWhole := hstage0_4 ((cfg0.slots t 4).cast nbuf0_4)
/-- The per-row squared-norm scratch: a whole scoped buffer of the kernel's own. -/
abbrev scM0_0 : Memref sig .tc .vmem S512x1 .f32 := Memref.whole cc0_scratch0
abbrev VS0_0 : View sig .tc .vmem S512x1 .f32 := scM0_0.view

/-- The region invariant is the scratch owned at some contents and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
import proofs.«411193_j75273596830476_3_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four trips of the row-chunk loop write the four 128-row quarters of the 512-row scratch column, so their
    pieces cover it. -/
theorem scratch_cover (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole)
    (X : BufTy.Contents (Elt F) arg2.view.ty) (y : S512x1.Idx) :
    ∃ pc ∈ pb_k0_t1 (F := F) Variants.none c none i arg2 harg2 arg3 harg3 arg4 harg4 arg5 harg5 arg6 harg6 arg7 harg7 X (Scf.trips k0_t1_loop.lb k0_t1_loop.ub k0_t1_loop.st), y ∈ pc.1.set :=
  View.cover_of_tiledL (s := S512x1) _ S128x1.size (by sl_kernel_rfl) y

set_option maxHeartbeats 1000000 in
/-- The body where the second grid coordinate is zero. The three accumulators are zero-filled before they are
    read, so their buffers come in at any contents; the scratch column is rewritten by the loop's four trips before
    its whole load, so it too comes in at any contents, and that load reads the trips' pieces alone. The four piece
    lists are what the stores leave, last first. -/
noncomputable def kernelRun0_A (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i)
    (x0 : Vec F S512x5120 .f32) (x1 : Vec F S512x1 .i32) :
    Σ' (L2 : List (View.Piece (Elt F) S1x10x5120 .f32)) (L3 : List (View.Piece (Elt F) S1x10x1 .f32)) (L4 : List (View.Piece (Elt F) S1x10x1 .f32)),
    { LS0 : List (View.Piece (Elt F) S512x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__sums_sq_kernel i arg2 harg2 arg3 harg3 arg4 harg4 arg5 harg5 arg6 harg6 arg7 harg7) K } := by
  refine ⟨?_, ?_, ?_, ?_, fun E K => ?run⟩
  case run =>
    simp only [cc0__sums_sq_kernel_eq_skeleton]; unfold cc0__sums_sq_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, Hk⟩
    obtain rfl := harg2.eq_unread hf0; obtain rfl := harg3.eq_unread hf1
    sl_exec (disch := first | exact hc0)
    sl_unfold_run_names
    rw [View.readAt_writes_of_cover arg7.view fs0 _ _ (fun j => scratch_cover c i arg2 harg2 arg3 harg3 arg4 harg4 arg5 harg5 arg6 harg6 arg7 harg7 (harg2.unread x0) _)]
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact HS0

end Cert.KernelIdeal.Hand

end
-- ==== Proof.KI.RunB.lean ====
import proofs.«411193_j75273596830476_3_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the second grid coordinate is not zero. Nothing is reset: the three accumulators are read
    before they are covered, so they come in at what the point before left (`xo2`, `xo3`, `xo4`); the scratch
    column is again rewritten before its whole load and comes in at any contents. -/
noncomputable def kernelRun0_B (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i)
    (x0 : Vec F S512x5120 .f32) (x1 : Vec F S512x1 .i32) (xo2 : Vec F S1x10x5120 .f32) (xo3 : Vec F S1x10x1 .f32) (xo4 : Vec F S1x10x1 .f32) :
    Σ' (L2 : List (View.Piece (Elt F) S1x10x5120 .f32)) (L3 : List (View.Piece (Elt F) S1x10x1 .f32)) (L4 : List (View.Piece (Elt F) S1x10x1 .f32)),
    { LS0 : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__sums_sq_kernel i arg2 harg2 arg3 harg3 arg4 harg4 arg5 harg5 arg6 harg6 arg7 harg7) K } := by
  refine ⟨?_, ?_, ?_, ?_, fun E K => ?run⟩
  case run =>
    simp only [cc0__sums_sq_kernel_eq_skeleton]; unfold cc0__sums_sq_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_unfold_run_names
    rw [View.readAt_writes_of_cover arg7.view fs0 _ _ (fun j => scratch_cover c i arg2 harg2 arg3 harg3 arg4 harg4 arg5 harg5 arg6 harg6 arg7 harg7 (harg2.unread x0) _)]
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact HS0

end Cert.KernelIdeal.Hand

end
-- ==== Proof.KI.Frame.lean ====
import proofs.«411193_j75273596830476_3_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the reset case the stores into the per-label sums' block tile it, so they cover it. -/
theorem cover0_A_2 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i) (x0 : Vec F S512x5120 .f32) (x1 : Vec F S512x1 .i32) (y : S1x10x5120.Idx) :
    ∃ pc ∈ (kernelRun0_A c i arg2 harg2 arg3 harg3 arg4 harg4 arg5 harg5 arg6 harg6 arg7 harg7 hc0 x0 x1).1, y ∈ pc.1.set :=
  View.cover_of_tiledL (kernelRun0_A c i arg2 harg2 arg3 harg3 arg4 harg4 arg5 harg5 arg6 harg6 arg7 harg7 hc0 x0 x1).1 S1x10x5120.size (by sl_kernel_rfl) y

/-- What the reset case leaves in that block: its pieces read back, whatever was there before. -/
def out0_A_2 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i) (x0 : Vec F S512x5120 .f32) (x1 : Vec F S512x1 .i32) : Vec F S1x10x5120 .f32 :=
  VO0_2.read (Elt F) (VO0_2.writes (Elt F) VO0_2.junk (kernelRun0_A c i arg2 harg2 arg3 harg3 arg4 harg4 arg5 harg5 arg6 harg6 arg7 harg7 hc0 x0 x1).1)

/-- In the reset case the stores into the per-label sums of squares' block tile it, so they cover it. -/
theorem cover0_A_3 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i) (x0 : Vec F S512x5120 .f32) (x1 : Vec F S512x1 .i32) (y : S1x10x1.Idx) :
    ∃ pc ∈ (kernelRun0_A c i arg2 harg2 arg3 harg3 arg4 harg4 arg5 harg5 arg6 harg6 arg7 harg7 hc0 x0 x1).2.1, y ∈ pc.1.set :=
  View.cover_of_tiledL (kernelRun0_A c i arg2 harg2 arg3 harg3 arg4 harg4 arg5 harg5 arg6 harg6 arg7 harg7 hc0 x0 x1).2.1 S1x10x1.size (by sl_kernel_rfl) y

/-- What the reset case leaves in that block: its pieces read back, whatever was there before. -/
def out0_A_3 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i) (x0 : Vec F S512x5120 .f32) (x1 : Vec F S512x1 .i32) : Vec F S1x10x1 .f32 :=
  VO0_3.read (Elt F) (VO0_3.writes (Elt F) VO0_3.junk (kernelRun0_A c i arg2 harg2 arg3 harg3 arg4 harg4 arg5 harg5 arg6 harg6 arg7 harg7 hc0 x0 x1).2.1)

/-- In the reset case the stores into the per-label counts' block tile it, so they cover it. -/
theorem cover0_A_4 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i) (x0 : Vec F S512x5120 .f32) (x1 : Vec F S512x1 .i32) (y : S1x10x1.Idx) :
    ∃ pc ∈ (kernelRun0_A c i arg2 harg2 arg3 harg3 arg4 harg4 arg5 harg5 arg6 harg6 arg7 harg7 hc0 x0 x1).2.2.1, y ∈ pc.1.set :=
  View.cover_of_tiledL (kernelRun0_A c i arg2 harg2 arg3 harg3 arg4 harg4 arg5 harg5 arg6 harg6 arg7 harg7 hc0 x0 x1).2.2.1 S1x10x1.size (by sl_kernel_rfl) y

/-- What the reset case leaves in that block: its pieces read back, whatever was there before. -/
def out0_A_4 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i) (x0 : Vec F S512x5120 .f32) (x1 : Vec F S512x1 .i32) : Vec F S1x10x1 .f32 :=
  VO0_4.read (Elt F) (VO0_4.writes (Elt F) VO0_4.junk (kernelRun0_A c i arg2 harg2 arg3 harg3 arg4 harg4 arg5 harg5 arg6 harg6 arg7 harg7 hc0 x0 x1).2.2.1)

/-- In the carrying case the stores into the per-label sums' block tile it, so they cover it. -/
theorem cover0_B_2 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i) (x0 : Vec F S512x5120 .f32) (x1 : Vec F S512x1 .i32) (xo2 : Vec F S1x10x5120 .f32) (xo3 : Vec F S1x10x1 .f32) (xo4 : Vec F S1x10x1 .f32) (y : S1x10x5120.Idx) :
    ∃ pc ∈ (kernelRun0_B c i arg2 harg2 arg3 harg3 arg4 harg4 arg5 harg5 arg6 harg6 arg7 harg7 hc0 x0 x1 xo2 xo3 xo4).1, y ∈ pc.1.set :=
  View.cover_of_tiledL (kernelRun0_B c i arg2 harg2 arg3 harg3 arg4 harg4 arg5 harg5 arg6 harg6 arg7 harg7 hc0 x0 x1 xo2 xo3 xo4).1 S1x10x5120.size (by sl_kernel_rfl) y

/-- What the carrying case leaves in that block: its pieces read back, whatever was there before. -/
def out0_B_2 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i) (x0 : Vec F S512x5120 .f32) (x1 : Vec F S512x1 .i32) (xo2 : Vec F S1x10x5120 .f32) (xo3 : Vec F S1x10x1 .f32) (xo4 : Vec F S1x10x1 .f32) : Vec F S1x10x5120 .f32 :=
  VO0_2.read (Elt F) (VO0_2.writes (Elt F) VO0_2.junk (kernelRun0_B c i arg2 harg2 arg3 harg3 arg4 harg4 arg5 harg5 arg6 harg6 arg7 harg7 hc0 x0 x1 xo2 xo3 xo4).1)

/-- In the carrying case the stores into the per-label sums of squares' block tile it, so they cover it. -/
theorem cover0_B_3 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i) (x0 : Vec F S512x5120 .f32) (x1 : Vec F S512x1 .i32) (xo2 : Vec F S1x10x5120 .f32) (xo3 : Vec F S1x10x1 .f32) (xo4 : Vec F S1x10x1 .f32) (y : S1x10x1.Idx) :
    ∃ pc ∈ (kernelRun0_B c i arg2 harg2 arg3 harg3 arg4 harg4 arg5 harg5 arg6 harg6 arg7 harg7 hc0 x0 x1 xo2 xo3 xo4).2.1, y ∈ pc.1.set :=
  View.cover_of_tiledL (kernelRun0_B c i arg2 harg2 arg3 harg3 arg4 harg4 arg5 harg5 arg6 harg6 arg7 harg7 hc0 x0 x1 xo2 xo3 xo4).2.1 S1x10x1.size (by sl_kernel_rfl) y

/-- What the carrying case leaves in that block: its pieces read back, whatever was there before. -/
def out0_B_3 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i) (x0 : Vec F S512x5120 .f32) (x1 : Vec F S512x1 .i32) (xo2 : Vec F S1x10x5120 .f32) (xo3 : Vec F S1x10x1 .f32) (xo4 : Vec F S1x10x1 .f32) : Vec F S1x10x1 .f32 :=
  VO0_3.read (Elt F) (VO0_3.writes (Elt F) VO0_3.junk (kernelRun0_B c i arg2 harg2 arg3 harg3 arg4 harg4 arg5 harg5 arg6 harg6 arg7 harg7 hc0 x0 x1 xo2 xo3 xo4).2.1)

/-- In the carrying case the stores into the per-label counts' block tile it, so they cover it. -/
theorem cover0_B_4 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i) (x0 : Vec F S512x5120 .f32) (x1 : Vec F S512x1 .i32) (xo2 : Vec F S1x10x5120 .f32) (xo3 : Vec F S1x10x1 .f32) (xo4 : Vec F S1x10x1 .f32) (y : S1x10x1.Idx) :
    ∃ pc ∈ (kernelRun0_B c i arg2 harg2 arg3 harg3 arg4 harg4 arg5 harg5 arg6 harg6 arg7 harg7 hc0 x0 x1 xo2 xo3 xo4).2.2.1, y ∈ pc.1.set :=
  View.cover_of_tiledL (kernelRun0_B c i arg2 harg2 arg3 harg3 arg4 harg4 arg5 harg5 arg6 harg6 arg7 harg7 hc0 x0 x1 xo2 xo3 xo4).2.2.1 S1x10x1.size (by sl_kernel_rfl) y

/-- What the carrying case leaves in that block: its pieces read back, whatever was there before. -/
def out0_B_4 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i) (x0 : Vec F S512x5120 .f32) (x1 : Vec F S512x1 .i32) (xo2 : Vec F S1x10x5120 .f32) (xo3 : Vec F S1x10x1 .f32) (xo4 : Vec F S1x10x1 .f32) : Vec F S1x10x1 .f32 :=
  VO0_4.read (Elt F) (VO0_4.writes (Elt F) VO0_4.junk (kernelRun0_B c i arg2 harg2 arg3 harg3 arg4 harg4 arg5 harg5 arg6 harg6 arg7 harg7 hc0 x0 x1 xo2 xo3 xo4).2.2.1)

/-! ## What the three accumulators hold after each point -/

/-- The accumulation along a row of the grid. After the point at position `n` the three output blocks hold: at a
    row's first point, what the reset case leaves from the point's two input blocks; at any other point, what the
    carrying case leaves from them and from what the point before left (no block is written back in between). -/
def outsAt0 (c : Dev nD) : (n : ℕ) → n < cfg0.N → Vec F S1x10x5120 .f32 × Vec F S1x10x1 .f32 × Vec F S1x10x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2)

/-- At a row's first point: the reset case's contents. -/
theorem outsAt0_A (c : Dev nD) (t : Fin cfg0.N) (h0 : t.val % 8 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t)) := by
  obtain ⟨n, hn⟩ := t
  cases n with
  | zero => exact rfl
  | succ n => exact (dif_pos h0).trans rfl

/-- At any other point: the carrying case's contents over what the point before left. -/
theorem outsAt0_B (c : Dev nD) (t : Fin cfg0.N) (h0 : ¬t.val % 8 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region's proof data -/

/-- On core `c`: the arrays as the region finds them; after the body at a point each input's buffer still at its
    block and the three outputs' at `outsAt0`; the invariant the scratch at some contents with the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- Away from a row's first point the per-label sums' staging buffer holds what the body left at the point before: that point
    is not a row's last, so the block was not written back in between. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
/-- Away from a row's first point the per-label sums of squares' staging buffer holds what the body left at the point before: that point
    is not a row's last, so the block was not written back in between. -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]
/-- Away from a row's first point the per-label counts' staging buffer holds what the body left at the point before: that point
    is not a row's last, so the block was not written back in between. -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)).2.2 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point. The inputs' buffers hold their blocks; the point is a row's first or not; in the second
    case the outputs' buffers hold what the point before left; so that case's run applies. The invariant lends the
    scratch at whatever it holds and takes it back at whatever the run leaves; nothing is owed throughout. Each
    output's buffer ends at its pieces read back, by the cover. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  have hN : t.val < 16 := lt_of_lt_of_eq t.isLt (show cfg0.N = 16 from N_0)
  by_cases h0 : t.val % 8 = 0
  · rw [outsAt0_A m c t h0]
    unfold out0_A_2 out0_A_3 out0_A_4; dsimp only
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (iblk m c 0 t) (iblk m c 1 t)).2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    iintro ⟨H0, H1, ⟨%e2, H2⟩, ⟨%e3, H3⟩, ⟨%e4, H4⟩, ⟨%es0, HS0⟩⟩
    isplitl [HS0 Hg]
    · isplitl [HS0]
      · iexists (VS0_0.read (Elt F) _); unfold owns; iexists _; isplitr
        swap; · iexact HS0
        ipureintro; rfl
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_2_B m c t h0, before0_3_B m c t h0, before0_4_B m c t h0]
    unfold out0_B_2 out0_B_3 out0_B_4; dsimp only
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk m c 0 t) (iblk m c 1 t) _ _ _).2.2.2.2 Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, ⟨%e2, H2⟩, ⟨%e3, H3⟩, ⟨%e4, H4⟩, ⟨%es0, HS0⟩⟩
    isplitl [HS0 Hg]
    · isplitl [HS0]
      · iexists (VS0_0.read (Elt F) _); unfold owns; iexists _; isplitr
        swap; · iexact HS0
        ipureintro; rfl
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the TensorCores terminates
    without a fault; at the end each array of the region holds what the proof data give it and every other unscoped
    buffer what the later host operations leave in it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- The frame claim at any float instance: the program runs to the end and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Hand

end
-- ==== Proof.KI.TailVal.lean ====
/-
  The host tail of the program as a value: what the eighty-four host operations after the
  kernel region compute from the region's three results (per-core partial sums [2,10,5120],
  partial sums of squares [2,10,1], partial counts [2,10,1]), one binding per operation, in
  the program's own order of operations.
-/
import proofs.«411193_j75273596830476_3_alg».proof.KernelIdeal

noncomputable section

namespace Cert.KernelIdeal.Hand

open Idealize.ShloMosaic Idealize.SL.Sem
open Cert.KernelIdeal Facts₀ Facts

variable {F : FTy → Type} [FloatOps F] [Facts]

/-- Non-finite values replaced on a [10,5120] tensor: a NaN (the element unordered with itself)
    by zero, then +∞ by the largest finite value, then −∞ by the smallest. -/
def nanM (x : FVec F S10x5120 .f32) : FVec F S10x5120 .f32 :=
  let v0 : IVec S10x5120 1 := cmpf .une x x
  let cst : FVec F S_ .f32 := constant S_ .f32 0x00000000#32
  let w0 : FVec F S10x5120 .f32 := broadcastInDim S10x5120 ![] bcast_S_S10x5120 cst
  let v1 : FVec F S10x5120 .f32 := select v0 w0 x
  let cst_0 : FVec F S_ .f32 := constant S_ .f32 0x7F800000#32
  let v2 : FVec F S10x5120 .f32 := broadcastInDim S10x5120 ![] bcast_S_S10x5120 cst_0
  let v3 : IVec S10x5120 1 := cmpf .oeq v1 v2
  let cst_1 : FVec F S_ .f32 := constant S_ .f32 0x7F7FFFFF#32
  let w1 : FVec F S10x5120 .f32 := broadcastInDim S10x5120 ![] bcast_S_S10x5120 cst_1
  let v4 : FVec F S10x5120 .f32 := select v3 w1 v1
  let cst_2 : FVec F S_ .f32 := constant S_ .f32 0xFF800000#32
  let v5 : FVec F S10x5120 .f32 := broadcastInDim S10x5120 ![] bcast_S_S10x5120 cst_2
  let v6 : IVec S10x5120 1 := cmpf .oeq v4 v5
  let cst_3 : FVec F S_ .f32 := constant S_ .f32 0xFF7FFFFF#32
  let w2 : FVec F S10x5120 .f32 := broadcastInDim S10x5120 ![] bcast_S_S10x5120 cst_3
  select v6 w2 v4

/-- The same replacement on a [10] tensor. -/
def nanV (x : FVec F S10 .f32) : FVec F S10 .f32 :=
  let v0 : IVec S10 1 := cmpf .une x x
  let cst : FVec F S_ .f32 := constant S_ .f32 0x00000000#32
  let w0 : FVec F S10 .f32 := broadcastInDim S10 ![] bcast_S_S10 cst
  let v1 : FVec F S10 .f32 := select v0 w0 x
  let cst_0 : FVec F S_ .f32 := constant S_ .f32 0x7F800000#32
  let v2 : FVec F S10 .f32 := broadcastInDim S10 ![] bcast_S_S10 cst_0
  let v3 : IVec S10 1 := cmpf .oeq v1 v2
  let cst_1 : FVec F S_ .f32 := constant S_ .f32 0x7F7FFFFF#32
  let w1 : FVec F S10 .f32 := broadcastInDim S10 ![] bcast_S_S10 cst_1
  let v4 : FVec F S10 .f32 := select v3 w1 v1
  let cst_2 : FVec F S_ .f32 := constant S_ .f32 0xFF800000#32
  let v5 : FVec F S10 .f32 := broadcastInDim S10 ![] bcast_S_S10 cst_2
  let v6 : IVec S10 1 := cmpf .oeq v4 v5
  let cst_3 : FVec F S_ .f32 := constant S_ .f32 0xFF7FFFFF#32
  let w2 : FVec F S10 .f32 := broadcastInDim S10 ![] bcast_S_S10 cst_3
  select v6 w2 v4

/-- The per-label sums: the two cores' partial sums added (the host sum over axis 0 from zero). -/
def tSums (so : FVec F S2x10x5120 .f32) : FVec F S10x5120 .f32 :=
  let cst : FVec F S_ .f32 := constant S_ .f32 0x00000000#32
  Host.reduceAdd so cst reducesTo_S2x10x5120_S10x5120_d0 h_S_

/-- The per-label sums of squares: the two cores' partials added, the unit axis dropped. -/
def tSq (qo : FVec F S2x10x1 .f32) : FVec F S10 .f32 :=
  let cst_0 : FVec F S_ .f32 := constant S_ .f32 0x00000000#32
  let v4 : FVec F S10x1 .f32 := Host.reduceAdd qo cst_0 reducesTo_S2x10x1_S10x1_d0 h_S_
  shapeCast S10 v4 shapeCasts_S10x1_S10

/-- The per-label counts: the two cores' partials added, the unit axis dropped. -/
def tCnt (co : FVec F S2x10x1 .f32) : FVec F S10 .f32 :=
  let cst_1 : FVec F S_ .f32 := constant S_ .f32 0x00000000#32
  let v6 : FVec F S10x1 .f32 := Host.reduceAdd co cst_1 reducesTo_S2x10x1_S10x1_d0 h_S_
  shapeCast S10 v6 shapeCasts_S10x1_S10

/-- The per-label means: each sum divided by max(count, 1) broadcast along the features, the
    non-finite quotients replaced. -/
def tMeans (so : FVec F S2x10x5120 .f32) (co : FVec F S2x10x1 .f32) : FVec F S10x5120 .f32 :=
  let v3 : FVec F S10x5120 .f32 := tSums so
  let v7 : FVec F S10 .f32 := tCnt co
  let cst_2 : FVec F S_ .f32 := constant S_ .f32 0x3F800000#32
  let v8 : FVec F S10 .f32 := broadcastInDim S10 ![] bcast_S_S10 cst_2
  let v9 : FVec F S10 .f32 := maximumf v7 v8
  let v10 : FVec F S10x1 .f32 := broadcastInDim S10x1 ![0] bcast_S10_S10x1_0 v9
  let v11 : FVec F S10x5120 .f32 := broadcastInDim S10x5120 ![0, 1] bcast_S10x1_S10x5120_0_1 v10
  let v12 : FVec F S10x5120 .f32 := Host.divf v3 v11
  nanM v12

/-- The per-label sum of squared errors, expanded:
    sq − 2·Σ μ·s − ((2·n)·ε)·Σ μ + n·Σ μ², the sums over the features. -/
def tSse (so : FVec F S2x10x5120 .f32) (qo co : FVec F S2x10x1 .f32) : FVec F S10 .f32 :=
  let v3 : FVec F S10x5120 .f32 := tSums so
  let v5 : FVec F S10 .f32 := tSq qo
  let v7 : FVec F S10 .f32 := tCnt co
  let v13 : FVec F S10x5120 .f32 := tMeans so co
  let v14 : FVec F S10x5120 .f32 := mulf v13 v3
  let cst_3 : FVec F S_ .f32 := constant S_ .f32 0x00000000#32
  let v15 : FVec F S10 .f32 := Host.reduceAdd v14 cst_3 reducesTo_S10x5120_S10_d1 h_S_
  let v16 : FVec F S10x5120 .f32 := mulf v13 v13
  let cst_4 : FVec F S_ .f32 := constant S_ .f32 0x00000000#32
  let v17 : FVec F S10 .f32 := Host.reduceAdd v16 cst_4 reducesTo_S10x5120_S10_d1 h_S_
  let cst_5 : FVec F S_ .f32 := constant S_ .f32 0x00000000#32
  let v18 : FVec F S10 .f32 := Host.reduceAdd v13 cst_5 reducesTo_S10x5120_S10_d1 h_S_
  let cst_6 : FVec F S_ .f32 := constant S_ .f32 0x40000000#32
  let v19 : FVec F S10 .f32 := broadcastInDim S10 ![] bcast_S_S10 cst_6
  let v20 : FVec F S10 .f32 := mulf v19 v15
  let v21 : FVec F S10 .f32 := subf v5 v20
  let cst_7 : FVec F S_ .f32 := constant S_ .f32 0x40000000#32
  let v22 : FVec F S10 .f32 := broadcastInDim S10 ![] bcast_S_S10 cst_7
  let v23 : FVec F S10 .f32 := mulf v22 v7
  let cst_8 : FVec F S_ .f32 := constant S_ .f32 0x322BCC77#32
  let v24 : FVec F S10 .f32 := broadcastInDim S10 ![] bcast_S_S10 cst_8
  let v25 : FVec F S10 .f32 := mulf v23 v24
  let v26 : FVec F S10 .f32 := mulf v25 v18
  let v27 : FVec F S10 .f32 := subf v21 v26
  let v28 : FVec F S10 .f32 := mulf v7 v17
  addf v27 v28

/-- The result: each label's error divided by max(count, 1)·5120, the non-finite quotients
    replaced, kept where the count is positive and zero elsewhere, summed over the labels. -/
def tailVal (so : FVec F S2x10x5120 .f32) (qo co : FVec F S2x10x1 .f32) : FVec F S_ .f32 :=
  let v7 : FVec F S10 .f32 := tCnt co
  let v29 : FVec F S10 .f32 := tSse so qo co
  let cst_9 : FVec F S_ .f32 := constant S_ .f32 0x3F800000#32
  let v30 : FVec F S10 .f32 := broadcastInDim S10 ![] bcast_S_S10 cst_9
  let v31 : FVec F S10 .f32 := maximumf v7 v30
  let cst_10 : FVec F S_ .f32 := constant S_ .f32 0x45A00000#32
  let v32 : FVec F S10 .f32 := broadcastInDim S10 ![] bcast_S_S10 cst_10
  let v33 : FVec F S10 .f32 := mulf v31 v32
  let v34 : FVec F S10 .f32 := Host.divf v29 v33
  let cst_11 : FVec F S_ .f32 := constant S_ .f32 0x00000000#32
  let v35 : FVec F S10 .f32 := broadcastInDim S10 ![] bcast_S_S10 cst_11
  let v36 : IVec S10 1 := cmpf .ogt v7 v35
  let v37 : FVec F S10 .f32 := nanV v34
  let cst_12 : FVec F S_ .f32 := constant S_ .f32 0x00000000#32
  let u0 : FVec F S_ .f32 := id cst_12
  let u1 : FVec F S10 .f32 := broadcastInDim S10 ![] bcast_S_S10 u0
  let v38 : FVec F S10 .f32 := select v36 v37 u1
  let cst_13 : FVec F S_ .f32 := constant S_ .f32 0x00000000#32
  Host.reduceAdd v38 cst_13 reducesTo_S10_S_d0 h_S_

end Cert.KernelIdeal.Hand

end
-- ==== Proof.KI.Tail.lean ====
/-
  The host tail of the program read as a value. The eighty-four host operations after the kernel
  region run as seven stretches; each stretch, over ANY buffer contents before it, leaves at the
  buffer of a named stage that stage's function of the stages it reads and leaves the stages it does
  not write as they were. Run in order from contents W, the last buffer holds the tail's value at
  W's contents of the region's three results.
-/
import proofs.«411193_j75273596830476_3_alg».proof.Proof.Gen.KernelIdeal.Launch
import proofs.«411193_j75273596830476_3_alg».proof.Proof.KI.TailVal
import Idealize.ShloMosaic.Lib.StableHlo.Run
import Idealize.ShloMosaic.Lib.Pipeline.Frame

noncomputable section

namespace Cert.KernelIdeal.Hand

open Idealize.ShloMosaic Idealize.ShloMosaic.TcCoe Idealize.ShloMosaic.StableHlo Idealize.SL.Sem
open Cert.KernelIdeal Cert.KernelIdeal.Gen

variable {F : FTy → Type} [FloatOps F]

/-! ## The pieces between the program's named stages -/

/-- The quotient before the replacement of non-finite values: each sum over max(count, 1). -/
def quotOf (v3 : FVec F S10x5120 .f32) (v7 : FVec F S10 .f32) : FVec F S10x5120 .f32 :=
  Host.divf v3
    (broadcastInDim S10x5120 ![0, 1] bcast_S10x1_S10x5120_0_1
      (broadcastInDim S10x1 ![0] bcast_S10_S10x1_0
        (maximumf v7 (broadcastInDim S10 ![] bcast_S_S10 (constant S_ .f32 0x3F800000#32)))))

/-- The expanded squared error from the sums, the sums of squares, the counts and the means. -/
def sseOf (v3 : FVec F S10x5120 .f32) (v5 v7 : FVec F S10 .f32) (v13 : FVec F S10x5120 .f32) : FVec F S10 .f32 :=
  addf
    (subf
      (subf v5
        (mulf (broadcastInDim S10 ![] bcast_S_S10 (constant S_ .f32 0x40000000#32))
          (Host.reduceAdd (mulf v13 v3) (constant S_ .f32 0x00000000#32 : FVec F S_ .f32) reducesTo_S10x5120_S10_d1 h_S_)))
      (mulf
        (mulf (mulf (broadcastInDim S10 ![] bcast_S_S10 (constant S_ .f32 0x40000000#32)) v7)
          (broadcastInDim S10 ![] bcast_S_S10 (constant S_ .f32 0x322BCC77#32)))
        (Host.reduceAdd v13 (constant S_ .f32 0x00000000#32 : FVec F S_ .f32) reducesTo_S10x5120_S10_d1 h_S_)))
    (mulf v7
      (Host.reduceAdd (mulf v13 v13) (constant S_ .f32 0x00000000#32 : FVec F S_ .f32) reducesTo_S10x5120_S10_d1 h_S_))

/-- The per-label error over max(count, 1)·5120. -/
def ratioOf (v7 v29 : FVec F S10 .f32) : FVec F S10 .f32 :=
  Host.divf v29
    (mulf (maximumf v7 (broadcastInDim S10 ![] bcast_S_S10 (constant S_ .f32 0x3F800000#32)))
      (broadcastInDim S10 ![] bcast_S_S10 (constant S_ .f32 0x45A00000#32)))

/-- The labels that occur: count greater than zero. -/
def seenOf (v7 : FVec F S10 .f32) : IVec S10 1 :=
  cmpf .ogt v7 (broadcastInDim S10 ![] bcast_S_S10 (constant S_ .f32 0x00000000#32))

/-- The kept terms, zero where the label does not occur, summed over the labels. -/
def lossOf (v36 : IVec S10 1) (v37 : FVec F S10 .f32) : FVec F S_ .f32 :=
  Host.reduceAdd
    (select v36 v37 (broadcastInDim S10 ![] bcast_S_S10 (id (constant S_ .f32 0x00000000#32 : FVec F S_ .f32))))
    (constant S_ .f32 0x00000000#32 : FVec F S_ .f32) reducesTo_S10_S_d0 h_S_

/-- The tail's value is the composition of its stages. -/
theorem tailVal_eq (so : FVec F S2x10x5120 .f32) (qo co : FVec F S2x10x1 .f32) :
    tailVal so qo co
      = lossOf (seenOf (tCnt co))
          (nanV (ratioOf (tCnt co) (sseOf (tSums so) (tSq qo) (tCnt co) (nanM (quotOf (tSums so) (tCnt co)))))) := rfl

/-! ## The stretches of host operations, each over any contents before it -/

section Stretches

variable (W : Valuation τ sig (Elt F))

attribute [local irreducible] Host.reduceAdd Host.divf broadcastInDim shapeCast

/-- After the first stretch the sums are the two cores' partials added. -/
theorem ops1_v3 : after (Gen.hostOps1 (F := F)) W (Proc.devRef .tc main_v3) = tSums (W (Proc.devRef .tc main_v2_0)) := by
  simp only [Gen.hostOps1, after_cons, after_nil]; rfl

theorem ops1_v5 : after (Gen.hostOps1 (F := F)) W (Proc.devRef .tc main_v5) = tSq (W (Proc.devRef .tc main_v2_1)) := by
  simp only [Gen.hostOps1, after_cons, after_nil]; rfl

theorem ops1_v7 : after (Gen.hostOps1 (F := F)) W (Proc.devRef .tc main_v7) = tCnt (W (Proc.devRef .tc main_v2_2)) := by
  simp only [Gen.hostOps1, after_cons, after_nil]; rfl

theorem ops1_v12 : after (Gen.hostOps1 (F := F)) W (Proc.devRef .tc main_v12)
    = quotOf (tSums (W (Proc.devRef .tc main_v2_0))) (tCnt (W (Proc.devRef .tc main_v2_2))) := by
  simp only [Gen.hostOps1, after_cons, after_nil]; rfl

/-- The second stretch replaces the non-finite quotients and writes nothing else that is read later. -/
theorem ops1_1_v13 : after (Gen.hostOps1_1 (F := F)) W (Proc.devRef .tc main_v13) = nanM (W (Proc.devRef .tc main_v12)) := by
  simp only [Gen.hostOps1_1, after_cons, after_nil]; rfl

theorem ops1_1_v3 : after (Gen.hostOps1_1 (F := F)) W (Proc.devRef .tc main_v3) = W (Proc.devRef .tc main_v3) := by
  simp only [Gen.hostOps1_1, after_cons, after_nil]; rfl

theorem ops1_1_v5 : after (Gen.hostOps1_1 (F := F)) W (Proc.devRef .tc main_v5) = W (Proc.devRef .tc main_v5) := by
  simp only [Gen.hostOps1_1, after_cons, after_nil]; rfl

theorem ops1_1_v7 : after (Gen.hostOps1_1 (F := F)) W (Proc.devRef .tc main_v7) = W (Proc.devRef .tc main_v7) := by
  simp only [Gen.hostOps1_1, after_cons, after_nil]; rfl

/-- The third stretch: the expanded error over max(count, 1)·5120, and which labels occur. -/
theorem ops1_2_v34 : after (Gen.hostOps1_2 (F := F)) W (Proc.devRef .tc main_v34)
    = ratioOf (W (Proc.devRef .tc main_v7)) (sseOf (W (Proc.devRef .tc main_v3)) (W (Proc.devRef .tc main_v5)) (W (Proc.devRef .tc main_v7)) (W (Proc.devRef .tc main_v13))) := by
  simp only [Gen.hostOps1_2, after_cons, after_nil]; rfl

theorem ops1_2_v36 : after (Gen.hostOps1_2 (F := F)) W (Proc.devRef .tc main_v36) = seenOf (W (Proc.devRef .tc main_v7)) := by
  simp only [Gen.hostOps1_2, after_cons, after_nil]; rfl

/-- The fourth stretch replaces the non-finite ratios. -/
theorem ops1_3_v37 : after (Gen.hostOps1_3 (F := F)) W (Proc.devRef .tc main_v37) = nanV (W (Proc.devRef .tc main_v34)) := by
  simp only [Gen.hostOps1_3, after_cons, after_nil]; rfl

theorem ops1_3_v36 : after (Gen.hostOps1_3 (F := F)) W (Proc.devRef .tc main_v36) = W (Proc.devRef .tc main_v36) := by
  simp only [Gen.hostOps1_3, after_cons, after_nil]; rfl

/-- The last three stretches: the zero, the selection by occurrence, the sum over the labels. -/
theorem ops1_4_cst : after (Gen.hostOps1_4 (F := F)) W (Proc.devRef .tc main_cst_12) = (constant S_ .f32 0x00000000#32 : FVec F S_ .f32) := by
  simp only [Gen.hostOps1_4, after_cons, after_nil]; rfl

theorem ops1_4_v36 : after (Gen.hostOps1_4 (F := F)) W (Proc.devRef .tc main_v36) = W (Proc.devRef .tc main_v36) := by
  simp only [Gen.hostOps1_4, after_cons, after_nil]; rfl

theorem ops1_4_v37 : after (Gen.hostOps1_4 (F := F)) W (Proc.devRef .tc main_v37) = W (Proc.devRef .tc main_v37) := by
  simp only [Gen.hostOps1_4, after_cons, after_nil]; rfl

theorem ops1_5_v38 : after (Gen.hostOps1_5 (F := F)) W (Proc.devRef .tc main_v38)
    = select (W (Proc.devRef .tc main_v36)) (W (Proc.devRef .tc main_v37))
        (broadcastInDim S10 ![] bcast_S_S10 (id (W (Proc.devRef .tc main_cst_12)))) := by
  simp only [Gen.hostOps1_5, after_cons, after_nil]; rfl

theorem ops1_6_v39 : after (Gen.hostOps1_6 (F := F)) W (Proc.devRef .tc main_v39)
    = Host.reduceAdd (W (Proc.devRef .tc main_v38)) (constant S_ .f32 0x00000000#32 : FVec F S_ .f32) reducesTo_S10_S_d0 h_S_ := by
  simp only [Gen.hostOps1_6, after_cons, after_nil]; rfl

end Stretches

/-! ## The whole tail -/

/-- The seven stretches run in order: each stage's value is read off the stretch that writes it, over the
    contents the earlier stretches leave, down to the three results of the region. -/
theorem tail_v39 (W : Valuation τ sig (Elt F)) :
    StableHlo.after (List.flatten [Gen.hostOps1, Gen.hostOps1_1, Gen.hostOps1_2, Gen.hostOps1_3, Gen.hostOps1_4, Gen.hostOps1_5, Gen.hostOps1_6]) W (Proc.devRef .tc main_v39)
      = tailVal (W (Proc.devRef .tc main_v2_0)) (W (Proc.devRef .tc main_v2_1)) (W (Proc.devRef .tc main_v2_2)) := by
  rw [List.flatten_cons, StableHlo.after_append, List.flatten_cons, StableHlo.after_append, List.flatten_cons, StableHlo.after_append,
    List.flatten_cons, StableHlo.after_append, List.flatten_cons, StableHlo.after_append, List.flatten_cons, StableHlo.after_append,
    List.flatten_cons, List.flatten_nil, List.append_nil]
  rw [ops1_6_v39, ops1_5_v38, ops1_4_cst, ops1_4_v36, ops1_4_v37, ops1_3_v37, ops1_3_v36, ops1_2_v34, ops1_2_v36,
    ops1_1_v13, ops1_1_v3, ops1_1_v5, ops1_1_v7, ops1_v3, ops1_v5, ops1_v7, ops1_v12, tailVal_eq]
  rfl

end Cert.KernelIdeal.Hand

end
-- ==== Proof.KI.RunValue.lean ====
/-
  The program's run read at its result: after the kernel region and the host operations that follow it, the
  result buffer holds the tail's value at the three arrays the region leaves (the per-core partial sums, sums
  of squares and counts), and both arguments hold what was launched.
-/
import proofs.«411193_j75273596830476_3_alg».proof.Proof.KI.Frame
import proofs.«411193_j75273596830476_3_alg».proof.Proof.KI.Tail

noncomputable section

namespace Cert.KernelIdeal.Hand

open Idealize.ShloMosaic Idealize.ShloMosaic.TcCoe
open Idealize.SL Idealize.SL.Sem
open Idealize.ShloMosaic.Rounds
open Idealize.ShloMosaic.Pipeline (Dat Cfg)
open Cert.KernelIdeal.Gen

variable {F : FTy → Type} [FloatOps F]

variable (m : (ℓ : Loc nD τ sig) → Buf (Elt F) ℓ) (ρ : Dev nD → PrngReg)

/-- The result buffer after the later operations: the tail's value at the region's three result arrays. The later
    operations run over the region's contents with the arrays in place, and the arrays of windows 2, 3 and 4 are
    the buffers of the partial sums, sums of squares and counts. -/
theorem afterTail_main_v39 (dats : (p : Fin 1) → (c : Dev nD) → Dat τ (Elt F) Unit ℕ (UR sig nD τ) ℕ (cfgs p) c) (c : Dev nD) :
    Pipeline.afterTail₀ cfgs dats 0 (V0 m) tailOps c main_v39
      = tailVal ((dats 0 c).arrAt 2 cfg0.N) ((dats 0 c).arrAt 3 cfg0.N) ((dats 0 c).arrAt 4 cfg0.N) := by
  unfold Pipeline.afterTail₀
  refine (tail_v39 _).trans ?_
  have e2 := Pipeline.withArrays_arr (τ := τ) spec0 launch0.win.arr_inj c (V0 m c) (fun w => (dats 0 c).arrAt w cfg0.N) 2
  have e3 := Pipeline.withArrays_arr (τ := τ) spec0 launch0.win.arr_inj c (V0 m c) (fun w => (dats 0 c).arrAt w cfg0.N) 3
  have e4 := Pipeline.withArrays_arr (τ := τ) spec0 launch0.win.arr_inj c (V0 m c) (fun w => (dats 0 c).arrAt w cfg0.N) 4
  exact congr (congr (congrArg tailVal e2) e3) e4

/-- From the frame run to the run's value: the result buffer and both arguments are unscoped buffers that no window
    stages, so the frame's post gives each at its contents after the later operations. -/
theorem run_value_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_v39)
          = tailVal ((dats 0 c).arrAt 2 cfg0.N) ((dats 0 c).arrAt 3 cfg0.N) ((dats 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v39 (Pipeline.mem_restRefs_of main_v39 (by decide) (by decide))).trans (afterTail_main_v39 m dats c),
     ((h c).2 main_arg0 (Pipeline.mem_restRefs_of main_arg0 (by decide) (by decide))).trans (afterTail_main_arg0 m dats c),
     ((h c).2 main_arg1 (Pipeline.mem_restRefs_of main_arg1 (by decide) (by decide))).trans (afterTail_main_arg1 m dats c)⟩) h

/-- The run of the program on the TensorCores: it terminates, and in every final state the result buffer holds the
    tail's value at the region's three result arrays and both arguments hold their launch contents. -/
theorem run_value :
    θ_run defs (onTc (τ := τ) (main (F := F))) ⟨m, fun _ => 0, ρ⟩ (fun r => ∀ c : Dev nD,
      r.2.mem ((c.tc : Thread nD τ).loc main_v39)
          = tailVal ((dats m 0 c).arrAt 2 cfg0.N) ((dats m 0 c).arrAt 3 cfg0.N) ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_value_of m ρ (dats m) (run_main m ρ)

end Cert.KernelIdeal.Hand

end
-- ==== Proof.KI.Inputs.lean ====
/-
  The two arrays the region reads, as the launch contents: the two reshapes before the region write the flattened
  table [8192,5120] from the input [8192,20,256] and the label column [8192,1] from the labels [8192].
-/
import proofs.«411193_j75273596830476_3_alg».proof.Proof.KI.Kit
import Idealize.ShloMosaic.Lib.ValueIdx

set_option maxRecDepth 16384

noncomputable section

namespace Cert.KernelIdeal.Hand

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ)

/-- The table the region reads is the input cast to [8192,5120]. -/
theorem V_v0 (c : Dev nD) :
    (V m c main_v0 : S8192x5120.Idx → Elt F .f32)
      = shapeCast S8192x5120 (m ((c.tc : Thread nD τ).loc main_arg0)) shapeCasts_S8192x20x256_S8192x5120 := by
  show StableHlo.after Gen.hostOps0 (fun b => m (c, b)) (Proc.devRef .tc main_v0) = _
  after_results
  rfl

/-- The label column the region reads is the labels cast to [8192,1]. -/
theorem V_v1 (c : Dev nD) :
    (V m c main_v1 : S8192x1.Idx → Elt F .i32)
      = shapeCast S8192x1 (m ((c.tc : Thread nD τ).loc main_arg1)) shapeCasts_S8192_S8192x1 := by
  show StableHlo.after Gen.hostOps0 (fun b => m (c, b)) (Proc.devRef .tc main_v1) = _
  after_results
  rfl

end Cert.KernelIdeal.Hand

end
-- ==== Proof.KI.ArrSpec.lean ====
/-
  What the three result arrays of the pallas_call hold, as functions of the two arrays it reads, over the extended
  reals.

  The call walks a grid of 2 x 8 points. Point (c, s) reads the block of 512 rows numbered (c * 8 + s) * 512 + r of
  the table z2 : [8192, 5120] and of the label column l2 : [8192, 1], builds the one-hot matrix of the labels against
  the ten class numbers, and adds to row block c of its three results: the one-hot-weighted column sums of the rows
  (with nan_to_num applied to each entry), the one-hot-weighted sums of the rows' squared lengths after the shift by
  the constant ε, and the one-hot column counts. Block c of each result therefore holds the sum over the eight steps
  s and the 512 rows r of the step's block.
-/
import proofs.«411193_j75273596830476_3_alg».proof.KernelIdeal
import Idealize.ShloMosaic.PureOps.Ideal
import Idealize.ShloMosaic.Lib.ValueIdx

noncomputable section

namespace Cert.KernelIdeal.Hand

open Idealize.ShloMosaic Idealize.ShloMosaic.ValueIdx Cert.KernelIdeal

/-- Row `r` of the block that core `c` meets at its step `s`: blocks of 512 rows, eight per core. -/
def rowOf (c : Fin 2) (s : Fin 8) (r : Fin 512) : Fin 8192 :=
  ⟨(c.val * 8 + s.val) * 512 + r.val, by have := c.isLt; have := s.isLt; have := r.isLt; omega⟩

/-- The one-hot entry: 1 where the label word is the class number, 0 elsewhere. -/
def oh (w : BitVec 32) (k : Fin 10) : EReal := if w = BitVec.ofNat 32 k.val then 1 else 0

/-- jnp.nan_to_num on one extended real: +∞ becomes the largest finite f32, −∞ the smallest, anything else is kept
    (the extended reals have no NaN). -/
def nn (x : EReal) : EReal :=
  if x = ⊤ then Ideal.ofBits .f32 0x7F7FFFFF#32 else if x = ⊥ then Ideal.ofBits .f32 0xFF7FFFFF#32 else x

/-- The shift ε the kernel adds to every entry before squaring: the f32 nearest to 1e-8. -/
def eps : EReal := Ideal.ofBits .f32 0x322BCC77#32

/-- Result 0, `[2, 10, 5120]`: entry (c, k, j) is the sum over core c's rows of one-hot(label, k) · nn z[row, j]. -/
def sumsOut (z2 : S8192x5120.Idx → EReal) (l2 : IVec S8192x1 32) : S2x10x5120.Idx → EReal :=
  fun i => ∑ s : Fin 8, ∑ r : Fin 512,
    oh (l2 (ix2 (rowOf (i 0) s r) (0 : Fin 1))) (i 1) * nn (z2 (ix2 (rowOf (i 0) s r) (i 2)))

/-- Result 1, `[2, 10, 1]`: entry (c, k, 0) is the sum over core c's rows of one-hot(label, k) · Σ_j (nn z[row, j] + ε)². -/
def sqOut (z2 : S8192x5120.Idx → EReal) (l2 : IVec S8192x1 32) : S2x10x1.Idx → EReal :=
  fun i => ∑ s : Fin 8, ∑ r : Fin 512,
    oh (l2 (ix2 (rowOf (i 0) s r) (0 : Fin 1))) (i 1)
      * ∑ j : Fin 5120, (nn (z2 (ix2 (rowOf (i 0) s r) j)) + eps) * (nn (z2 (ix2 (rowOf (i 0) s r) j)) + eps)

/-- Result 2, `[2, 10, 1]`: entry (c, k, 0) is the number of core c's rows whose label is k. -/
def cntOut (l2 : IVec S8192x1 32) : S2x10x1.Idx → EReal :=
  fun i => ∑ s : Fin 8, ∑ r : Fin 512, oh (l2 (ix2 (rowOf (i 0) s r) (0 : Fin 1))) (i 1) * 1

end Cert.KernelIdeal.Hand

end
-- ==== Proof.KI.ArrCover.lean ====
/-
  Where the three result arrays' blocks sit.  Each result is two blocks along its first axis, one per row of the
  2 x 8 grid: at point t the block index is (t / 8, 0, 0), and a block is written back at the last point of its row,
  t = 8·c + 7.  A block's element sits in the array, on each axis, at the block index times the block's size plus
  the coordinate inside the block; so entry (c, k, j) of a result lies in the block written back at point 8·c + 7,
  and every entry is covered.
-/
import proofs.«411193_j75273596830476_3_alg».proof.Proof.KI.Kit
import proofs.«411193_j75273596830476_3_alg».proof.Proof.KI.ArrSpec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The block index of the per-label sums at point t is (t / 8, 0, 0): decided over the grid. -/
theorem index0_2 : ∀ t : Fin cfg0.N, win0_2.index t (0 : Fin 3) = t.val / 8 ∧ win0_2.index t (1 : Fin 3) = 0
    ∧ win0_2.index t (2 : Fin 3) = 0 :=
  (by decide +kernel : ∀ t : Fin grid0.N, win0_2.index t (0 : Fin 3) = t.val / 8 ∧ win0_2.index t (1 : Fin 3) = 0
    ∧ win0_2.index t (2 : Fin 3) = 0)

/-- The same for the per-label sums of squares. -/
theorem index0_3 : ∀ t : Fin cfg0.N, win0_3.index t (0 : Fin 3) = t.val / 8 ∧ win0_3.index t (1 : Fin 3) = 0
    ∧ win0_3.index t (2 : Fin 3) = 0 :=
  (by decide +kernel : ∀ t : Fin grid0.N, win0_3.index t (0 : Fin 3) = t.val / 8 ∧ win0_3.index t (1 : Fin 3) = 0
    ∧ win0_3.index t (2 : Fin 3) = 0)

/-- And for the per-label counts. -/
theorem index0_4 : ∀ t : Fin cfg0.N, win0_4.index t (0 : Fin 3) = t.val / 8 ∧ win0_4.index t (1 : Fin 3) = 0
    ∧ win0_4.index t (2 : Fin 3) = 0 :=
  (by decide +kernel : ∀ t : Fin grid0.N, win0_4.index t (0 : Fin 3) = t.val / 8 ∧ win0_4.index t (1 : Fin 3) = 0
    ∧ win0_4.index t (2 : Fin 3) = 0)

/-- The last point of row q of the grid. -/
abbrev lastOf (q : Fin 2) : Fin cfg0.N := ⟨q.val * 8 + 7, by rw [show cfg0.N = 16 from N_0]; have := q.isLt; omega⟩

theorem lastOf_mod (q : Fin 2) : (lastOf q).val % 8 = 7 := by
  show (q.val * 8 + 7) % 8 = 7
  omega

theorem lastOf_div (q : Fin 2) : (lastOf q).val / 8 = q.val := by
  show (q.val * 8 + 7) / 8 = q.val
  omega

/-- An entry of the sums array is in point t's block iff each coordinate is in the block's range on its axis. -/
theorem mem_blk2 (t : Fin cfg0.N) (i : S2x10x5120.Idx) :
    i ∈ ((cfg0.win 2).blk t).view.set ↔ ∀ a : Fin 3, win0_2.index t a * S1x10x5120.size a ≤ (i a).val
      ∧ (i a).val < win0_2.index t a * S1x10x5120.size a + S1x10x5120.size a := by
  show i ∈ ((View.whole main_v2_0).slice (win0_2.rect t)).set ↔ _
  rw [View.set_slice_whole, Rect.mem_set_unit]
  exact Iff.rfl

theorem mem_blk3 (t : Fin cfg0.N) (i : S2x10x1.Idx) :
    i ∈ ((cfg0.win 3).blk t).view.set ↔ ∀ a : Fin 3, win0_3.index t a * S1x10x1.size a ≤ (i a).val
      ∧ (i a).val < win0_3.index t a * S1x10x1.size a + S1x10x1.size a := by
  show i ∈ ((View.whole main_v2_1).slice (win0_3.rect t)).set ↔ _
  rw [View.set_slice_whole, Rect.mem_set_unit]
  exact Iff.rfl

theorem mem_blk4 (t : Fin cfg0.N) (i : S2x10x1.Idx) :
    i ∈ ((cfg0.win 4).blk t).view.set ↔ ∀ a : Fin 3, win0_4.index t a * S1x10x1.size a ≤ (i a).val
      ∧ (i a).val < win0_4.index t a * S1x10x1.size a + S1x10x1.size a := by
  show i ∈ ((View.whole main_v2_2).slice (win0_4.rect t)).set ↔ _
  rw [View.set_slice_whole, Rect.mem_set_unit]
  exact Iff.rfl

/-- Every entry (q, k, j) of the sums array is in the block written back at the last point of row q. -/
theorem cover2 (i : S2x10x5120.Idx) :
    ∃ t : Fin cfg0.N, (cfg0.win 2).flush t = true ∧ i ∈ ((cfg0.win 2).blk t).view.set := by
  obtain ⟨q, k, j, rfl⟩ : ∃ (q : Fin 2) (k : Fin 10) (j : Fin 5120), i = ix3 q k j := ⟨i 0, i 1, i 2, eq_ix3 i⟩
  have hk := k.isLt
  have hj := j.isLt
  obtain ⟨e0, e1, e2⟩ := index0_2 (lastOf q)
  rw [lastOf_div] at e0
  refine ⟨lastOf q, (flush0_2 _).mpr (lastOf_mod q), ?_⟩
  rw [mem_blk2]
  intro a
  match a with
  | ⟨0, _⟩ =>
    show win0_2.index (lastOf q) (0 : Fin 3) * 1 ≤ q.val ∧ q.val < win0_2.index (lastOf q) (0 : Fin 3) * 1 + 1
    omega
  | ⟨1, _⟩ =>
    show win0_2.index (lastOf q) (1 : Fin 3) * 10 ≤ k.val ∧ k.val < win0_2.index (lastOf q) (1 : Fin 3) * 10 + 10
    omega
  | ⟨2, _⟩ =>
    show win0_2.index (lastOf q) (2 : Fin 3) * 5120 ≤ j.val ∧ j.val < win0_2.index (lastOf q) (2 : Fin 3) * 5120 + 5120
    omega

/-- Every entry (q, k, 0) of the sums-of-squares array likewise. -/
theorem cover3 (i : S2x10x1.Idx) :
    ∃ t : Fin cfg0.N, (cfg0.win 3).flush t = true ∧ i ∈ ((cfg0.win 3).blk t).view.set := by
  obtain ⟨q, k, j, rfl⟩ : ∃ (q : Fin 2) (k : Fin 10) (j : Fin 1), i = ix3 q k j := ⟨i 0, i 1, i 2, eq_ix3 i⟩
  have hk := k.isLt
  have hj := j.isLt
  obtain ⟨e0, e1, e2⟩ := index0_3 (lastOf q)
  rw [lastOf_div] at e0
  refine ⟨lastOf q, (flush0_3 _).mpr (lastOf_mod q), ?_⟩
  rw [mem_blk3]
  intro a
  match a with
  | ⟨0, _⟩ =>
    show win0_3.index (lastOf q) (0 : Fin 3) * 1 ≤ q.val ∧ q.val < win0_3.index (lastOf q) (0 : Fin 3) * 1 + 1
    omega
  | ⟨1, _⟩ =>
    show win0_3.index (lastOf q) (1 : Fin 3) * 10 ≤ k.val ∧ k.val < win0_3.index (lastOf q) (1 : Fin 3) * 10 + 10
    omega
  | ⟨2, _⟩ =>
    show win0_3.index (lastOf q) (2 : Fin 3) * 1 ≤ j.val ∧ j.val < win0_3.index (lastOf q) (2 : Fin 3) * 1 + 1
    omega

/-- And every entry of the counts array. -/
theorem cover4 (i : S2x10x1.Idx) :
    ∃ t : Fin cfg0.N, (cfg0.win 4).flush t = true ∧ i ∈ ((cfg0.win 4).blk t).view.set := by
  obtain ⟨q, k, j, rfl⟩ : ∃ (q : Fin 2) (k : Fin 10) (j : Fin 1), i = ix3 q k j := ⟨i 0, i 1, i 2, eq_ix3 i⟩
  have hk := k.isLt
  have hj := j.isLt
  obtain ⟨e0, e1, e2⟩ := index0_4 (lastOf q)
  rw [lastOf_div] at e0
  refine ⟨lastOf q, (flush0_4 _).mpr (lastOf_mod q), ?_⟩
  rw [mem_blk4]
  intro a
  match a with
  | ⟨0, _⟩ =>
    show win0_4.index (lastOf q) (0 : Fin 3) * 1 ≤ q.val ∧ q.val < win0_4.index (lastOf q) (0 : Fin 3) * 1 + 1
    omega
  | ⟨1, _⟩ =>
    show win0_4.index (lastOf q) (1 : Fin 3) * 10 ≤ k.val ∧ k.val < win0_4.index (lastOf q) (1 : Fin 3) * 10 + 10
    omega
  | ⟨2, _⟩ =>
    show win0_4.index (lastOf q) (2 : Fin 3) * 1 ≤ j.val ∧ j.val < win0_4.index (lastOf q) (2 : Fin 3) * 1 + 1
    omega

end Cert.KernelIdeal.Hand

end
-- ==== Proof.KI.Arrays.lean ====
/-
  The three result arrays after the region, from what the last point of each grid row leaves.

  A result's block is written back at the last point of its grid row only, and what is written back is what the
  body left in the block there.  If at every such point that is the block of one function of the two arrays the
  region reads — entry (0, k, j) of the block at point t being entry (t / 8, k, j) of the function — then, the
  blocks covering the array, the array ends holding that function.
-/
import proofs.«411193_j75273596830476_3_alg».proof.Proof.KI.Frame
import proofs.«411193_j75273596830476_3_alg».proof.Proof.KI.ArrCover

set_option maxRecDepth 16384

noncomputable section

namespace Cert.KernelIdeal.Hand

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

/-- Row t / 8 of the grid, for a point t. -/
abbrev rowIx (t : Fin cfg0.N) : Fin 2 := ⟨t.val / 8, by have := t.isLt; have : cfg0.N = 16 := Gen.N_0; omega⟩

/-- What a flushing point writes back into the sums array is its block of the sums. -/
theorem flushed2_eq
    (hfl : ∀ (c : Dev nD) (t : Fin cfg0.N), t.val % 8 = 7 → ∀ (k : Fin 10) (j : Fin 5120),
      (outsAt0 (F := Ideal) m c t.val t.isLt).1 (ix3 (0 : Fin 1) k j)
        = sumsOut (V m c main_v0) (V m c main_v1) (ix3 (rowIx t) k j))
    (c : Dev nD) (t : Fin cfg0.N) (hf : (cfg0.win 2).flush t = true) :
    (dats (F := Ideal) m 0 c).flushed 2 t
      = ((cfg0.win 2).blk t).view.read (Elt Ideal) (sumsOut (V m c main_v0) (V m c main_v1)) := by
  have ht : t.val % 8 = 7 := (flush0_2 t).mp hf
  obtain ⟨e0, e1, e2⟩ := index0_2 t
  show (cfg0.win 2).cut (grid0.coords t) ((dats (F := Ideal) m 0 c).after 2 t) = _
  rw [after0_2]
  refine funext fun (y : S1x10x5120.Idx) => ?_
  obtain ⟨q, k, j, rfl⟩ : ∃ (q : Fin 1) (k : Fin 10) (j : Fin 5120), y = ix3 q k j := ⟨y 0, y 1, y 2, eq_ix3 y⟩
  obtain rfl : q = 0 := Subsingleton.elim _ _
  show (outsAt0 (F := Ideal) m c t.val t.isLt).1 (ix3 (0 : Fin 1) k j)
    = sumsOut (V m c main_v0) (V m c main_v1) (((cfg0.win 2).blk t).view.emb (ix3 (0 : Fin 1) k j))
  rw [hfl c t ht k j]
  refine congrArg _ ?_
  funext a; apply Fin.ext
  match a with
  | ⟨0, _⟩ => show t.val / 8 = win0_2.index t (0 : Fin 3) * 1 + 1 * (0 : Fin 1).val; rw [e0]; show t.val / 8 = t.val / 8 * 1 + 1 * 0; omega
  | ⟨1, _⟩ => show k.val = win0_2.index t (1 : Fin 3) * 10 + 1 * k.val; rw [e1]; omega
  | ⟨2, _⟩ => show j.val = win0_2.index t (2 : Fin 3) * 5120 + 1 * j.val; rw [e2]; omega

/-- What a flushing point writes back into the sums-of-squares array is its block of the sums of squares. -/
theorem flushed3_eq
    (hfl : ∀ (c : Dev nD) (t : Fin cfg0.N), t.val % 8 = 7 → ∀ (k : Fin 10),
      (outsAt0 (F := Ideal) m c t.val t.isLt).2.1 (ix3 (0 : Fin 1) k (0 : Fin 1))
        = sqOut (V m c main_v0) (V m c main_v1) (ix3 (rowIx t) k (0 : Fin 1)))
    (c : Dev nD) (t : Fin cfg0.N) (hf : (cfg0.win 3).flush t = true) :
    (dats (F := Ideal) m 0 c).flushed 3 t
      = ((cfg0.win 3).blk t).view.read (Elt Ideal) (sqOut (V m c main_v0) (V m c main_v1)) := by
  have ht : t.val % 8 = 7 := (flush0_3 t).mp hf
  obtain ⟨e0, e1, e2⟩ := index0_3 t
  show (cfg0.win 3).cut (grid0.coords t) ((dats (F := Ideal) m 0 c).after 3 t) = _
  rw [after0_3]
  refine funext fun (y : S1x10x1.Idx) => ?_
  obtain ⟨q, k, j, rfl⟩ : ∃ (q : Fin 1) (k : Fin 10) (j : Fin 1), y = ix3 q k j := ⟨y 0, y 1, y 2, eq_ix3 y⟩
  obtain rfl : q = 0 := Subsingleton.elim _ _
  obtain rfl : j = 0 := Subsingleton.elim _ _
  show (outsAt0 (F := Ideal) m c t.val t.isLt).2.1 (ix3 (0 : Fin 1) k (0 : Fin 1))
    = sqOut (V m c main_v0) (V m c main_v1) (((cfg0.win 3).blk t).view.emb (ix3 (0 : Fin 1) k (0 : Fin 1)))
  rw [hfl c t ht k]
  refine congrArg _ ?_
  funext a; apply Fin.ext
  match a with
  | ⟨0, _⟩ => show t.val / 8 = win0_3.index t (0 : Fin 3) * 1 + 1 * (0 : Fin 1).val; rw [e0]; show t.val / 8 = t.val / 8 * 1 + 1 * 0; omega
  | ⟨1, _⟩ => show k.val = win0_3.index t (1 : Fin 3) * 10 + 1 * k.val; rw [e1]; omega
  | ⟨2, _⟩ => show (0 : Fin 1).val = win0_3.index t (2 : Fin 3) * 1 + 1 * (0 : Fin 1).val; rw [e2]; rfl

/-- What a flushing point writes back into the counts array is its block of the counts. -/
theorem flushed4_eq
    (hfl : ∀ (c : Dev nD) (t : Fin cfg0.N), t.val % 8 = 7 → ∀ (k : Fin 10),
      (outsAt0 (F := Ideal) m c t.val t.isLt).2.2 (ix3 (0 : Fin 1) k (0 : Fin 1))
        = cntOut (V m c main_v1) (ix3 (rowIx t) k (0 : Fin 1)))
    (c : Dev nD) (t : Fin cfg0.N) (hf : (cfg0.win 4).flush t = true) :
    (dats (F := Ideal) m 0 c).flushed 4 t
      = ((cfg0.win 4).blk t).view.read (Elt Ideal) (cntOut (V m c main_v1)) := by
  have ht : t.val % 8 = 7 := (flush0_4 t).mp hf
  obtain ⟨e0, e1, e2⟩ := index0_4 t
  show (cfg0.win 4).cut (grid0.coords t) ((dats (F := Ideal) m 0 c).after 4 t) = _
  rw [after0_4]
  refine funext fun (y : S1x10x1.Idx) => ?_
  obtain ⟨q, k, j, rfl⟩ : ∃ (q : Fin 1) (k : Fin 10) (j : Fin 1), y = ix3 q k j := ⟨y 0, y 1, y 2, eq_ix3 y⟩
  obtain rfl : q = 0 := Subsingleton.elim _ _
  obtain rfl : j = 0 := Subsingleton.elim _ _
  show (outsAt0 (F := Ideal) m c t.val t.isLt).2.2 (ix3 (0 : Fin 1) k (0 : Fin 1))
    = cntOut (V m c main_v1) (((cfg0.win 4).blk t).view.emb (ix3 (0 : Fin 1) k (0 : Fin 1)))
  rw [hfl c t ht k]
  refine congrArg _ ?_
  funext a; apply Fin.ext
  match a with
  | ⟨0, _⟩ => show t.val / 8 = win0_4.index t (0 : Fin 3) * 1 + 1 * (0 : Fin 1).val; rw [e0]; show t.val / 8 = t.val / 8 * 1 + 1 * 0; omega
  | ⟨1, _⟩ => show k.val = win0_4.index t (1 : Fin 3) * 10 + 1 * k.val; rw [e1]; omega
  | ⟨2, _⟩ => show (0 : Fin 1).val = win0_4.index t (2 : Fin 3) * 1 + 1 * (0 : Fin 1).val; rw [e2]; rfl

/-- The sums array after the region. -/
theorem arr2_of
    (hfl : ∀ (c : Dev nD) (t : Fin cfg0.N), t.val % 8 = 7 → ∀ (k : Fin 10) (j : Fin 5120),
      (outsAt0 (F := Ideal) m c t.val t.isLt).1 (ix3 (0 : Fin 1) k j)
        = sumsOut (V m c main_v0) (V m c main_v1) (ix3 (⟨t.val / 8, by have := t.isLt; have : cfg0.N = 16 := Gen.N_0; omega⟩ : Fin 2) k j))
    (c : Dev nD) :
    (dats (F := Ideal) m 0 c).arrAt 2 cfg0.N = sumsOut (V m c main_v0) (V m c main_v1) :=
  (dats (F := Ideal) m 0 c).arrAt_eq_of_cover 2 (sumsOut (V m c main_v0) (V m c main_v1))
    (fun t hf => flushed2_eq m hfl c t hf) cover2

/-- The sums-of-squares array after the region. -/
theorem arr3_of
    (hfl : ∀ (c : Dev nD) (t : Fin cfg0.N), t.val % 8 = 7 → ∀ (k : Fin 10),
      (outsAt0 (F := Ideal) m c t.val t.isLt).2.1 (ix3 (0 : Fin 1) k (0 : Fin 1))
        = sqOut (V m c main_v0) (V m c main_v1) (ix3 (⟨t.val / 8, by have := t.isLt; have : cfg0.N = 16 := Gen.N_0; omega⟩ : Fin 2) k (0 : Fin 1)))
    (c : Dev nD) :
    (dats (F := Ideal) m 0 c).arrAt 3 cfg0.N = sqOut (V m c main_v0) (V m c main_v1) :=
  (dats (F := Ideal) m 0 c).arrAt_eq_of_cover 3 (sqOut (V m c main_v0) (V m c main_v1))
    (fun t hf => flushed3_eq m hfl c t hf) cover3

/-- The counts array after the region. -/
theorem arr4_of
    (hfl : ∀ (c : Dev nD) (t : Fin cfg0.N), t.val % 8 = 7 → ∀ (k : Fin 10),
      (outsAt0 (F := Ideal) m c t.val t.isLt).2.2 (ix3 (0 : Fin 1) k (0 : Fin 1))
        = cntOut (V m c main_v1) (ix3 (⟨t.val / 8, by have := t.isLt; have : cfg0.N = 16 := Gen.N_0; omega⟩ : Fin 2) k (0 : Fin 1)))
    (c : Dev nD) :
    (dats (F := Ideal) m 0 c).arrAt 4 cfg0.N = cntOut (V m c main_v1) :=
  (dats (F := Ideal) m 0 c).arrAt_eq_of_cover 4 (cntOut (V m c main_v1))
    (fun t hf => flushed4_eq m hfl c t hf) cover4

end Cert.KernelIdeal.Hand

end
-- ==== Proof.KI.Pieces.lean ====
/-
  What each control case of the kernel body leaves in the three result blocks, as payloads of the point's two input
  blocks. Where the second grid coordinate is zero the three blocks are zero-filled, read back, and the point's
  contribution is added; elsewhere the contribution is added to what the blocks held. The scratch column, rewritten by
  the row-chunk loop before its whole load, enters as the contents its four stores leave.
-/
import proofs.«411193_j75273596830476_3_alg».proof.Proof.KI.RunB
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The scratch column after the row-chunk loop: what the loop's stores leave, over a block's contents. -/
def scratchV (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole)
    (x0 : Vec F S512x5120 .f32) : Vec F S512x1 .f32 :=
  View.canon (pb_k0_t1 (F := F) Variants.none c none i arg2 harg2 arg3 harg3 arg4 harg4 arg5 harg5 arg6 harg6 arg7 harg7 (harg2.unread x0)
    (Scf.trips k0_t1_loop.lb k0_t1_loop.ub k0_t1_loop.st))

/-- A whole load of the column after the loop reads it. -/
theorem scratch_load (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole)
    (x0 : Vec F S512x5120 .f32) :
    arg7.view.readCov (pb_k0_t1 (F := F) Variants.none c none i arg2 harg2 arg3 harg3 arg4 harg4 arg5 harg5 arg6 harg6 arg7 harg7 (harg2.unread x0)
        (Scf.trips k0_t1_loop.lb k0_t1_loop.ub k0_t1_loop.st))
      (Rect.unit (s := S512x1) ![0, 0] S512x1.size inb_S512x1_S512x1_0_0).toLoadRect
      = scratchV c i arg2 harg2 arg3 harg3 arg4 harg4 arg5 harg5 arg6 harg6 arg7 harg7 x0 :=
  (View.readCov_eq_canon' _ _ _).trans (View.ld_unit_zero (S := S512x1) hz2 _ _)

/-! ## Where the second grid coordinate is zero -/

theorem canonA2 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i)
    (x0 : Vec F S512x5120 .f32) (x1 : Vec F S512x1 .i32) :
    View.canon (kernelRun0_A c i arg2 harg2 arg3 harg3 arg4 harg4 arg5 harg5 arg6 harg6 arg7 harg7 hc0 x0 x1).1 = k0_pay7 x1 x0 (k0_pay3 (F := F)) := by
  unfold kernelRun0_A
  dsimp only
  sl_unfold_words
  rw [View.canon_cons_unit_zero (S := S1x10x5120) hz3, View.readCov_unit_zero (S := S1x10x5120) _ hz3]
  simp only [View.readAt_eq_ld, harg2.read_unread, harg3.read_unread, View.ld_unit_zero (S := S512x5120) hz2,
    View.ld_unit_zero (S := S512x1) hz2]

theorem canonA3 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i)
    (x0 : Vec F S512x5120 .f32) (x1 : Vec F S512x1 .i32) :
    View.canon (kernelRun0_A c i arg2 harg2 arg3 harg3 arg4 harg4 arg5 harg5 arg6 harg6 arg7 harg7 hc0 x0 x1).2.1
      = k0_pay1 (k0_pay6 x1) (scratchV c i arg2 harg2 arg3 harg3 arg4 harg4 arg5 harg5 arg6 harg6 arg7 harg7 x0) (k0_pay4 (F := F)) := by
  unfold kernelRun0_A
  dsimp only
  sl_unfold_words
  rw [View.canon_cons_unit_zero (S := S1x10x1) hz3, View.readCov_unit_zero (S := S1x10x1) _ hz3]
  simp only [View.readAt_eq_ld, harg3.read_unread, View.ld_unit_zero (S := S512x1) hz2]
  exact congrArg (fun v => k0_pay1 (k0_pay6 x1) v (k0_pay4 (F := F))) (scratch_load c i arg2 harg2 arg3 harg3 arg4 harg4 arg5 harg5 arg6 harg6 arg7 harg7 x0)

theorem canonA4 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i)
    (x0 : Vec F S512x5120 .f32) (x1 : Vec F S512x1 .i32) :
    View.canon (kernelRun0_A c i arg2 harg2 arg3 harg3 arg4 harg4 arg5 harg5 arg6 harg6 arg7 harg7 hc0 x0 x1).2.2.1 = k0_pay2 (k0_pay6 x1) (k0_pay5 (F := F)) := by
  unfold kernelRun0_A
  dsimp only
  sl_unfold_words
  rw [View.canon_cons_unit_zero (S := S1x10x1) hz3, View.readCov_unit_zero (S := S1x10x1) _ hz3]
  simp only [View.readAt_eq_ld, harg3.read_unread, View.ld_unit_zero (S := S512x1) hz2]

/-! ## Elsewhere -/

theorem canonB2 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i)
    (x0 : Vec F S512x5120 .f32) (x1 : Vec F S512x1 .i32) (xo2 : Vec F S1x10x5120 .f32) (xo3 : Vec F S1x10x1 .f32) (xo4 : Vec F S1x10x1 .f32) :
    View.canon (kernelRun0_B c i arg2 harg2 arg3 harg3 arg4 harg4 arg5 harg5 arg6 harg6 arg7 harg7 hc0 x0 x1 xo2 xo3 xo4).1 = k0_pay7 x1 x0 xo2 := by
  unfold kernelRun0_B
  dsimp only
  sl_unfold_words
  rw [View.canon_unit_zero (S := S1x10x5120) hz3]
  simp only [View.readAt_eq_ld, harg2.read_unread, harg3.read_unread, harg4.read_unread, View.ld_unit_zero (S := S512x5120) hz2,
    View.ld_unit_zero (S := S512x1) hz2, View.ld_unit_zero (S := S1x10x5120) hz3]

theorem canonB3 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i)
    (x0 : Vec F S512x5120 .f32) (x1 : Vec F S512x1 .i32) (xo2 : Vec F S1x10x5120 .f32) (xo3 : Vec F S1x10x1 .f32) (xo4 : Vec F S1x10x1 .f32) :
    View.canon (kernelRun0_B c i arg2 harg2 arg3 harg3 arg4 harg4 arg5 harg5 arg6 harg6 arg7 harg7 hc0 x0 x1 xo2 xo3 xo4).2.1
      = k0_pay1 (k0_pay6 x1) (scratchV c i arg2 harg2 arg3 harg3 arg4 harg4 arg5 harg5 arg6 harg6 arg7 harg7 x0) xo3 := by
  unfold kernelRun0_B
  dsimp only
  sl_unfold_words
  rw [View.canon_unit_zero (S := S1x10x1) hz3]
  simp only [View.readAt_eq_ld, harg3.read_unread, harg5.read_unread, View.ld_unit_zero (S := S512x1) hz2,
    View.ld_unit_zero (S := S1x10x1) hz3]
  exact congrArg (fun v => k0_pay1 (k0_pay6 x1) v xo3) (scratch_load c i arg2 harg2 arg3 harg3 arg4 harg4 arg5 harg5 arg6 harg6 arg7 harg7 x0)

theorem canonB4 (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i)
    (x0 : Vec F S512x5120 .f32) (x1 : Vec F S512x1 .i32) (xo2 : Vec F S1x10x5120 .f32) (xo3 : Vec F S1x10x1 .f32) (xo4 : Vec F S1x10x1 .f32) :
    View.canon (kernelRun0_B c i arg2 harg2 arg3 harg3 arg4 harg4 arg5 harg5 arg6 harg6 arg7 harg7 hc0 x0 x1 xo2 xo3 xo4).2.2.1 = k0_pay2 (k0_pay6 x1) xo4 := by
  unfold kernelRun0_B
  dsimp only
  sl_unfold_words
  rw [View.canon_unit_zero (S := S1x10x1) hz3]
  simp only [View.readAt_eq_ld, harg3.read_unread, harg6.read_unread, View.ld_unit_zero (S := S512x1) hz2,
    View.ld_unit_zero (S := S1x10x1) hz3]

end Cert.KernelIdeal.Hand

end
-- ==== Proof.KI.PayPoint.lean ====
/-
  The pointwise payloads of the kernel body read at an index, over the extended reals: the one-hot matrix built from
  the label column (an iota along the class axis compared with the broadcast labels, widened and converted: 1 where the
  label is the class number, 0 elsewhere), the nan_to_num chain of three compare-and-select steps at one entry, and the
  three zero fills.
-/
import proofs.«411193_j75273596830476_3_alg».proof.Proof.KI.ArrSpec
import proofs.«411193_j75273596830476_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal

/-! ## Words and patterns -/

/-- The +∞ pattern of f32 is the top of the extended reals. -/
theorem ofBits_posInf : Ideal.ofBits .f32 0x7F800000#32 = ⊤ := by simp [Ideal.ofBits, Ideal.ieee]

/-- The −∞ pattern of f32 is the bottom of the extended reals. -/
theorem ofBits_negInf : Ideal.ofBits .f32 0xFF800000#32 = ⊥ := by simp [Ideal.ofBits, Ideal.ieee]

/-- The largest finite f32 is not −∞. -/
theorem ofBits_max_ne_bot : Ideal.ofBits .f32 0x7F7FFFFF#32 ≠ ⊥ := by
  have h : Ideal.ofBits .f32 0x7F7FFFFF#32 = (((16777215 : ℝ) * (2 : ℝ) ^ 104 : ℝ) : EReal) := by
    simp [Ideal.ofBits, Ideal.ieee]
  rw [h]
  exact EReal.coe_ne_bot _

/-! ## nan_to_num at one entry -/

/-- The three compare-and-select steps at one extended real: an entry unordered with itself would become 0 (there is
    none: every extended real equals itself), then +∞ becomes the largest finite f32, then −∞ the smallest. -/
theorem nn_chain (x : EReal) :
    Scalar.select
        (Ideal.cmp .oeq
          (Scalar.select (Ideal.cmp .oeq (Scalar.select (Ideal.cmp .one x x) (Ideal.ofBits .f32 0x00000000#32) x)
            (Ideal.ofBits .f32 0x7F800000#32)) (Ideal.ofBits .f32 0x7F7FFFFF#32)
            (Scalar.select (Ideal.cmp .one x x) (Ideal.ofBits .f32 0x00000000#32) x))
          (Ideal.ofBits .f32 0xFF800000#32))
        (Ideal.ofBits .f32 0xFF7FFFFF#32)
        (Scalar.select (Ideal.cmp .oeq (Scalar.select (Ideal.cmp .one x x) (Ideal.ofBits .f32 0x00000000#32) x)
            (Ideal.ofBits .f32 0x7F800000#32)) (Ideal.ofBits .f32 0x7F7FFFFF#32)
            (Scalar.select (Ideal.cmp .one x x) (Ideal.ofBits .f32 0x00000000#32) x))
      = nn x := by
  have h1 : Scalar.select (Ideal.cmp .one x x) (Ideal.ofBits .f32 0x00000000#32) x = x := by
    simp [Scalar.select, Ideal.cmp]
  rw [h1, ofBits_posInf, ofBits_negInf]
  unfold nn
  by_cases ht : x = ⊤
  · have h2 : Scalar.select (Ideal.cmp .oeq x ⊤) (Ideal.ofBits .f32 0x7F7FFFFF#32) x = Ideal.ofBits .f32 0x7F7FFFFF#32 := by
      simp [Scalar.select, Ideal.cmp, ht]
    rw [h2, if_pos ht]
    simp [Scalar.select, Ideal.cmp, ofBits_max_ne_bot]
  · have h2 : Scalar.select (Ideal.cmp .oeq x ⊤) (Ideal.ofBits .f32 0x7F7FFFFF#32) x = x := by
      simp [Scalar.select, Ideal.cmp, ht]
    rw [h2, if_neg ht]
    by_cases hb : x = ⊥
    · simp [Scalar.select, Ideal.cmp, hb]
    · simp [Scalar.select, Ideal.cmp, hb]

/-- nan_to_num on a whole vector, as the body spells it: three compare-and-select steps against splat constants. -/
def nanBlk {s : Shape} (x : FVec Ideal s .f32) : FVec Ideal s .f32 :=
  have a : FVec Ideal s .f32 := select (cmpf .one x x) (broadcast s (Scalar.ofBits (F := Ideal) .f32 0x00000000#32)) x
  have b : FVec Ideal s .f32 :=
    select (cmpf .oeq a (broadcast s (Scalar.ofBits (F := Ideal) .f32 0x7F800000#32)))
      (broadcast s (Scalar.ofBits (F := Ideal) .f32 0x7F7FFFFF#32)) a
  select (cmpf .oeq b (broadcast s (Scalar.ofBits (F := Ideal) .f32 0xFF800000#32)))
    (broadcast s (Scalar.ofBits (F := Ideal) .f32 0xFF7FFFFF#32)) b

/-- At an index it is `nn` of the entry. -/
theorem nanBlk_apply {s : Shape} (x : FVec Ideal s .f32) (i : s.Idx) : nanBlk x i = nn (x i) := nn_chain (x i)

/-! ## The one-hot matrix -/

/-- Entry (r, k) of the one-hot matrix: 1 where row r's label word is the class number k, 0 elsewhere. -/
theorem pay6_apply (v4 : Vec Ideal S512x1 .i32) (r : Fin 512) (k : Fin 10) :
    Gen.k0_pay6 (F := Ideal) v4 (ix2 r k) = oh (v4 (ix2 r (0 : Fin 1))) k := by
  unfold Gen.k0_pay6
  dsimp only
  rw [sitofp_apply, extui_apply]
  show FloatOps.sitofp .f32 ((IntOp.cmpi .eq (broadcastTo S512x10 (shapeCast S512x1 v4 _) _ (ix2 r k))
    (iota .tc S512x10 32 [1] _ (ix2 r k))).setWidth 32) = _
  rw [iota_single_apply, shapeCast_self,
    broadcastTo_apply v4 _ (ix2 r k) (ix2 r (0 : Fin 1)) (fun a => match a with | ⟨0, _⟩ => rfl | ⟨1, _⟩ => rfl)]
  show ((((IntOp.cmpi .eq (v4 (ix2 r (0 : Fin 1))) (BitVec.ofNat 32 k.val)).setWidth 32).toInt : ℝ) : EReal) = _
  unfold oh IntOp.cmpi
  by_cases h : v4 (ix2 r (0 : Fin 1)) = BitVec.ofNat 32 k.val
  · rw [if_pos h, h]; simp
  · rw [if_neg h]
    have : (v4 (ix2 r (0 : Fin 1)) == BitVec.ofNat 32 k.val) = false := by simpa using h
    simp [this]

/-! ## The zero fills -/

/-- The [1,10,5120] zero fill is 0 at every index. -/
theorem pay3_apply (i : S1x10x5120.Idx) : Gen.k0_pay3 (F := Ideal) i = 0 := by
  obtain ⟨u, k, j, rfl⟩ : ∃ (u : Fin 1) (k : Fin 10) (j : Fin 5120), i = ix3 u k j := ⟨i 0, i 1, i 2, eq_ix3 i⟩
  unfold Gen.k0_pay3
  rw [shapeCast_ab_1ab_apply, broadcast_apply]
  exact Ideal.ofBits_zero_f32

/-- The first [1,10,1] zero fill is 0 at every index. -/
theorem pay4_apply (i : S1x10x1.Idx) : Gen.k0_pay4 (F := Ideal) i = 0 := by
  obtain ⟨u, k, j, rfl⟩ : ∃ (u : Fin 1) (k : Fin 10) (j : Fin 1), i = ix3 u k j := ⟨i 0, i 1, i 2, eq_ix3 i⟩
  unfold Gen.k0_pay4
  rw [shapeCast_ab_1ab_apply, broadcast_apply]
  exact Ideal.ofBits_zero_f32

/-- The second [1,10,1] zero fill is 0 at every index. -/
theorem pay5_apply (i : S1x10x1.Idx) : Gen.k0_pay5 (F := Ideal) i = 0 := by
  obtain ⟨u, k, j, rfl⟩ : ∃ (u : Fin 1) (k : Fin 10) (j : Fin 1), i = ix3 u k j := ⟨i 0, i 1, i 2, eq_ix3 i⟩
  unfold Gen.k0_pay5
  rw [shapeCast_ab_1ab_apply, broadcast_apply]
  exact Ideal.ofBits_zero_f32

end Cert.KernelIdeal.Hand

end
-- ==== Proof.KI.PayDot.lean ====
/-
  The two matrix products of the kernel body read at an index, over the extended reals. Both contract axis 0 of both
  operands (the 512 rows of a block): entry (k, j) of the product of the [512,10] one-hot matrix with a [512,n] matrix,
  accumulated into the zero splat, is the sum over the rows r of the two entries' product. The contraction's index set is
  Fin 512; the operands' indices at an output index and a contraction index are read coordinate by coordinate.
-/
import proofs.«411193_j75273596830476_3_alg».proof.Proof.KI.ArrSpec
import proofs.«411193_j75273596830476_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal

/-! ## The [512,10] × [512,5120] product -/

theorem lhsW_0 (j : S10x5120.Idx) (q : dot_S512x10_S512x5120_S10x5120_0_0_1_1_n_n.contr.Idx) :
    (dot_S512x10_S512x5120_S10x5120_0_0_1_1_n_n.lhsIdx j q 0 : ℕ) = q ⟨0, by decide⟩ := by
  simp [DotDims.lhsIdx, dot_S512x10_S512x5120_S10x5120_0_0_1_1_n_n]; rfl
theorem lhsW_1 (j : S10x5120.Idx) (q : dot_S512x10_S512x5120_S10x5120_0_0_1_1_n_n.contr.Idx) :
    (dot_S512x10_S512x5120_S10x5120_0_0_1_1_n_n.lhsIdx j q 1 : ℕ) = j 0 := by
  simp [DotDims.lhsIdx, dot_S512x10_S512x5120_S10x5120_0_0_1_1_n_n]; rfl
theorem rhsW_0 (j : S10x5120.Idx) (q : dot_S512x10_S512x5120_S10x5120_0_0_1_1_n_n.contr.Idx) :
    (dot_S512x10_S512x5120_S10x5120_0_0_1_1_n_n.rhsIdx j q 0 : ℕ) = q ⟨0, by decide⟩ := by
  simp [DotDims.rhsIdx, dot_S512x10_S512x5120_S10x5120_0_0_1_1_n_n]; rfl
theorem rhsW_1 (j : S10x5120.Idx) (q : dot_S512x10_S512x5120_S10x5120_0_0_1_1_n_n.contr.Idx) :
    (dot_S512x10_S512x5120_S10x5120_0_0_1_1_n_n.rhsIdx j q 1 : ℕ) = j 1 := by
  simp [DotDims.rhsIdx, dot_S512x10_S512x5120_S10x5120_0_0_1_1_n_n]; rfl

/-- Entry (k, j) of the wide product into the zero splat: the sum over the 512 rows. -/
theorem matmulW_apply (prec : Option ContractPrecision) (a : FVec Ideal S512x10 .f32) (b : FVec Ideal S512x5120 .f32)
    (k : Fin 10) (j : Fin 5120) :
    matmul dot_S512x10_S512x5120_S10x5120_0_0_1_1_n_n prec a b (constant (F := Ideal) S10x5120 .f32 0x00000000#32) (ix2 k j)
      = ∑ r : Fin 512, a (ix2 r k) * b (ix2 r j) := by
  show FloatOps.matmul dot_S512x10_S512x5120_S10x5120_0_0_1_1_n_n prec a b _ (ix2 k j) = _
  rw [Ideal.matmul_constant_zero_apply,
    ← Equiv.sum_comp (contrEquiv1 dot_S512x10_S512x5120_S10x5120_0_0_1_1_n_n 512 rfl rfl).symm]
  refine Finset.sum_congr rfl fun r _ => ?_
  have hq := contrEquiv1_symm_val dot_S512x10_S512x5120_S10x5120_0_0_1_1_n_n 512 rfl rfl r
  congr 2
  · apply Shape.idx_ext₂
    · exact (lhsW_0 _ _).trans hq
    · exact lhsW_1 _ _
  · apply Shape.idx_ext₂
    · exact (rhsW_0 _ _).trans hq
    · exact rhsW_1 _ _

/-! ## The [512,10] × [512,1] product -/

theorem lhsN_0 (j : S10x1.Idx) (q : dot_S512x10_S512x1_S10x1_0_0_1_1_n_n.contr.Idx) :
    (dot_S512x10_S512x1_S10x1_0_0_1_1_n_n.lhsIdx j q 0 : ℕ) = q ⟨0, by decide⟩ := by
  simp [DotDims.lhsIdx, dot_S512x10_S512x1_S10x1_0_0_1_1_n_n]; rfl
theorem lhsN_1 (j : S10x1.Idx) (q : dot_S512x10_S512x1_S10x1_0_0_1_1_n_n.contr.Idx) :
    (dot_S512x10_S512x1_S10x1_0_0_1_1_n_n.lhsIdx j q 1 : ℕ) = j 0 := by
  simp [DotDims.lhsIdx, dot_S512x10_S512x1_S10x1_0_0_1_1_n_n]; rfl
theorem rhsN_0 (j : S10x1.Idx) (q : dot_S512x10_S512x1_S10x1_0_0_1_1_n_n.contr.Idx) :
    (dot_S512x10_S512x1_S10x1_0_0_1_1_n_n.rhsIdx j q 0 : ℕ) = q ⟨0, by decide⟩ := by
  simp [DotDims.rhsIdx, dot_S512x10_S512x1_S10x1_0_0_1_1_n_n]; rfl
theorem rhsN_1 (j : S10x1.Idx) (q : dot_S512x10_S512x1_S10x1_0_0_1_1_n_n.contr.Idx) :
    (dot_S512x10_S512x1_S10x1_0_0_1_1_n_n.rhsIdx j q 1 : ℕ) = j 1 := by
  have h1 : (j 1).val < 1 := (j 1).isLt
  have h2 : (dot_S512x10_S512x1_S10x1_0_0_1_1_n_n.rhsIdx j q 1).val < 1 :=
    (dot_S512x10_S512x1_S10x1_0_0_1_1_n_n.rhsIdx j q 1).isLt
  omega

/-- Entry (k, 0) of the narrow product into the zero splat: the sum over the 512 rows. -/
theorem matmulN_apply (prec : Option ContractPrecision) (a : FVec Ideal S512x10 .f32) (b : FVec Ideal S512x1 .f32)
    (k : Fin 10) (z : Fin 1) :
    matmul dot_S512x10_S512x1_S10x1_0_0_1_1_n_n prec a b (constant (F := Ideal) S10x1 .f32 0x00000000#32) (ix2 k z)
      = ∑ r : Fin 512, a (ix2 r k) * b (ix2 r z) := by
  show FloatOps.matmul dot_S512x10_S512x1_S10x1_0_0_1_1_n_n prec a b _ (ix2 k z) = _
  rw [Ideal.matmul_constant_zero_apply,
    ← Equiv.sum_comp (contrEquiv1 dot_S512x10_S512x1_S10x1_0_0_1_1_n_n 512 rfl rfl).symm]
  refine Finset.sum_congr rfl fun r _ => ?_
  have hq := contrEquiv1_symm_val dot_S512x10_S512x1_S10x1_0_0_1_1_n_n 512 rfl rfl r
  congr 2
  · apply Shape.idx_ext₂
    · exact (lhsN_0 _ _).trans hq
    · exact lhsN_1 _ _
  · apply Shape.idx_ext₂
    · exact (rhsN_0 _ _).trans hq
    · exact rhsN_1 _ _

end Cert.KernelIdeal.Hand

end
-- ==== Proof.KI.Payload.lean ====
/-
  The four accumulating payloads of the kernel body read at an index, over the extended reals: the label-weighted column
  sums added to the [1,10,5120] result block, one chunk's row sums of squared shifted entries, and the label-weighted sums
  of those row sums and of ones added to the two [1,10,1] result blocks. Each is a chain of shape casts around a sum and a
  matrix product into the zero splat; at an index the casts read the same entry, the product is the sum over the block's
  512 rows, and the lane sum is the sum over the 5120 columns.
-/
import proofs.«411193_j75273596830476_3_alg».proof.Proof.KI.ArrSpec
import proofs.«411193_j75273596830476_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«411193_j75273596830476_3_alg».proof.Proof.KI.PayPoint
import proofs.«411193_j75273596830476_3_alg».proof.Proof.KI.PayDot
import Idealize.ShloMosaic.Lib.IdealHost

noncomputable section

namespace Cert.KernelIdeal.Hand

open Idealize.ShloMosaic Idealize.ShloMosaic.ValueIdx Cert.KernelIdeal

/-! ## A lane-sum's result [a] viewed as a column [a,1] -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The column sums -/

/-- Entry (0, k, j) of the new [1,10,5120] block: the old entry plus the sum over the block's rows of the one-hot entry
    times the row's entry after nan_to_num. -/
theorem pay7_apply (v4 : Vec Ideal S512x1 .i32) (v10 : Vec Ideal S512x5120 .f32) (v24 : Vec Ideal S1x10x5120 .f32)
    (k : Fin 10) (j : Fin 5120) :
    Gen.k0_pay7 (F := Ideal) v4 v10 v24 (ix3 (0 : Fin 1) k j)
      = v24 (ix3 (0 : Fin 1) k j) + ∑ r : Fin 512, oh (v4 (ix2 r (0 : Fin 1))) k * nn (v10 (ix2 r j)) := by
  unfold Gen.k0_pay7
  refine (shapeCast_ab_1ab_apply _ _ (0 : Fin 1) k j).trans ?_
  refine congrArg₂ (· + ·) (shapeCast_1ab_ab_apply v24 _ k j) ?_
  refine (matmulW_apply none _ _ k j).trans ?_
  refine Finset.sum_congr rfl fun r _ => ?_
  refine congrArg₂ (· * ·) (pay6_apply v4 r k) ?_
  refine (nanBlk_apply (shapeCast S512x5120 v10 _) (ix2 r j)).trans ?_
  rw [shapeCast_self]

/-! ## One chunk's row sums of squares -/

/-- Row r of a 128-row chunk: the sum over the columns of the squared entry after nan_to_num and the shift by ε. -/
theorem pay8_apply (v50 : Vec Ideal S128x5120 .f32) (r : Fin 128) :
    Gen.k0_pay8 (F := Ideal) v50 (ix2 r (0 : Fin 1))
      = ∑ j : Fin 5120, (nn (v50 (ix2 r j)) + eps) * (nn (v50 (ix2 r j)) + eps) := by
  unfold Gen.k0_pay8
  refine (congrFun (shapeCast_self _ _) _).trans ?_
  refine (shapeCast_a_a1_apply _ _ r (0 : Fin 1)).trans ?_
  refine (Ideal.multiReduction_add_single _ _ _ _ _ (ix1 r)).trans ?_
  refine Finset.sum_congr rfl fun j _ => ?_
  have e : Gen.reduces_S128x5120_S128.lift (ix1 r) j = ix2 r j := by
    funext a; apply Fin.ext
    match a with
    | ⟨0, _⟩ => rfl
    | ⟨1, _⟩ => rfl
  refine (congrArg _ e).trans ?_
  show (nanBlk (shapeCast S128x5120 v50 _) (ix2 r j) + eps) * (nanBlk (shapeCast S128x5120 v50 _) (ix2 r j) + eps) = _
  rw [nanBlk_apply, shapeCast_self]

/-! ## The weighted sums of the row sums and of ones -/

/-- Entry (0, k, 0) of the new sums-of-squares block: the old entry plus the sum over the block's rows of the one-hot
    entry times the row's sum of squares. -/
theorem pay1_apply (v9 : FVec Ideal S512x10 .f32) (v31 : Vec Ideal S512x1 .f32) (v33 : Vec Ideal S1x10x1 .f32) (k : Fin 10) :
    Gen.k0_pay1 (F := Ideal) v9 v31 v33 (ix3 (0 : Fin 1) k (0 : Fin 1))
      = v33 (ix3 (0 : Fin 1) k (0 : Fin 1)) + ∑ r : Fin 512, v9 (ix2 r k) * v31 (ix2 r (0 : Fin 1)) := by
  unfold Gen.k0_pay1
  refine (shapeCast_ab_1ab_apply _ _ (0 : Fin 1) k (0 : Fin 1)).trans ?_
  refine congrArg₂ (· + ·) (shapeCast_1ab_ab_apply v33 _ k (0 : Fin 1)) ?_
  exact matmulN_apply _ v9 v31 k (0 : Fin 1)

/-- Entry (0, k, 0) of the new counts block: the old entry plus the sum over the block's rows of the one-hot entry
    times one. -/
theorem pay2_apply (v9 : FVec Ideal S512x10 .f32) (v41 : Vec Ideal S1x10x1 .f32) (k : Fin 10) :
    Gen.k0_pay2 (F := Ideal) v9 v41 (ix3 (0 : Fin 1) k (0 : Fin 1))
      = v41 (ix3 (0 : Fin 1) k (0 : Fin 1)) + ∑ r : Fin 512, v9 (ix2 r k) * 1 := by
  unfold Gen.k0_pay2
  refine (shapeCast_ab_1ab_apply _ _ (0 : Fin 1) k (0 : Fin 1)).trans ?_
  refine congrArg₂ (· + ·) (shapeCast_1ab_ab_apply v41 _ k (0 : Fin 1)) ?_
  refine (matmulN_apply _ v9 _ k (0 : Fin 1)).trans ?_
  refine Finset.sum_congr rfl fun r _ => ?_
  refine congrArg (v9 (ix2 r k) * ·) ?_
  exact Ideal.ofBits_one_f32

end Cert.KernelIdeal.Hand

end
-- ==== Proof.KI.ScratchCol.lean ====
/-
  The scratch column after the row-chunk loop, over the extended reals. Each of the loop's four trips stores, at rows
  128k … 128k+127 of the [512,1] column, the row sums of squares of the 128-row chunk of the block it loads at the same
  rows; so the four pieces are the four quarters of ONE function of the row, the sum over the columns of the squared
  entry after nan_to_num and the shift by ε, and the column read back whole is that function.
-/
import proofs.«411193_j75273596830476_3_alg».proof.Proof.KI.Kit
import proofs.«411193_j75273596830476_3_alg».proof.Proof.KI.Payload

set_option maxRecDepth 16384

noncomputable section

namespace Cert.KernelIdeal.Hand

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- Row r's sum of squares: the sum over the columns of the squared entry after nan_to_num and the shift by ε. -/
def rowSq (x0 : S512x5120.Idx → EReal) (r : Fin 512) : EReal :=
  ∑ j : Fin 5120, (nn (x0 (ix2 r j)) + eps) * (nn (x0 (ix2 r j)) + eps)

section
variable {F : FTy → Type} [FloatOps F]

/-- One trip's one piece: the store, at the trip's rows of the column, of the chunk payload of the load at the trip's
    rows of the block. -/
theorem tripL_eq (𝒱 : Variants) (c : Dev nD) (bd : Option 𝒱.V) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole)
    (X : BufTy.Contents (Elt F) arg2.view.ty) (k : Fin k0_t1_loop.trips) :
    tripL_k0_t1 (F := F) 𝒱 c bd i arg2 harg2 arg3 harg3 arg4 harg4 arg5 harg5 arg6 harg6 arg7 harg7 X k
      = [⟨Rect.unit (s := S512x1) (k0_off2 k) S128x1.size (k0_off2_inb k),
          k0_pay8 (View.readAt (Elt F) arg2.view (Rect.unit (s := S512x5120) (k0_off1 k) S128x5120.size (k0_off1_inb k)).toLoadRect X)⟩] := by
  unfold tripL_k0_t1 trip_k0_t1
  rfl

end

/-- The chunk payload of trip k at its local row is the row sum of squares of the block's row 128k + (local row). -/
theorem trip_payload_apply (arg2 : Memref sig .tc .vmem S512x5120 .f32) (harg2 : arg2.IsWhole)
    (x0 : Vec Ideal S512x5120 .f32) (k : Fin k0_t1_loop.trips) (x : S128x1.Idx) (y : S512x1.Idx)
    (hy : (y 0).val = 128 * k.val + (x 0).val) :
    k0_pay8 (F := Ideal) (View.readAt (Elt Ideal) arg2.view (Rect.unit (s := S512x5120) (k0_off1 k) S128x5120.size (k0_off1_inb k)).toLoadRect
      (harg2.unread x0)) x = rowSq x0 (y 0) := by
  obtain ⟨a, u, rfl⟩ : ∃ (a : Fin 128) (u : Fin 1), x = ix2 a u := ⟨x 0, x 1, eq_ix2 x⟩
  obtain rfl : u = 0 := Subsingleton.elim _ _
  rw [View.readAt_eq_ld, harg2.read_unread]
  refine (pay8_apply _ a).trans ?_
  unfold rowSq
  refine Finset.sum_congr rfl fun j _ => ?_
  have e : (Rect.unit (s := S512x5120) (k0_off1 k) S128x5120.size (k0_off1_inb k)).idx (ix2 a j) = ix2 (y 0) j := by
    funext b; apply Fin.ext
    match b with
    | ⟨0, _⟩ =>
      show k0_off1 k 0 + 1 * a.val = (y 0).val
      have h1 : k0_off1 k 0 = 128 * k.val := congrFun (k0_off1_eq k) 0
      have h2 : (y 0).val = 128 * k.val + a.val := hy
      omega
    | ⟨1, _⟩ =>
      show k0_off1 k 1 + 1 * j.val = j.val
      have h1 : k0_off1 k 1 = 0 := congrFun (k0_off1_eq k) 1
      omega
  exact congrArg (fun z => (nn (x0 z) + eps) * (nn (x0 z) + eps)) e

/-- Every piece of the trips before any trip count is a block of the row-sum function. -/
theorem pb_pieces (𝒱 : Variants) (c : Dev nD) (bd : Option 𝒱.V) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole)
    (x0 : Vec Ideal S512x5120 .f32) :
    ∀ (n : ℕ), ∀ p ∈ pb_k0_t1 (F := Ideal) 𝒱 c bd i arg2 harg2 arg3 harg3 arg4 harg4 arg5 harg5 arg6 harg6 arg7 harg7 (harg2.unread x0) n,
      ∀ x : p.1.shape.Idx, p.2 x = (fun y : S512x1.Idx => rowSq x0 (y 0)) (p.1.emb x)
  | 0 => by
    intro p hp
    rw [pb_k0_t1.eq_1] at hp
    exact absurd hp List.not_mem_nil
  | n + 1 => by
    intro p hp x
    rw [pb_k0_t1.eq_2] at hp
    unfold pb_k0_t1Step at hp
    split at hp
    · rename_i h
      rw [tripL_eq, List.cons_append, List.nil_append, List.mem_cons] at hp
      rcases hp with rfl | hp
      · refine trip_payload_apply arg2 harg2 x0 ⟨n, h⟩ x _ ?_
        show k0_off2 ⟨n, h⟩ 0 + 1 * (x 0).val = 128 * n + (x 0).val
        have h2 : k0_off2 ⟨n, h⟩ 0 = 128 * n := congrFun (k0_off2_eq ⟨n, h⟩) 0
        omega
      · exact pb_pieces 𝒱 c bd i arg2 harg2 arg3 harg3 arg4 harg4 arg5 harg5 arg6 harg6 arg7 harg7 x0 n p hp x
    · exact pb_pieces 𝒱 c bd i arg2 harg2 arg3 harg3 arg4 harg4 arg5 harg5 arg6 harg6 arg7 harg7 x0 n p hp x

/-- The column the loop leaves, read at a row some trip covers, is that row's sum of squares. -/
theorem scratch_canon (𝒱 : Variants) (c : Dev nD) (bd : Option 𝒱.V) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole)
    (x0 : Vec Ideal S512x5120 .f32) (n : ℕ) (y : S512x1.Idx)
    (hcov : ∃ p ∈ pb_k0_t1 (F := Ideal) 𝒱 c bd i arg2 harg2 arg3 harg3 arg4 harg4 arg5 harg5 arg6 harg6 arg7 harg7 (harg2.unread x0) n, y ∈ p.1.set) :
    View.canon (pb_k0_t1 (F := Ideal) 𝒱 c bd i arg2 harg2 arg3 harg3 arg4 harg4 arg5 harg5 arg6 harg6 arg7 harg7 (harg2.unread x0) n) y = rowSq x0 (y 0) :=
  View.canon_apply_of_pieces (fun y : S512x1.Idx => rowSq x0 (y 0)) _
    (pb_pieces 𝒱 c bd i arg2 harg2 arg3 harg3 arg4 harg4 arg5 harg5 arg6 harg6 arg7 harg7 x0 n) y hcov

end Cert.KernelIdeal.Hand

end
-- ==== Proof.KI.PieceVals.lean ====
/-
  The three result blocks after one grid point, read at an index over the extended reals. Where the second grid
  coordinate is zero each block holds the point's contribution alone (the zero fill read back adds nothing); elsewhere
  what the block held plus the contribution. The contributions: the label-weighted column sums of the point's rows after
  nan_to_num, the label-weighted sums of the rows' sums of squares, and the label counts.
-/
import proofs.«411193_j75273596830476_3_alg».proof.Proof.KI.Pieces
import proofs.«411193_j75273596830476_3_alg».proof.Proof.KI.Payload
import proofs.«411193_j75273596830476_3_alg».proof.Proof.KI.ScratchCol

set_option maxRecDepth 16384

noncomputable section

namespace Cert.KernelIdeal.Hand

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The column after the loop, read at row r, is that row's sum of squares. -/
theorem scratchV_apply (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole)
    (x0 : Vec Ideal S512x5120 .f32) (r : Fin 512) :
    scratchV (F := Ideal) c i arg2 harg2 arg3 harg3 arg4 harg4 arg5 harg5 arg6 harg6 arg7 harg7 x0 (ix2 r (0 : Fin 1)) = rowSq x0 r :=
  scratch_canon Variants.none c none i arg2 harg2 arg3 harg3 arg4 harg4 arg5 harg5 arg6 harg6 arg7 harg7 x0 _ (ix2 r (0 : Fin 1))
    (scratch_cover c i arg2 harg2 arg3 harg3 arg4 harg4 arg5 harg5 arg6 harg6 arg7 harg7 (harg2.unread x0) (ix2 r (0 : Fin 1)))

/-! ## Where the second grid coordinate is zero -/

theorem canonA2_apply (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i)
    (x0 : Vec Ideal S512x5120 .f32) (x1 : Vec Ideal S512x1 .i32) (k : Fin 10) (j : Fin 5120) :
    View.canon (kernelRun0_A (F := Ideal) c i arg2 harg2 arg3 harg3 arg4 harg4 arg5 harg5 arg6 harg6 arg7 harg7 hc0 x0 x1).1 (ix3 (0 : Fin 1) k j)
      = ∑ r : Fin 512, oh (x1 (ix2 r (0 : Fin 1))) k * nn (x0 (ix2 r j)) := by
  refine (congrFun (canonA2 (F := Ideal) c i arg2 harg2 arg3 harg3 arg4 harg4 arg5 harg5 arg6 harg6 arg7 harg7 hc0 x0 x1) (ix3 (0 : Fin 1) k j)).trans ?_
  refine (pay7_apply x1 x0 _ k j).trans ?_
  rw [pay3_apply, zero_add]

theorem canonA3_apply (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i)
    (x0 : Vec Ideal S512x5120 .f32) (x1 : Vec Ideal S512x1 .i32) (k : Fin 10) :
    View.canon (kernelRun0_A (F := Ideal) c i arg2 harg2 arg3 harg3 arg4 harg4 arg5 harg5 arg6 harg6 arg7 harg7 hc0 x0 x1).2.1 (ix3 (0 : Fin 1) k (0 : Fin 1))
      = ∑ r : Fin 512, oh (x1 (ix2 r (0 : Fin 1))) k * rowSq x0 r := by
  refine (congrFun (canonA3 (F := Ideal) c i arg2 harg2 arg3 harg3 arg4 harg4 arg5 harg5 arg6 harg6 arg7 harg7 hc0 x0 x1) (ix3 (0 : Fin 1) k (0 : Fin 1))).trans ?_
  refine (pay1_apply _ _ _ k).trans ?_
  rw [pay4_apply, zero_add]
  refine Finset.sum_congr rfl fun r _ => ?_
  rw [pay6_apply, scratchV_apply]

theorem canonA4_apply (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : cond0_0 i)
    (x0 : Vec Ideal S512x5120 .f32) (x1 : Vec Ideal S512x1 .i32) (k : Fin 10) :
    View.canon (kernelRun0_A (F := Ideal) c i arg2 harg2 arg3 harg3 arg4 harg4 arg5 harg5 arg6 harg6 arg7 harg7 hc0 x0 x1).2.2.1 (ix3 (0 : Fin 1) k (0 : Fin 1))
      = ∑ r : Fin 512, oh (x1 (ix2 r (0 : Fin 1))) k * 1 := by
  refine (congrFun (canonA4 (F := Ideal) c i arg2 harg2 arg3 harg3 arg4 harg4 arg5 harg5 arg6 harg6 arg7 harg7 hc0 x0 x1) (ix3 (0 : Fin 1) k (0 : Fin 1))).trans ?_
  refine (pay2_apply _ _ k).trans ?_
  rw [pay5_apply, zero_add]
  refine Finset.sum_congr rfl fun r _ => ?_
  rw [pay6_apply]

/-! ## Elsewhere -/

theorem canonB2_apply (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i)
    (x0 : Vec Ideal S512x5120 .f32) (x1 : Vec Ideal S512x1 .i32) (xo2 : Vec Ideal S1x10x5120 .f32) (xo3 : Vec Ideal S1x10x1 .f32) (xo4 : Vec Ideal S1x10x1 .f32)
    (k : Fin 10) (j : Fin 5120) :
    View.canon (kernelRun0_B (F := Ideal) c i arg2 harg2 arg3 harg3 arg4 harg4 arg5 harg5 arg6 harg6 arg7 harg7 hc0 x0 x1 xo2 xo3 xo4).1 (ix3 (0 : Fin 1) k j)
      = xo2 (ix3 (0 : Fin 1) k j) + ∑ r : Fin 512, oh (x1 (ix2 r (0 : Fin 1))) k * nn (x0 (ix2 r j)) := by
  refine (congrFun (canonB2 (F := Ideal) c i arg2 harg2 arg3 harg3 arg4 harg4 arg5 harg5 arg6 harg6 arg7 harg7 hc0 x0 x1 xo2 xo3 xo4) (ix3 (0 : Fin 1) k j)).trans ?_
  exact pay7_apply x1 x0 xo2 k j

theorem canonB3_apply (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i)
    (x0 : Vec Ideal S512x5120 .f32) (x1 : Vec Ideal S512x1 .i32) (xo2 : Vec Ideal S1x10x5120 .f32) (xo3 : Vec Ideal S1x10x1 .f32) (xo4 : Vec Ideal S1x10x1 .f32)
    (k : Fin 10) :
    View.canon (kernelRun0_B (F := Ideal) c i arg2 harg2 arg3 harg3 arg4 harg4 arg5 harg5 arg6 harg6 arg7 harg7 hc0 x0 x1 xo2 xo3 xo4).2.1 (ix3 (0 : Fin 1) k (0 : Fin 1))
      = xo3 (ix3 (0 : Fin 1) k (0 : Fin 1)) + ∑ r : Fin 512, oh (x1 (ix2 r (0 : Fin 1))) k * rowSq x0 r := by
  refine (congrFun (canonB3 (F := Ideal) c i arg2 harg2 arg3 harg3 arg4 harg4 arg5 harg5 arg6 harg6 arg7 harg7 hc0 x0 x1 xo2 xo3 xo4) (ix3 (0 : Fin 1) k (0 : Fin 1))).trans ?_
  refine (pay1_apply _ _ xo3 k).trans ?_
  refine congrArg (xo3 (ix3 (0 : Fin 1) k (0 : Fin 1)) + ·) ?_
  refine Finset.sum_congr rfl fun r _ => ?_
  rw [pay6_apply, scratchV_apply]

theorem canonB4_apply (c : Dev nD) (i : grid0.Coords) (arg2 : Memref sig .tc .vmem S512x5120 .f32) (harg2 : arg2.IsWhole) (arg3 : Memref sig .tc .vmem S512x1 .i32) (harg3 : arg3.IsWhole) (arg4 : Memref sig .tc .vmem S1x10x5120 .f32) (harg4 : arg4.IsWhole) (arg5 : Memref sig .tc .vmem S1x10x1 .f32) (harg5 : arg5.IsWhole) (arg6 : Memref sig .tc .vmem S1x10x1 .f32) (harg6 : arg6.IsWhole) (arg7 : Memref sig .tc .vmem S512x1 .f32) (harg7 : arg7.IsWhole) (hc0 : ¬cond0_0 i)
    (x0 : Vec Ideal S512x5120 .f32) (x1 : Vec Ideal S512x1 .i32) (xo2 : Vec Ideal S1x10x5120 .f32) (xo3 : Vec Ideal S1x10x1 .f32) (xo4 : Vec Ideal S1x10x1 .f32)
    (k : Fin 10) :
    View.canon (kernelRun0_B (F := Ideal) c i arg2 harg2 arg3 harg3 arg4 harg4 arg5 harg5 arg6 harg6 arg7 harg7 hc0 x0 x1 xo2 xo3 xo4).2.2.1 (ix3 (0 : Fin 1) k (0 : Fin 1))
      = xo4 (ix3 (0 : Fin 1) k (0 : Fin 1)) + ∑ r : Fin 512, oh (x1 (ix2 r (0 : Fin 1))) k * 1 := by
  refine (congrFun (canonB4 (F := Ideal) c i arg2 harg2 arg3 harg3 arg4 harg4 arg5 harg5 arg6 harg6 arg7 harg7 hc0 x0 x1 xo2 xo3 xo4) (ix3 (0 : Fin 1) k (0 : Fin 1))).trans ?_
  refine (pay2_apply _ xo4 k).trans ?_
  refine congrArg (xo4 (ix3 (0 : Fin 1) k (0 : Fin 1)) + ·) ?_
  refine Finset.sum_congr rfl fun r _ => ?_
  rw [pay6_apply]

end Cert.KernelIdeal.Hand

end
-- ==== Proof.KI.Blocks.lean ====
/-
  The two input blocks the region reads at a point, element by element: the block at point t of the flattened
  table [8192,5120] is its rows 512·t … 512·t + 511, all 5120 columns; the block at point t of the label column
  [8192,1] is the same rows of that column.  (A block's coordinate in its array is, on each axis, the block index
  times the block's size plus the coordinate inside the block; the two block indices at point t are (t, 0).)
-/
import proofs.«411193_j75273596830476_3_alg».proof.Proof.KI.Kit
import proofs.«411193_j75273596830476_3_alg».proof.Proof.KI.ArrSpec
import Idealize.ShloMosaic.Lib.ValueIdx

set_option maxRecDepth 16384

noncomputable section

namespace Cert.KernelIdeal.Hand

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ)

/-- The grid has sixteen points. -/
theorem cfg0_N : cfg0.N = 16 := N_0

/-- The table's block index at point t is (t, 0): decided over the grid. -/
theorem index0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The label column's block index at point t is (t, 0) too. -/
theorem index0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Row r of block t is a row of the array: 512·t + r < 8192. -/
theorem row_lt (t : Fin cfg0.N) (r : Fin 512) : t.val * 512 + r.val < 8192 := by
  have ht : t.val < 16 := cfg0_N ▸ t.isLt
  have hr := r.isLt
  omega

/-- The array row that row r of block t is. -/
abbrev rowAt (t : Fin cfg0.N) (r : Fin 512) : Fin 8192 := ⟨t.val * 512 + r.val, row_lt t r⟩

/-- At the point numbered c·8 + s it is row r of the block core c meets at its step s. -/
theorem rowAt_eq (t : Fin cfg0.N) (c : Fin 2) (s : Fin 8) (h : t.val = c.val * 8 + s.val) (r : Fin 512) :
    rowAt t r = rowOf c s r := by
  apply Fin.ext
  show t.val * 512 + r.val = (c.val * 8 + s.val) * 512 + r.val
  rw [h]

/-- The table's block at point t, at row r and column j, is the table at row 512·t + r and column j. -/
theorem iblk0_at (c : Dev nD) (t : Fin cfg0.N) (r : Fin 512) (j : Fin 5120) :
    (iblk m c 0 t : S512x5120.Idx → Elt F .f32) (ix2 r j)
      = (V m c main_v0 : S8192x5120.Idx → Elt F .f32) (ix2 (rowAt t r) j) := by
  obtain ⟨e0, e1⟩ := index0_0 t
  show (V m c main_v0 : S8192x5120.Idx → Elt F .f32) (((cfg0.win 0).blk t).view.emb (ix2 r j)) = _
  refine congrArg _ ?_
  funext a; apply Fin.ext
  match a with
  | ⟨0, _⟩ => show win0_0.index t (0 : Fin 2) * 512 + 1 * r.val = t.val * 512 + r.val; rw [e0]; omega
  | ⟨1, _⟩ => show win0_0.index t (1 : Fin 2) * 5120 + 1 * j.val = j.val; rw [e1]; omega

/-- The label column's block at point t, at row r, is the column at row 512·t + r. -/
theorem iblk1_at (c : Dev nD) (t : Fin cfg0.N) (r : Fin 512) :
    (iblk m c 1 t : S512x1.Idx → Elt F .i32) (ix2 r (0 : Fin 1))
      = (V m c main_v1 : S8192x1.Idx → Elt F .i32) (ix2 (rowAt t r) (0 : Fin 1)) := by
  obtain ⟨e0, e1⟩ := index0_1 t
  show (V m c main_v1 : S8192x1.Idx → Elt F .i32) (((cfg0.win 1).blk t).view.emb (ix2 r (0 : Fin 1))) = _
  refine congrArg _ ?_
  funext a; apply Fin.ext
  match a with
  | ⟨0, _⟩ => show win0_1.index t (0 : Fin 2) * 512 + 1 * r.val = t.val * 512 + r.val; rw [e0]; omega
  | ⟨1, _⟩ => show win0_1.index t (1 : Fin 2) * 1 + 1 * (0 : Fin 1).val = (0 : Fin 1).val; rw [e1]; rfl

/-- The same for a block named by a variable: what a rewrite at a point uses. -/
theorem iblk0_apply (c : Dev nD) (t : Fin cfg0.N) (x : Vec F S512x5120 .f32) (hx : x = iblk m c 0 t)
    (r : Fin 512) (j : Fin 5120) :
    x (ix2 r j) = (V m c main_v0 : S8192x5120.Idx → Elt F .f32) (ix2 (rowAt t r) j) := by
  subst hx; exact iblk0_at m c t r j

theorem iblk1_apply (c : Dev nD) (t : Fin cfg0.N) (x : Vec F S512x1 .i32) (hx : x = iblk m c 1 t) (r : Fin 512) :
    x (ix2 r (0 : Fin 1)) = (V m c main_v1 : S8192x1.Idx → Elt F .i32) (ix2 (rowAt t r) (0 : Fin 1)) := by
  subst hx; exact iblk1_at m c t r

end Cert.KernelIdeal.Hand

end
-- ==== Proof.KI.RunSum.lean ====
/-
  A quantity indexed by the points of a grid of sixteen that restarts at the multiples of eight and adds one term at every
  other point is, at the last point of a run of eight, the sum of the run's eight terms.
-/
import Mathlib.Data.EReal.Basic
import Mathlib.Algebra.BigOperators.Fin

noncomputable section

namespace Cert.KernelIdeal.Hand

/-- The value at a point does not depend on how the point's number is written. -/
theorem at_congr {N : ℕ} (A : (n : ℕ) → n < N → EReal) (a b : ℕ) (ha : a < N) (hb : b < N) (h : a = b) :
    A a ha = A b hb := by
  subst h; rfl

/-- Inside a run of eight: after the point at position s the value is the sum of the terms at positions 0 … s. -/
theorem run_partial {N : ℕ} (A : (n : ℕ) → n < N → EReal) (f : Fin N → EReal)
    (hA : ∀ t : Fin N, t.val % 8 = 0 → A t.val t.isLt = f t)
    (hB : ∀ t : Fin N, ¬ t.val % 8 = 0 →
      A t.val t.isLt = A (t.val - 1) (Nat.lt_of_le_of_lt (Nat.sub_le _ _) t.isLt) + f t)
    (g : ℕ) : ∀ (s : ℕ) (hs : s < 8) (h : g * 8 + s < N),
      A (g * 8 + s) h = ∑ s' ∈ Finset.range (s + 1), (if h' : g * 8 + s' < N then f ⟨g * 8 + s', h'⟩ else 0)
  | 0, _, h => by
    rw [Finset.sum_range_one, dif_pos h]
    exact hA ⟨g * 8 + 0, h⟩ (by show (g * 8 + 0) % 8 = 0; omega)
  | s + 1, hs, h => by
    have h' : g * 8 + s < N := by omega
    rw [Finset.sum_range_succ, dif_pos h, ← run_partial A f hA hB g s (by omega) h']
    refine (hB ⟨g * 8 + (s + 1), h⟩ (by show ¬(g * 8 + (s + 1)) % 8 = 0; omega)).trans ?_
    exact congrArg (· + f ⟨g * 8 + (s + 1), h⟩) (at_congr A _ _ _ h' (by show g * 8 + (s + 1) - 1 = g * 8 + s; omega))

/-- At the run's last point: the sum of the run's eight terms. -/
theorem run_sum {N : ℕ} (A : (n : ℕ) → n < N → EReal) (f : Fin N → EReal)
    (hA : ∀ t : Fin N, t.val % 8 = 0 → A t.val t.isLt = f t)
    (hB : ∀ t : Fin N, ¬ t.val % 8 = 0 →
      A t.val t.isLt = A (t.val - 1) (Nat.lt_of_le_of_lt (Nat.sub_le _ _) t.isLt) + f t)
    (g : ℕ) (hg : g * 8 + 7 < N) :
    A (g * 8 + 7) hg = ∑ s : Fin 8, f ⟨g * 8 + s.val, by have := s.isLt; omega⟩ := by
  rw [run_partial A f hA hB g 7 (by omega) hg, Finset.sum_range]
  refine Finset.sum_congr rfl fun s _ => ?_
  rw [dif_pos (by have := s.isLt; omega)]

end Cert.KernelIdeal.Hand

end
-- ==== Proof.KI.Accum.lean ====
/-
  The accumulation over the grid points, over the extended reals. Along a row of the grid (eight points) the three
  result blocks restart at the row's first point and gain one contribution per point; a point's contribution is read off
  its two input blocks, which are rows t·512 … t·512+511 of the table and of the label column. So at the row's last
  point, where the blocks are written back, they hold the sums over the row's eight points: the per-core results of the
  specification.
-/
import proofs.«411193_j75273596830476_3_alg».proof.Proof.KI.Frame
import proofs.«411193_j75273596830476_3_alg».proof.Proof.KI.PieceVals
import proofs.«411193_j75273596830476_3_alg».proof.Proof.KI.Blocks
import proofs.«411193_j75273596830476_3_alg».proof.Proof.KI.RunSum

set_option maxRecDepth 16384

noncomputable section

namespace Cert.KernelIdeal.Hand

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

/-- The table and the label column the region reads. -/
abbrev zArr (c : Dev nD) : S8192x5120.Idx → EReal := V (F := Ideal) m c main_v0
abbrev lArr (c : Dev nD) : IVec S8192x1 32 := V (F := Ideal) m c main_v1
/-- A point's two input blocks. -/
abbrev xblk (c : Dev nD) (t : Fin cfg0.N) : Vec Ideal S512x5120 .f32 := iblk (F := Ideal) m c 0 t
abbrev lblk (c : Dev nD) (t : Fin cfg0.N) : Vec Ideal S512x1 .i32 := iblk (F := Ideal) m c 1 t

/-! ## One point's contributions, over the arrays -/

def term2 (c : Dev nD) (t : Fin cfg0.N) (k : Fin 10) (j : Fin 5120) : EReal :=
  ∑ r : Fin 512, oh (lArr m c (ix2 (rowAt t r) (0 : Fin 1))) k * nn (zArr m c (ix2 (rowAt t r) j))
def term3 (c : Dev nD) (t : Fin cfg0.N) (k : Fin 10) : EReal :=
  ∑ r : Fin 512, oh (lArr m c (ix2 (rowAt t r) (0 : Fin 1))) k
    * ∑ j : Fin 5120, (nn (zArr m c (ix2 (rowAt t r) j)) + eps) * (nn (zArr m c (ix2 (rowAt t r) j)) + eps)
def term4 (c : Dev nD) (t : Fin cfg0.N) (k : Fin 10) : EReal :=
  ∑ r : Fin 512, oh (lArr m c (ix2 (rowAt t r) (0 : Fin 1))) k * 1

theorem lblk_at (c : Dev nD) (t : Fin cfg0.N) (r : Fin 512) :
    lblk m c t (ix2 r (0 : Fin 1)) = lArr m c (ix2 (rowAt t r) (0 : Fin 1)) := iblk1_at (F := Ideal) m c t r
theorem xblk_at (c : Dev nD) (t : Fin cfg0.N) (r : Fin 512) (j : Fin 5120) :
    xblk m c t (ix2 r j) = zArr m c (ix2 (rowAt t r) j) := iblk0_at (F := Ideal) m c t r j

theorem contrib2 (c : Dev nD) (t : Fin cfg0.N) (k : Fin 10) (j : Fin 5120) :
    ∑ r : Fin 512, oh (lblk m c t (ix2 r (0 : Fin 1))) k * nn (xblk m c t (ix2 r j)) = term2 m c t k j := by
  unfold term2
  refine Finset.sum_congr rfl fun r _ => ?_
  rw [lblk_at, xblk_at]

theorem contrib3 (c : Dev nD) (t : Fin cfg0.N) (k : Fin 10) :
    ∑ r : Fin 512, oh (lblk m c t (ix2 r (0 : Fin 1))) k * rowSq (xblk m c t) r = term3 m c t k := by
  unfold term3 rowSq
  refine Finset.sum_congr rfl fun r _ => ?_
  rw [lblk_at]
  refine congrArg (oh (lArr m c (ix2 (rowAt t r) (0 : Fin 1))) k * ·) ?_
  refine Finset.sum_congr rfl fun j _ => ?_
  rw [xblk_at]

theorem contrib4 (c : Dev nD) (t : Fin cfg0.N) (k : Fin 10) :
    ∑ r : Fin 512, oh (lblk m c t (ix2 r (0 : Fin 1))) k * 1 = term4 m c t k := by
  unfold term4
  refine Finset.sum_congr rfl fun r _ => ?_
  rw [lblk_at]

/-! ## The blocks after a point -/

theorem at_first2 (c : Dev nD) (t : Fin cfg0.N) (h0 : t.val % 8 = 0) (k : Fin 10) (j : Fin 5120) :
    (outsAt0 (F := Ideal) m c t.val t.isLt).1 (ix3 (0 : Fin 1) k j) = term2 m c t k j := by
  rw [outsAt0_A m c t h0]
  dsimp only
  unfold out0_A_2
  rw [View.read_writes_junk_eq_canon]
  exact (canonA2_apply c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (xblk m c t) (lblk m c t) k j).trans (contrib2 m c t k j)

theorem at_first3 (c : Dev nD) (t : Fin cfg0.N) (h0 : t.val % 8 = 0) (k : Fin 10) :
    (outsAt0 (F := Ideal) m c t.val t.isLt).2.1 (ix3 (0 : Fin 1) k (0 : Fin 1)) = term3 m c t k := by
  rw [outsAt0_A m c t h0]
  dsimp only
  unfold out0_A_3
  rw [View.read_writes_junk_eq_canon]
  exact (canonA3_apply c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (xblk m c t) (lblk m c t) k).trans (contrib3 m c t k)

theorem at_first4 (c : Dev nD) (t : Fin cfg0.N) (h0 : t.val % 8 = 0) (k : Fin 10) :
    (outsAt0 (F := Ideal) m c t.val t.isLt).2.2 (ix3 (0 : Fin 1) k (0 : Fin 1)) = term4 m c t k := by
  rw [outsAt0_A m c t h0]
  dsimp only
  unfold out0_A_4
  rw [View.read_writes_junk_eq_canon]
  exact (canonA4_apply c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (xblk m c t) (lblk m c t) k).trans (contrib4 m c t k)

theorem at_next2 (c : Dev nD) (t : Fin cfg0.N) (h0 : ¬t.val % 8 = 0) (k : Fin 10) (j : Fin 5120) :
    (outsAt0 (F := Ideal) m c t.val t.isLt).1 (ix3 (0 : Fin 1) k j)
      = (outsAt0 (F := Ideal) m c (t.val - 1) (Nat.lt_of_le_of_lt (Nat.sub_le _ _) t.isLt)).1 (ix3 (0 : Fin 1) k j) + term2 m c t k j := by
  rw [outsAt0_B m c t h0]
  dsimp only
  unfold out0_B_2
  rw [View.read_writes_junk_eq_canon]
  exact (canonB2_apply c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (xblk m c t) (lblk m c t)
    (outsAt0 (F := Ideal) m c (t.val - 1) (Nat.lt_of_le_of_lt (Nat.sub_le _ _) t.isLt)).1 (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2 k j).trans
    (congrArg ((outsAt0 (F := Ideal) m c (t.val - 1) (Nat.lt_of_le_of_lt (Nat.sub_le _ _) t.isLt)).1 (ix3 (0 : Fin 1) k j) + ·) (contrib2 m c t k j))

theorem at_next3 (c : Dev nD) (t : Fin cfg0.N) (h0 : ¬t.val % 8 = 0) (k : Fin 10) :
    (outsAt0 (F := Ideal) m c t.val t.isLt).2.1 (ix3 (0 : Fin 1) k (0 : Fin 1))
      = (outsAt0 (F := Ideal) m c (t.val - 1) (Nat.lt_of_le_of_lt (Nat.sub_le _ _) t.isLt)).2.1 (ix3 (0 : Fin 1) k (0 : Fin 1)) + term3 m c t k := by
  rw [outsAt0_B m c t h0]
  dsimp only
  unfold out0_B_3
  rw [View.read_writes_junk_eq_canon]
  exact (canonB3_apply c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (xblk m c t) (lblk m c t)
    (outsAt0 (F := Ideal) m c (t.val - 1) (Nat.lt_of_le_of_lt (Nat.sub_le _ _) t.isLt)).1 (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2 k).trans
    (congrArg ((outsAt0 (F := Ideal) m c (t.val - 1) (Nat.lt_of_le_of_lt (Nat.sub_le _ _) t.isLt)).2.1 (ix3 (0 : Fin 1) k (0 : Fin 1)) + ·) (contrib3 m c t k))

theorem at_next4 (c : Dev nD) (t : Fin cfg0.N) (h0 : ¬t.val % 8 = 0) (k : Fin 10) :
    (outsAt0 (F := Ideal) m c t.val t.isLt).2.2 (ix3 (0 : Fin 1) k (0 : Fin 1))
      = (outsAt0 (F := Ideal) m c (t.val - 1) (Nat.lt_of_le_of_lt (Nat.sub_le _ _) t.isLt)).2.2 (ix3 (0 : Fin 1) k (0 : Fin 1)) + term4 m c t k := by
  rw [outsAt0_B m c t h0]
  dsimp only
  unfold out0_B_4
  rw [View.read_writes_junk_eq_canon]
  exact (canonB4_apply c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (xblk m c t) (lblk m c t)
    (outsAt0 (F := Ideal) m c (t.val - 1) (Nat.lt_of_le_of_lt (Nat.sub_le _ _) t.isLt)).1 (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2 k).trans
    (congrArg ((outsAt0 (F := Ideal) m c (t.val - 1) (Nat.lt_of_le_of_lt (Nat.sub_le _ _) t.isLt)).2.2 (ix3 (0 : Fin 1) k (0 : Fin 1)) + ·) (contrib4 m c t k))

/-! ## At a row's last point: the specification's per-core sums -/

theorem core_lt (t : Fin cfg0.N) : t.val / 8 < 2 := by
  have := t.isLt; have : cfg0.N = 16 := Gen.N_0; omega

theorem flushed2 (c : Dev nD) (t : Fin cfg0.N) (ht : t.val % 8 = 7) (k : Fin 10) (j : Fin 5120) :
    (outsAt0 (F := Ideal) m c t.val t.isLt).1 (ix3 (0 : Fin 1) k j)
      = sumsOut (V m c main_v0) (V m c main_v1)
          (ix3 (⟨t.val / 8, by have := t.isLt; have : cfg0.N = 16 := Gen.N_0; omega⟩ : Fin 2) k j) := by
  have hN : cfg0.N = 16 := Gen.N_0
  have e : t.val = t.val / 8 * 8 + 7 := by omega
  have hg : t.val / 8 * 8 + 7 < cfg0.N := by have := t.isLt; omega
  refine (at_congr (fun n hn => (outsAt0 (F := Ideal) m c n hn).1 (ix3 (0 : Fin 1) k j)) _ _ t.isLt hg e).trans ?_
  refine (run_sum (fun n hn => (outsAt0 (F := Ideal) m c n hn).1 (ix3 (0 : Fin 1) k j)) (fun t => term2 m c t k j)
    (fun t h0 => at_first2 m c t h0 k j) (fun t h0 => at_next2 m c t h0 k j) (t.val / 8) hg).trans ?_
  refine Finset.sum_congr rfl fun s _ => Finset.sum_congr rfl fun r _ => ?_
  show oh (lArr m c (ix2 (rowAt ⟨t.val / 8 * 8 + s.val, _⟩ r) (0 : Fin 1))) k * nn (zArr m c (ix2 (rowAt ⟨t.val / 8 * 8 + s.val, _⟩ r) j))
    = oh (lArr m c (ix2 (rowOf ⟨t.val / 8, _⟩ s r) (0 : Fin 1))) k * nn (zArr m c (ix2 (rowOf ⟨t.val / 8, _⟩ s r) j))
  rw [rowAt_eq _ ⟨t.val / 8, core_lt t⟩ s rfl r]

theorem flushed3 (c : Dev nD) (t : Fin cfg0.N) (ht : t.val % 8 = 7) (k : Fin 10) :
    (outsAt0 (F := Ideal) m c t.val t.isLt).2.1 (ix3 (0 : Fin 1) k (0 : Fin 1))
      = sqOut (V m c main_v0) (V m c main_v1)
          (ix3 (⟨t.val / 8, by have := t.isLt; have : cfg0.N = 16 := Gen.N_0; omega⟩ : Fin 2) k (0 : Fin 1)) := by
  have hN : cfg0.N = 16 := Gen.N_0
  have e : t.val = t.val / 8 * 8 + 7 := by omega
  have hg : t.val / 8 * 8 + 7 < cfg0.N := by have := t.isLt; omega
  refine (at_congr (fun n hn => (outsAt0 (F := Ideal) m c n hn).2.1 (ix3 (0 : Fin 1) k (0 : Fin 1))) _ _ t.isLt hg e).trans ?_
  refine (run_sum (fun n hn => (outsAt0 (F := Ideal) m c n hn).2.1 (ix3 (0 : Fin 1) k (0 : Fin 1))) (fun t => term3 m c t k)
    (fun t h0 => at_first3 m c t h0 k) (fun t h0 => at_next3 m c t h0 k) (t.val / 8) hg).trans ?_
  refine Finset.sum_congr rfl fun s _ => Finset.sum_congr rfl fun r _ => ?_
  show oh (lArr m c (ix2 (rowAt ⟨t.val / 8 * 8 + s.val, _⟩ r) (0 : Fin 1))) k
      * ∑ j : Fin 5120, (nn (zArr m c (ix2 (rowAt ⟨t.val / 8 * 8 + s.val, _⟩ r) j)) + eps) * (nn (zArr m c (ix2 (rowAt ⟨t.val / 8 * 8 + s.val, _⟩ r) j)) + eps)
    = oh (lArr m c (ix2 (rowOf ⟨t.val / 8, _⟩ s r) (0 : Fin 1))) k
      * ∑ j : Fin 5120, (nn (zArr m c (ix2 (rowOf ⟨t.val / 8, _⟩ s r) j)) + eps) * (nn (zArr m c (ix2 (rowOf ⟨t.val / 8, _⟩ s r) j)) + eps)
  rw [rowAt_eq _ ⟨t.val / 8, core_lt t⟩ s rfl r]

theorem flushed4 (c : Dev nD) (t : Fin cfg0.N) (ht : t.val % 8 = 7) (k : Fin 10) :
    (outsAt0 (F := Ideal) m c t.val t.isLt).2.2 (ix3 (0 : Fin 1) k (0 : Fin 1))
      = cntOut (V m c main_v1)
          (ix3 (⟨t.val / 8, by have := t.isLt; have : cfg0.N = 16 := Gen.N_0; omega⟩ : Fin 2) k (0 : Fin 1)) := by
  have hN : cfg0.N = 16 := Gen.N_0
  have e : t.val = t.val / 8 * 8 + 7 := by omega
  have hg : t.val / 8 * 8 + 7 < cfg0.N := by have := t.isLt; omega
  refine (at_congr (fun n hn => (outsAt0 (F := Ideal) m c n hn).2.2 (ix3 (0 : Fin 1) k (0 : Fin 1))) _ _ t.isLt hg e).trans ?_
  refine (run_sum (fun n hn => (outsAt0 (F := Ideal) m c n hn).2.2 (ix3 (0 : Fin 1) k (0 : Fin 1))) (fun t => term4 m c t k)
    (fun t h0 => at_first4 m c t h0 k) (fun t h0 => at_next4 m c t h0 k) (t.val / 8) hg).trans ?_
  refine Finset.sum_congr rfl fun s _ => Finset.sum_congr rfl fun r _ => ?_
  show oh (lArr m c (ix2 (rowAt ⟨t.val / 8 * 8 + s.val, _⟩ r) (0 : Fin 1))) k * 1
    = oh (lArr m c (ix2 (rowOf ⟨t.val / 8, _⟩ s r) (0 : Fin 1))) k * 1
  rw [rowAt_eq _ ⟨t.val / 8, core_lt t⟩ s rfl r]

end Cert.KernelIdeal.Hand

end
-- ==== Proof.SpecConsts.lean ====
/-
  The two things both programs' value readings share with the loss over the reals: the shift ε as a real number, and
  the test "this label word is class k".
-/
import Idealize.ShloMosaic.PureOps.Ideal
import Idealize.ShloMosaic.PureOps.Ideal.Laws

noncomputable section

namespace Cert.Spec

open Idealize.ShloMosaic

/-- The shift ε as a real: the value of the f32 word 0x322BCC77, the f32 nearest to 1e-8. -/
def epsR : ℝ := (Ideal.ofBits .f32 0x322BCC77#32).toReal

/-- That word denotes a real (a normal number), so it is the coercion of its real value. -/
theorem eps_coe : Ideal.ofBits .f32 0x322BCC77#32 = ((epsR : ℝ) : EReal) := by
  unfold epsR
  have h1 : Ideal.ofBits .f32 0x322BCC77#32 ≠ ⊤ := by
    simp [Ideal.ofBits, Ideal.ieee, -EReal.coe_mul]
  have h2 : Ideal.ofBits .f32 0x322BCC77#32 ≠ ⊥ := by
    simp [Ideal.ofBits, Ideal.ieee, -EReal.coe_mul]
  exact (EReal.coe_toReal h1 h2).symm

/-- The label word `w` names class `k`. -/
def isLab (w : BitVec 32) (k : Fin 10) : Prop := w = BitVec.ofNat 32 k.val

instance (w : BitVec 32) (k : Fin 10) : Decidable (isLab w k) := by unfold isLab; infer_instance

/-- A label word names class k exactly when, read as a signed integer, it is k (k < 10). -/
theorem isLab_iff_toInt (w : BitVec 32) (k : Fin 10) : isLab w k ↔ w.toInt = (k.val : Int) := by
  unfold isLab
  have hk : k.val < 10 := k.isLt
  constructor
  · rintro rfl
    rw [BitVec.toInt_ofNat']
    simp only [Int.bmod]
    omega
  · intro h
    apply BitVec.eq_of_toInt_eq
    rw [h, BitVec.toInt_ofNat']
    simp only [Int.bmod]
    omega

end Cert.Spec

end
-- ==== Proof.KI.RealKit.lean ====
/-
  The small facts the value of the host tail over the reals rests on: an extended real that is a real is kept by the
  replacement of non-finite values, sums and products of reals stay reals, the one-hot entry is the real indicator of
  "this label is class k", the rows (core, step, row-in-block) number all 8192 rows once, the bit patterns of the
  program's constants as reals, the quotient and the maximum of reals, and the replacement chain on one element.
-/
import proofs.«411193_j75273596830476_3_alg».proof.Proof.KI.TailVal
import proofs.«411193_j75273596830476_3_alg».proof.Proof.KI.ArrSpec
import proofs.«411193_j75273596830476_3_alg».proof.Proof.SpecConsts
import Idealize.ShloMosaic.PureOps.Ideal.Laws
import Idealize.ShloMosaic.Lib.IdealHost
import Mathlib.Algebra.BigOperators.Fin
import Mathlib.Logic.Equiv.Fin.Basic
import Mathlib.Tactic.FieldSimp
import Mathlib.Tactic.NormNum

noncomputable section

namespace Cert.KernelIdeal.Hand

open Idealize.ShloMosaic Idealize.ShloMosaic.ValueIdx Cert.KernelIdeal

/-! ## Reals inside the extended reals -/

/-- A real is neither infinity, so the replacement of the infinities keeps it. -/
theorem nn_coe (r : ℝ) : nn (r : EReal) = r := by
  unfold nn
  rw [if_neg (EReal.coe_ne_top r), if_neg (EReal.coe_ne_bot r)]

/-- A finite sum of reals, coerced, is the sum of the coerced terms. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The maximum of two reals, coerced: the coercion is monotone. -/
theorem coe_max (a b : ℝ) : max (a : EReal) (b : EReal) = ((max a b : ℝ) : EReal) :=
  (EReal.coe_strictMono.monotone.map_max).symm

/-- The quotient of a real by a real that is not zero is the real quotient. -/
theorem div_coe_coe (a : ℝ) {y : ℝ} (hy : y ≠ 0) : Ideal.div (a : EReal) (y : EReal) = ((a / y : ℝ) : EReal) := by
  rw [Ideal.div_coe hy, ← EReal.coe_mul, mul_one_div]

/-- The one-hot entry is the real indicator of "the label word names class k". -/
theorem oh_coe (w : BitVec 32) (k : Fin 10) : oh w k = (((if Cert.Spec.isLab w k then (1 : ℝ) else 0) : ℝ) : EReal) := by
  by_cases h : Cert.Spec.isLab w k
  · rw [if_pos h]; unfold oh; rw [if_pos (show w = BitVec.ofNat 32 k.val from h)]; simp
  · rw [if_neg h]; unfold oh; rw [if_neg (show ¬ w = BitVec.ofNat 32 k.val from h)]; simp

/-! ## The rows, numbered by core, step and row in the block -/

/-- (core, step, row in block) ↦ row is a bijection onto the 8192 rows: the row number written in the mixed base
    2 · 8 · 512. -/
def rowEquiv : Fin 2 × Fin 8 × Fin 512 ≃ Fin 8192 where
  toFun p := rowOf p.1 p.2.1 p.2.2
  invFun i := (⟨i.val / 4096, by have := i.isLt; omega⟩, ⟨i.val / 512 % 8, by omega⟩, ⟨i.val % 512, by omega⟩)
  left_inv p := by
    obtain ⟨c, s, r⟩ := p
    have := c.isLt; have := s.isLt; have := r.isLt
    simp only [rowOf]
    refine Prod.ext (Fin.ext ?_) (Prod.ext (Fin.ext ?_) (Fin.ext ?_))
    · show ((c.val * 8 + s.val) * 512 + r.val) / 4096 = c.val; omega
    · show ((c.val * 8 + s.val) * 512 + r.val) / 512 % 8 = s.val; omega
    · show ((c.val * 8 + s.val) * 512 + r.val) % 512 = r.val; omega
  right_inv i := by
    have := i.isLt
    refine Fin.ext ?_
    show (i.val / 4096 * 8 + i.val / 512 % 8) * 512 + i.val % 512 = i.val
    omega

/-- So the sum over the cores, the steps and the rows of a block is the sum over all rows. -/
theorem sum_rows {M : Type} [AddCommMonoid M] (f : Fin 8192 → M) :
    ∑ c : Fin 2, ∑ s : Fin 8, ∑ r : Fin 512, f (rowOf c s r) = ∑ i : Fin 8192, f i := by
  rw [← Equiv.sum_comp rowEquiv f]
  simp only [Fintype.sum_prod_type]
  rfl

/-! ## The program's constants -/

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]
theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_5120 : Ideal.ofBits .f32 0x45A00000#32 = ((5120 : ℝ) : EReal) := by
  simp [Ideal.ofBits, Ideal.ieee, -EReal.coe_mul]; norm_num
theorem ofBits_zero : Ideal.ofBits .f32 0x00000000#32 = ((0 : ℝ) : EReal) := by
  rw [Ideal.ofBits_zero_f32, EReal.coe_zero]

/-! ## The replacement of non-finite values on one element -/

/-- The replacement chain on one extended real: unordered with itself → 0; then +∞ → the largest finite value; then
    −∞ → the smallest. -/
def nanS (x : EReal) : EReal :=
  let v1 : EReal := Scalar.select (Ideal.cmp .une x x) (Ideal.ofBits .f32 0x00000000#32) x
  let v4 : EReal := Scalar.select (Ideal.cmp .oeq v1 (Ideal.ofBits .f32 0x7F800000#32)) (Ideal.ofBits .f32 0x7F7FFFFF#32) v1
  Scalar.select (Ideal.cmp .oeq v4 (Ideal.ofBits .f32 0xFF800000#32)) (Ideal.ofBits .f32 0xFF7FFFFF#32) v4

/-- A real is equal to itself and to neither infinity: the chain keeps it. -/
theorem nanS_coe (r : ℝ) : nanS (r : EReal) = r := by
  have hne : Ideal.cmp .une (r : EReal) r = 0#1 := by simp [Ideal.cmp]
  have htop : Ideal.cmp .oeq (r : EReal) ⊤ = 0#1 := by simp [Ideal.cmp]
  have hbot : Ideal.cmp .oeq (r : EReal) ⊥ = 0#1 := by simp [Ideal.cmp]
  unfold nanS
  simp only [ofBits_top, ofBits_bot]
  rw [hne, select_zero, htop, select_zero, hbot, select_zero]

variable [Facts]

/-- On a [10,5120] tensor the replacement acts element by element. -/
theorem nanM_apply (x : FVec Ideal S10x5120 .f32) (i : S10x5120.Idx) : nanM (F := Ideal) x i = nanS (x i) := rfl

/-- On a [10] tensor likewise. -/
theorem nanV_apply (x : FVec Ideal S10 .f32) (i : S10.Idx) : nanV (F := Ideal) x i = nanS (x i) := rfl

end Cert.KernelIdeal.Hand

end
-- ==== Proof.Spec.lean ====
/-
  The loss both programs compute, over the reals, for rows indexed by a finite type, columns by a finite type and
  classes by a finite type, and the law that joins the two ways of computing a class's sum of squared errors.

  A row i belongs to class k when `sel i k` holds. For a class: `cnt` is its number of rows, `colSum` its
  column sums, `sqSum` the sum over its rows of the squared length of the row shifted by ε, `mean` its column sums
  divided by max(cnt, 1). The sum of squared errors of the shifted rows against the class mean is, written out row
  by row, `sseDirect`; expanded in the first and second moments it is `sseMoments`:
    Σ_i Σ_j ((x_ij + ε) − μ_j)²  =  Σ_i Σ_j (x_ij + ε)²  −  2 Σ_j μ_j (Σ_i x_ij)  −  2 n ε Σ_j μ_j  +  n Σ_j μ_j²,
  the sums over i running over the class's rows, n their number. The identity is the binomial expansion summed; it
  holds for any vector μ, the mean or not. The loss is the sum over the classes that have a row of the class's sum of
  squared errors divided by max(cnt, 1) · D.
-/
import Mathlib.Algebra.BigOperators.Ring.Finset
import Mathlib.Algebra.BigOperators.Field
import Mathlib.Algebra.Order.BigOperators.Ring.Finset
import Mathlib.Data.Real.Basic
import Mathlib.Tactic.Ring
import Mathlib.Tactic.FieldSimp

noncomputable section

namespace Cert.Spec

open Finset

variable {I J K : Type} [Fintype I] [Fintype J] [Fintype K]
variable (sel : I → K → Prop) [∀ i k, Decidable (sel i k)] (x : I → J → ℝ) (e D : ℝ)

/-- The number of rows of class k. -/
def cnt (k : K) : ℝ := ∑ i, if sel i k then (1 : ℝ) else 0
/-- The column sums of class k's rows. -/
def colSum (k : K) (j : J) : ℝ := ∑ i, if sel i k then x i j else 0
/-- The sum over class k's rows of the squared length of the row shifted by ε. -/
def sqSum (k : K) : ℝ := ∑ i, if sel i k then ∑ j, (x i j + e) * (x i j + e) else 0
/-- The class mean, with the count floored at one. -/
def mean (k : K) (j : J) : ℝ := colSum sel x k j / max (cnt sel k) 1

/-- The sum of squared errors against a vector μ from the moments. -/
def sseMomentsOf (μ : J → ℝ) (k : K) : ℝ :=
  sqSum sel x e k - 2 * ∑ j, μ j * colSum sel x k j - 2 * cnt sel k * e * ∑ j, μ j + cnt sel k * ∑ j, μ j * μ j
/-- The sum of squared errors against a vector μ row by row. -/
def sseDirectOf (μ : J → ℝ) (k : K) : ℝ :=
  ∑ i, if sel i k then ∑ j, ((x i j + e) - μ j) * ((x i j + e) - μ j) else 0

/-- The two at the class mean. -/
def sseMoments (k : K) : ℝ := sseMomentsOf sel x e (mean sel x k) k
def sseDirect (k : K) : ℝ := sseDirectOf sel x e (mean sel x k) k

/-- The loss from the classes' sums of squared errors. -/
def loss (sse : K → ℝ) : ℝ := ∑ k, if 0 < cnt sel k then sse k / (max (cnt sel k) 1 * D) else 0

/-- The binomial expansion, summed over the class's rows and the columns. -/
theorem sseMomentsOf_eq_sseDirectOf (μ : J → ℝ) (k : K) : sseMomentsOf sel x e μ k = sseDirectOf sel x e μ k := by
  unfold sseMomentsOf sseDirectOf sqSum colSum cnt
  have h1 : ∀ i, (if sel i k then ∑ j, ((x i j + e) - μ j) * ((x i j + e) - μ j) else 0)
      = (if sel i k then ∑ j, (x i j + e) * (x i j + e) else 0)
        - 2 * ∑ j, μ j * (if sel i k then x i j else 0)
        - 2 * (if sel i k then (1 : ℝ) else 0) * e * ∑ j, μ j
        + (if sel i k then (1 : ℝ) else 0) * ∑ j, μ j * μ j := by
    intro i
    by_cases h : sel i k
    · simp only [h, if_true]
      rw [Finset.mul_sum, Finset.mul_sum, Finset.mul_sum, ← Finset.sum_sub_distrib, ← Finset.sum_sub_distrib,
        ← Finset.sum_add_distrib]
      refine Finset.sum_congr rfl fun j _ => ?_
      ring
    · simp [h]
  rw [Finset.sum_congr rfl fun i _ => h1 i]
  rw [Finset.sum_add_distrib, Finset.sum_sub_distrib, Finset.sum_sub_distrib]
  congr 1
  · congr 1
    · congr 1
      rw [← Finset.mul_sum, Finset.sum_comm]
      congr 1
      refine Finset.sum_congr rfl fun j _ => ?_
      rw [Finset.mul_sum]
    · rw [← Finset.sum_mul, ← Finset.sum_mul, ← Finset.mul_sum]
  · rw [← Finset.sum_mul]

theorem sseMoments_eq_sseDirect (k : K) : sseMoments sel x e k = sseDirect sel x e k :=
  sseMomentsOf_eq_sseDirectOf sel x e _ k

theorem loss_moments_eq_direct : loss sel D (sseMoments sel x e) = loss sel D (sseDirect sel x e) := by
  unfold loss
  refine Finset.sum_congr rfl fun k _ => ?_
  rw [sseMoments_eq_sseDirect]

end Cert.Spec

end
-- ==== Proof.KI.TailSums.lean ====
/-
  The two cores' partial results added on the host, as reals: the per-label column sums, sums of squared lengths and
  counts of the whole table. Each host sum over the core axis reads as the sum of the two cores' entries; a core's
  entry is a sum over its eight steps and the 512 rows of a step's block; and (core, step, row) numbers every row of
  the table once, so the three nested sums are one sum over the rows.
-/
import proofs.«411193_j75273596830476_3_alg».proof.Proof.KI.RealKit
import proofs.«411193_j75273596830476_3_alg».proof.Proof.Spec
import Idealize.ShloMosaic.Lib.Pipeline.Value

noncomputable section

namespace Cert.KernelIdeal.Hand

open Idealize.ShloMosaic Idealize.ShloMosaic.ValueIdx Cert.KernelIdeal
open Cert.KernelIdeal Facts₀ Facts

variable [Facts]

/-- The class test the label column defines: row i is of class k when its label word names k. -/
abbrev selOf (l2 : IVec S8192x1 32) : Fin 8192 → Fin 10 → Prop :=
  fun i k => Cert.Spec.isLab (l2 (ix2 i (0 : Fin 1))) k

/-! ## The host sums over the core axis, read at an index -/

/-- The per-label sums at (k, j): the two cores' entries added. -/
theorem tSums_at (so : FVec Ideal S2x10x5120 .f32) (k : Fin 10) (j : Fin 5120) :
    tSums (F := Ideal) so (ix2 k j) = ∑ c : Fin 2, so (ix3 c k j) := by
  unfold tSums
  have hR : S2x10x5120.Reduces [0] S10x5120 := by decide
  refine (hostReduceAdd_apply so _ reducesTo_S2x10x5120_S10x5120_d0 h_S_ (ix2 k j)).trans ?_
  refine (Ideal.hostReduceAdd_single reducesTo_S2x10x5120_S10x5120_d0 hR so _ (ix2 k j)).trans ?_
  show Ideal.ofBits .f32 0x00000000#32 + ∑ c : Fin 2, so (hR.lift (ix2 k j) c) = _
  rw [Ideal.ofBits_zero_f32, zero_add]
  refine Finset.sum_congr rfl fun c _ => congrArg so ?_
  funext a
  match a with
  | ⟨0, _⟩ => rfl
  | ⟨1, _⟩ => rfl
  | ⟨2, _⟩ => rfl

/-- A [2,10,1] result summed over the core axis and its unit axis dropped, at k: the two cores' entries added. -/
theorem sumCores_at (qo : FVec Ideal S2x10x1 .f32) (k : Fin 10) :
    shapeCast S10 (Host.reduceAdd (F := Ideal) qo (constant (F := Ideal) S_ .f32 0x00000000#32)
        reducesTo_S2x10x1_S10x1_d0 h_S_) shapeCasts_S10x1_S10 (ix1 k)
      = ∑ c : Fin 2, qo (ix3 c k (0 : Fin 1)) := by
  have hR : S2x10x1.Reduces [0] S10x1 := by decide
  refine (shapeCast_apply _ shapeCasts_S10x1_S10 (ix1 k) (ix2 k (0 : Fin 1)) (by
    rw [Shape.rowMajor_val_two, Shape.rowMajor_val_one]; show k.val * 1 + 0 = k.val; omega)).trans ?_
  refine (hostReduceAdd_apply qo _ reducesTo_S2x10x1_S10x1_d0 h_S_ (ix2 k (0 : Fin 1))).trans ?_
  refine (Ideal.hostReduceAdd_single reducesTo_S2x10x1_S10x1_d0 hR qo _ (ix2 k (0 : Fin 1))).trans ?_
  show Ideal.ofBits .f32 0x00000000#32 + ∑ c : Fin 2, qo (hR.lift (ix2 k (0 : Fin 1)) c) = _
  rw [Ideal.ofBits_zero_f32, zero_add]
  refine Finset.sum_congr rfl fun c _ => congrArg qo ?_
  funext a
  match a with
  | ⟨0, _⟩ => rfl
  | ⟨1, _⟩ => rfl
  | ⟨2, _⟩ => rfl

/-- The per-label sums of squares at k. -/
theorem tSq_at (qo : FVec Ideal S2x10x1 .f32) (k : Fin 10) :
    tSq (F := Ideal) qo (ix1 k) = ∑ c : Fin 2, qo (ix3 c k (0 : Fin 1)) := sumCores_at qo k

/-- The per-label counts at k. -/
theorem tCnt_at (co : FVec Ideal S2x10x1 .f32) (k : Fin 10) :
    tCnt (F := Ideal) co (ix1 k) = ∑ c : Fin 2, co (ix3 c k (0 : Fin 1)) := sumCores_at co k

/-! ## A core's entries as sums of reals over its rows -/

section Values

variable (zr : Fin 8192 → Fin 5120 → ℝ) (z2 : S8192x5120.Idx → EReal) (l2 : IVec S8192x1 32)
  (hz : ∀ (i : Fin 8192) (j : Fin 5120), z2 (ix2 i j) = ((zr i j : ℝ) : EReal))

include hz in
/-- Core c's column sum for label k, column j: over its rows, the entry where the row is of class k. -/
theorem sumsOut_at (c : Fin 2) (k : Fin 10) (j : Fin 5120) :
    sumsOut z2 l2 (ix3 c k j)
      = ∑ s : Fin 8, ∑ r : Fin 512, (((if selOf l2 (rowOf c s r) k then zr (rowOf c s r) j else 0) : ℝ) : EReal) := by
  show (∑ s : Fin 8, ∑ r : Fin 512,
    oh (l2 (ix2 (rowOf c s r) (0 : Fin 1))) k * nn (z2 (ix2 (rowOf c s r) j))) = _
  refine Finset.sum_congr rfl fun s _ => Finset.sum_congr rfl fun r _ => ?_
  rw [oh_coe, hz, nn_coe, ← EReal.coe_mul, ite_mul, one_mul, zero_mul]

/-- Core c's count for label k: the number of its rows of class k. -/
theorem cntOut_at (c : Fin 2) (k : Fin 10) :
    cntOut l2 (ix3 c k (0 : Fin 1))
      = ∑ s : Fin 8, ∑ r : Fin 512, (((if selOf l2 (rowOf c s r) k then (1 : ℝ) else 0) : ℝ) : EReal) := by
  show (∑ s : Fin 8, ∑ r : Fin 512, oh (l2 (ix2 (rowOf c s r) (0 : Fin 1))) k * 1) = _
  refine Finset.sum_congr rfl fun s _ => Finset.sum_congr rfl fun r _ => ?_
  rw [oh_coe, mul_one]

include hz in
/-- Core c's sum of squares for label k: over its rows of class k, the squared length of the row shifted by ε. -/
theorem sqOut_at (c : Fin 2) (k : Fin 10) :
    sqOut z2 l2 (ix3 c k (0 : Fin 1))
      = ∑ s : Fin 8, ∑ r : Fin 512, (((if selOf l2 (rowOf c s r) k
          then ∑ j : Fin 5120, (zr (rowOf c s r) j + Cert.Spec.epsR) * (zr (rowOf c s r) j + Cert.Spec.epsR) else 0) : ℝ) : EReal) := by
  show (∑ s : Fin 8, ∑ r : Fin 512, oh (l2 (ix2 (rowOf c s r) (0 : Fin 1))) k
      * ∑ j : Fin 5120, (nn (z2 (ix2 (rowOf c s r) j)) + eps) * (nn (z2 (ix2 (rowOf c s r) j)) + eps)) = _
  refine Finset.sum_congr rfl fun s _ => Finset.sum_congr rfl fun r _ => ?_
  have hrow : (∑ j : Fin 5120, (nn (z2 (ix2 (rowOf c s r) j)) + eps) * (nn (z2 (ix2 (rowOf c s r) j)) + eps))
      = ((∑ j : Fin 5120, (zr (rowOf c s r) j + Cert.Spec.epsR) * (zr (rowOf c s r) j + Cert.Spec.epsR) : ℝ) : EReal) := by
    rw [coe_sum]
    refine Finset.sum_congr rfl fun j _ => ?_
    rw [hz, nn_coe, eps, Cert.Spec.eps_coe, ← EReal.coe_add, ← EReal.coe_mul]
  rw [hrow, oh_coe, ← EReal.coe_mul, ite_mul, one_mul, zero_mul]

/-! ## The host sums of the three results -/

include hz in
/-- The per-label sums are the class's column sums. -/
theorem tSums_val (k : Fin 10) (j : Fin 5120) :
    tSums (F := Ideal) (sumsOut z2 l2) (ix2 k j) = ((Cert.Spec.colSum (selOf l2) zr k j : ℝ) : EReal) := by
  refine (tSums_at _ k j).trans ?_
  refine (Finset.sum_congr rfl fun c _ => sumsOut_at zr z2 l2 hz c k j).trans ?_
  refine (sum_rows (fun i => (((if selOf l2 i k then zr i j else 0) : ℝ) : EReal))).trans ?_
  exact (coe_sum Finset.univ (fun i => if selOf l2 i k then zr i j else 0)).symm

/-- The per-label counts are the class's number of rows. -/
theorem tCnt_val (k : Fin 10) :
    tCnt (F := Ideal) (cntOut l2) (ix1 k) = ((Cert.Spec.cnt (selOf l2) k : ℝ) : EReal) := by
  refine (tCnt_at _ k).trans ?_
  refine (Finset.sum_congr rfl fun c _ => cntOut_at l2 c k).trans ?_
  refine (sum_rows (fun i => (((if selOf l2 i k then (1 : ℝ) else 0) : ℝ) : EReal))).trans ?_
  exact (coe_sum Finset.univ (fun i => if selOf l2 i k then (1 : ℝ) else 0)).symm

include hz in
/-- The per-label sums of squares are the class's sum of squared lengths of the shifted rows. -/
theorem tSq_val (k : Fin 10) :
    tSq (F := Ideal) (sqOut z2 l2) (ix1 k) = ((Cert.Spec.sqSum (selOf l2) zr Cert.Spec.epsR k : ℝ) : EReal) := by
  refine (tSq_at _ k).trans ?_
  refine (Finset.sum_congr rfl fun c _ => sqOut_at zr z2 l2 hz c k).trans ?_
  refine (sum_rows (fun i => (((if selOf l2 i k
    then ∑ j : Fin 5120, (zr i j + Cert.Spec.epsR) * (zr i j + Cert.Spec.epsR) else 0) : ℝ) : EReal))).trans ?_
  exact (coe_sum Finset.univ (fun i => if selOf l2 i k
    then ∑ j : Fin 5120, (zr i j + Cert.Spec.epsR) * (zr i j + Cert.Spec.epsR) else 0)).symm

end Values

end Cert.KernelIdeal.Hand

end
-- ==== Proof.KI.TailMeans.lean ====
/-
  The per-label means as reals: each column sum divided by max(count, 1). The denominator is the count's maximum
  with one broadcast along the features, a real that is at least one, so the quotient of the two reals is the real
  quotient, and the replacement of non-finite values keeps it.
-/
import proofs.«411193_j75273596830476_3_alg».proof.Proof.KI.TailSums

noncomputable section

namespace Cert.KernelIdeal.Hand

open Idealize.ShloMosaic Idealize.ShloMosaic.ValueIdx Cert.KernelIdeal
open Cert.KernelIdeal Facts₀ Facts

variable [Facts]

/-- A [10] tensor broadcast to [10,1] and then along the features to [10,5120] reads, at (k, j), its entry k. -/
theorem bcastRows_at {α : Type} (v : S10.Idx → α) (k : Fin 10) (j : Fin 5120) :
    broadcastInDim S10x5120 ![0, 1] bcast_S10x1_S10x5120_0_1 (broadcastInDim S10x1 ![0] bcast_S10_S10x1_0 v) (ix2 k j)
      = v (ix1 k) := by
  refine (broadcastInDim_apply ![0, 1] bcast_S10x1_S10x5120_0_1 _ (ix2 k j) (ix2 k (0 : Fin 1)) (fun a => by
    match a with
    | ⟨0, _⟩ => rfl
    | ⟨1, _⟩ => rfl)).trans ?_
  exact broadcastInDim_apply ![0] bcast_S10_S10x1_0 v (ix2 k (0 : Fin 1)) (ix1 k) (fun a => by
    match a with
    | ⟨0, _⟩ => rfl)

/-- The mean at (k, j), read off the program: the sum at (k, j) over max(count k, 1), non-finite values replaced. -/
theorem tMeans_at (so : FVec Ideal S2x10x5120 .f32) (co : FVec Ideal S2x10x1 .f32) (k : Fin 10) (j : Fin 5120) :
    tMeans (F := Ideal) so co (ix2 k j)
      = nanS (Ideal.div (tSums (F := Ideal) so (ix2 k j))
          (max (tCnt (F := Ideal) co (ix1 k)) (Ideal.ofBits .f32 0x3F800000#32))) := by
  unfold tMeans
  refine (nanM_apply _ _).trans (congrArg nanS ?_)
  refine (hostDivf_apply _ _ _).trans (congrArg (Ideal.div _) ?_)
  exact bcastRows_at _ k j

/-- Where the sum and the count are reals, the mean is the real quotient by max(count, 1). -/
theorem tMeans_of (so : FVec Ideal S2x10x5120 .f32) (co : FVec Ideal S2x10x1 .f32) (k : Fin 10) (j : Fin 5120) (S N : ℝ)
    (hS : tSums (F := Ideal) so (ix2 k j) = ((S : ℝ) : EReal)) (hN : tCnt (F := Ideal) co (ix1 k) = ((N : ℝ) : EReal)) :
    tMeans (F := Ideal) so co (ix2 k j) = ((S / max N 1 : ℝ) : EReal) := by
  have hne : max N 1 ≠ 0 := ne_of_gt (lt_of_lt_of_le one_pos (le_max_right N 1))
  rw [tMeans_at, hS, hN, ofBits_one, coe_max, div_coe_coe S hne, nanS_coe]

section Values

variable (zr : Fin 8192 → Fin 5120 → ℝ) (z2 : S8192x5120.Idx → EReal) (l2 : IVec S8192x1 32)
  (hz : ∀ (i : Fin 8192) (j : Fin 5120), z2 (ix2 i j) = ((zr i j : ℝ) : EReal))

include hz in
/-- The per-label means are the class means. -/
theorem tMeans_val (k : Fin 10) (j : Fin 5120) :
    tMeans (F := Ideal) (sumsOut z2 l2) (cntOut l2) (ix2 k j) = ((Cert.Spec.mean (selOf l2) zr k j : ℝ) : EReal) :=
  tMeans_of _ _ k j _ _ (tSums_val zr z2 l2 hz k j) (tCnt_val l2 k)

end Values

end Cert.KernelIdeal.Hand

end
-- ==== Proof.KI.TailSse.lean ====
/-
  The per-label sum of squared errors as a real, in the program's own order of operations:
    ((sq − 2·Σ_j μ_j s_j) − ((2·n)·ε)·Σ_j μ_j) + n·Σ_j μ_j²,
  the three sums over the features being host sums along axis 1 from zero. With sums, counts and means reals, every
  operation stays in the reals, and the expression is the expansion of the squared errors in the moments.
-/
import proofs.«411193_j75273596830476_3_alg».proof.Proof.KI.TailMeans

noncomputable section

namespace Cert.KernelIdeal.Hand

open Idealize.ShloMosaic Idealize.ShloMosaic.ValueIdx Cert.KernelIdeal
open Cert.KernelIdeal Facts₀ Facts

variable [Facts]

/-- The host sum of a [10,5120] tensor along the features from zero, at k: the sum of row k. -/
theorem rowSum_at (v : FVec Ideal S10x5120 .f32) (k : Fin 10) :
    Host.reduceAdd (F := Ideal) v (constant (F := Ideal) S_ .f32 0x00000000#32) reducesTo_S10x5120_S10_d1 h_S_ (ix1 k)
      = ∑ j : Fin 5120, v (ix2 k j) := by
  have hR : S10x5120.Reduces [1] S10 := by decide
  refine (hostReduceAdd_apply v _ reducesTo_S10x5120_S10_d1 h_S_ (ix1 k)).trans ?_
  refine (Ideal.hostReduceAdd_single reducesTo_S10x5120_S10_d1 hR v _ (ix1 k)).trans ?_
  show Ideal.ofBits .f32 0x00000000#32 + ∑ j : Fin 5120, v (hR.lift (ix1 k) j) = _
  rw [Ideal.ofBits_zero_f32, zero_add]
  refine Finset.sum_congr rfl fun j _ => congrArg v ?_
  funext a
  match a with
  | ⟨0, _⟩ => rfl
  | ⟨1, _⟩ => rfl

/-- The sum of squared errors at k, read off the program. -/
theorem tSse_at (so : FVec Ideal S2x10x5120 .f32) (qo co : FVec Ideal S2x10x1 .f32) (k : Fin 10) :
    tSse (F := Ideal) so qo co (ix1 k)
      = ((tSq (F := Ideal) qo (ix1 k)
            - Ideal.ofBits .f32 0x40000000#32
                * ∑ j : Fin 5120, tMeans (F := Ideal) so co (ix2 k j) * tSums (F := Ideal) so (ix2 k j))
          - ((Ideal.ofBits .f32 0x40000000#32 * tCnt (F := Ideal) co (ix1 k)) * Ideal.ofBits .f32 0x322BCC77#32)
              * ∑ j : Fin 5120, tMeans (F := Ideal) so co (ix2 k j))
        + tCnt (F := Ideal) co (ix1 k)
            * ∑ j : Fin 5120, tMeans (F := Ideal) so co (ix2 k j) * tMeans (F := Ideal) so co (ix2 k j) := by
  have h1 := rowSum_at (mulf (tMeans (F := Ideal) so co) (tSums (F := Ideal) so)) k
  have h2 := rowSum_at (mulf (tMeans (F := Ideal) so co) (tMeans (F := Ideal) so co)) k
  have h3 := rowSum_at (tMeans (F := Ideal) so co) k
  unfold tSse
  show ((tSq (F := Ideal) qo (ix1 k) - Ideal.ofBits .f32 0x40000000#32 * _)
      - ((Ideal.ofBits .f32 0x40000000#32 * tCnt (F := Ideal) co (ix1 k)) * Ideal.ofBits .f32 0x322BCC77#32) * _)
      + tCnt (F := Ideal) co (ix1 k) * _ = _
  rw [h1, h2, h3]
  rfl

/-- Where the sums, the means, the sum of squares and the count at k are reals, so is the sum of squared errors. -/
theorem tSse_of (so : FVec Ideal S2x10x5120 .f32) (qo co : FVec Ideal S2x10x1 .f32) (k : Fin 10)
    (S M : Fin 5120 → ℝ) (Q N : ℝ)
    (hS : ∀ j : Fin 5120, tSums (F := Ideal) so (ix2 k j) = ((S j : ℝ) : EReal))
    (hM : ∀ j : Fin 5120, tMeans (F := Ideal) so co (ix2 k j) = ((M j : ℝ) : EReal))
    (hQ : tSq (F := Ideal) qo (ix1 k) = ((Q : ℝ) : EReal)) (hN : tCnt (F := Ideal) co (ix1 k) = ((N : ℝ) : EReal)) :
    tSse (F := Ideal) so qo co (ix1 k)
      = ((Q - 2 * ∑ j, M j * S j - 2 * N * Cert.Spec.epsR * ∑ j, M j + N * ∑ j, M j * M j : ℝ) : EReal) := by
  have e1 : (∑ j : Fin 5120, tMeans (F := Ideal) so co (ix2 k j) * tSums (F := Ideal) so (ix2 k j))
      = ((∑ j, M j * S j : ℝ) : EReal) := by
    rw [coe_sum]; exact Finset.sum_congr rfl fun j _ => by rw [hM, hS, EReal.coe_mul]
  have e2 : (∑ j : Fin 5120, tMeans (F := Ideal) so co (ix2 k j)) = ((∑ j, M j : ℝ) : EReal) := by
    rw [coe_sum]; exact Finset.sum_congr rfl fun j _ => hM j
  have e3 : (∑ j : Fin 5120, tMeans (F := Ideal) so co (ix2 k j) * tMeans (F := Ideal) so co (ix2 k j))
      = ((∑ j, M j * M j : ℝ) : EReal) := by
    rw [coe_sum]; exact Finset.sum_congr rfl fun j _ => by rw [hM, EReal.coe_mul]
  rw [tSse_at, e1, e2, e3, hQ, hN, ofBits_two, Cert.Spec.eps_coe]
  simp only [← EReal.coe_mul, ← EReal.coe_sub, ← EReal.coe_add]

section Values

variable (zr : Fin 8192 → Fin 5120 → ℝ) (z2 : S8192x5120.Idx → EReal) (l2 : IVec S8192x1 32)
  (hz : ∀ (i : Fin 8192) (j : Fin 5120), z2 (ix2 i j) = ((zr i j : ℝ) : EReal))

include hz in
/-- The per-label sum of squared errors is the class's, expanded in the moments at the class mean. -/
theorem tSse_val (k : Fin 10) :
    tSse (F := Ideal) (sumsOut z2 l2) (sqOut z2 l2) (cntOut l2) (ix1 k)
      = ((Cert.Spec.sseMoments (selOf l2) zr Cert.Spec.epsR k : ℝ) : EReal) :=
  tSse_of _ _ _ k _ _ _ _ (fun j => tSums_val zr z2 l2 hz k j) (fun j => tMeans_val zr z2 l2 hz k j)
    (tSq_val zr z2 l2 hz k) (tCnt_val l2 k)

end Values

end Cert.KernelIdeal.Hand

end
-- ==== Proof.KI.TailReal.lean ====
/-
  The host tail over the reals. Each label's sum of squared errors is divided by max(count, 1)·5120, a real that is
  not zero; the replacement of non-finite values keeps the real quotient; it is kept where the count is positive and
  is zero elsewhere; and the host sum over the ten labels from zero is the loss.
-/
import proofs.«411193_j75273596830476_3_alg».proof.Proof.KI.TailSse

noncomputable section

namespace Cert.KernelIdeal.Hand

open Idealize.ShloMosaic Idealize.ShloMosaic.ValueIdx Cert.KernelIdeal
open Cert.KernelIdeal Facts₀ Facts

variable [Facts]

/-- The host sum of a [10] tensor from zero: the sum of its ten entries. -/
theorem sumLabels_at (v : FVec Ideal S10 .f32) (i : S_.Idx) :
    Host.reduceAdd (F := Ideal) v (constant (F := Ideal) S_ .f32 0x00000000#32) reducesTo_S10_S_d0 h_S_ i
      = ∑ k : Fin 10, v (ix1 k) := by
  refine (hostReduceAdd_apply v _ reducesTo_S10_S_d0 h_S_ i).trans ?_
  refine (Ideal.hostReduceAdd_total reducesTo_S10_S_d0 (fun b => b.elim0) v _ i).trans ?_
  show Ideal.ofBits .f32 0x00000000#32 + ∑ x : S10.Idx, v x = _
  rw [Ideal.ofBits_zero_f32, zero_add]
  exact Fintype.sum_equiv ⟨fun x => x 0, fun k => ix1 k, fun x => (eq_ix1 x).symm, fun _ => rfl⟩ _ _
    (fun x => congrArg v (eq_ix1 x))

/-- "Greater than" on two reals is the reals' order. -/
theorem cmp_ogt_coe (a b : ℝ) : Ideal.cmp .ogt (a : EReal) (b : EReal) = BitVec.ofBool (decide (b < a)) := by
  simp only [Ideal.cmp, EReal.coe_lt_coe_iff]

/-- A select on a decided condition is the `if`. -/
theorem select_ofBool {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- The result, read off the program: the sum over the labels of the selected, replaced quotients. -/
theorem tailVal_at (so : FVec Ideal S2x10x5120 .f32) (qo co : FVec Ideal S2x10x1 .f32) (i : S_.Idx) :
    tailVal (F := Ideal) so qo co i
      = ∑ k : Fin 10, Scalar.select (Ideal.cmp .ogt (tCnt (F := Ideal) co (ix1 k)) (Ideal.ofBits .f32 0x00000000#32))
          (nanS (Ideal.div (tSse (F := Ideal) so qo co (ix1 k))
            (max (tCnt (F := Ideal) co (ix1 k)) (Ideal.ofBits .f32 0x3F800000#32) * Ideal.ofBits .f32 0x45A00000#32)))
          (Ideal.ofBits .f32 0x00000000#32) := by
  unfold tailVal
  refine (sumLabels_at _ i).trans ?_
  rfl

/-- Where each label's count and sum of squared errors are reals, the result is the real loss formula. -/
theorem tailVal_of (so : FVec Ideal S2x10x5120 .f32) (qo co : FVec Ideal S2x10x1 .f32) (N E : Fin 10 → ℝ)
    (hN : ∀ k : Fin 10, tCnt (F := Ideal) co (ix1 k) = ((N k : ℝ) : EReal))
    (hE : ∀ k : Fin 10, tSse (F := Ideal) so qo co (ix1 k) = ((E k : ℝ) : EReal)) (i : S_.Idx) :
    tailVal (F := Ideal) so qo co i
      = ((∑ k : Fin 10, (if 0 < N k then E k / (max (N k) 1 * 5120) else 0) : ℝ) : EReal) := by
  rw [tailVal_at, coe_sum]
  refine Finset.sum_congr rfl fun k _ => ?_
  have hne : max (N k) 1 * 5120 ≠ 0 :=
    mul_ne_zero (ne_of_gt (lt_of_lt_of_le one_pos (le_max_right (N k) 1))) (by norm_num)
  rw [hN, hE, ofBits_zero, ofBits_one, ofBits_5120, coe_max, ← EReal.coe_mul, div_coe_coe _ hne, nanS_coe,
    cmp_ogt_coe, select_ofBool]
  split_ifs <;> rfl

/-- THE HOST TAIL OVER THE REALS: on a table of reals the program's result is the loss, each class's sum of squared
    errors taken from the moments. -/
theorem tail_real (zr : Fin 8192 → Fin 5120 → ℝ) (z2 : S8192x5120.Idx → EReal) (l2 : IVec S8192x1 32)
    (hz : ∀ (i : Fin 8192) (j : Fin 5120), z2 (ix2 i j) = ((zr i j : ℝ) : EReal)) :
    tailVal (F := Ideal) (sumsOut z2 l2) (sqOut z2 l2) (cntOut l2)
      = fun _ => ((Cert.Spec.loss (fun (i : Fin 8192) (k : Fin 10) => Cert.Spec.isLab (l2 (ix2 i (0 : Fin 1))) k) (5120 : ℝ)
          (Cert.Spec.sseMoments (fun (i : Fin 8192) (k : Fin 10) => Cert.Spec.isLab (l2 (ix2 i (0 : Fin 1))) k) zr
            Cert.Spec.epsR) : ℝ) : EReal) :=
  funext fun i => tailVal_of _ _ _ _ _ (fun k => tCnt_val l2 k) (fun k => tSse_val zr z2 l2 hz k) i

end Cert.KernelIdeal.Hand

end
-- ==== Proof.Ref.Val.lean ====
import proofs.«411193_j75273596830476_3_alg».proof.ReferenceIdeal

/-!
# The reference's value, as a function of its two arguments

The reference is a straight line of whole-array operations.  Each definition below is the composed
term of one stretch of it, written over the stretch before, so that unfolding refVal completely
gives the term the program's operations compose from the two arguments:

* nan3, nanK, nan1 : the three copies of nan_to_num (at the three shapes it is used at) —
  NaN replaced by zero, then +∞ by the largest finite value, then -∞ by its negation;
* rCounts : per label, the number of samples carrying it (ones scattered and added at the labels);
* rSums : per label, the sum of the cleaned samples carrying it;
* rMeans : the sums divided by max(count, 1), cleaned;
* rPer : per sample, the squared distance of sample + ε from its label's mean, summed over the
  sample's 20 × 256 entries (the mean is gathered at the label, a negative label read from the end);
* rSse : per label, the sum of those squared distances;
* refVal : the sum, over the labels that occur, of rSse / (max(count, 1) · 5120), cleaned.
-/

noncomputable section

namespace Cert.ReferenceIdeal.Hand

open Idealize.ShloMosaic Idealize.SL.Sem
open Cert.ReferenceIdeal Facts₀ Facts

variable {F : FTy → Type} [FloatOps F] [Facts]

/-- nan_to_num at shape 8192 × 20 × 256: where x ≠ x (a NaN) zero; then where the value equals
    +∞ the largest finite float; then where it equals -∞ the most negative finite float. -/
def nan3 (x : FVec F S8192x20x256 .f32) : FVec F S8192x20x256 .f32 :=
  let v1 : FVec F S8192x20x256 .f32 :=
    select (cmpf .une x x)
      (broadcastInDim S8192x20x256 ![] bcast_S_S8192x20x256 (constant (F := F) S_ .f32 0x00000000#32)) x
  let v4 : FVec F S8192x20x256 .f32 :=
    select (cmpf .oeq v1 (broadcastInDim S8192x20x256 ![] bcast_S_S8192x20x256 (constant (F := F) S_ .f32 0x7F800000#32)))
      (broadcastInDim S8192x20x256 ![] bcast_S_S8192x20x256 (constant (F := F) S_ .f32 0x7F7FFFFF#32)) v1
  select (cmpf .oeq v4 (broadcastInDim S8192x20x256 ![] bcast_S_S8192x20x256 (constant (F := F) S_ .f32 0xFF800000#32)))
    (broadcastInDim S8192x20x256 ![] bcast_S_S8192x20x256 (constant (F := F) S_ .f32 0xFF7FFFFF#32)) v4

/-- nan_to_num at shape 10 × 20 × 256. -/
def nanK (x : FVec F S10x20x256 .f32) : FVec F S10x20x256 .f32 :=
  let v1 : FVec F S10x20x256 .f32 :=
    select (cmpf .une x x)
      (broadcastInDim S10x20x256 ![] bcast_S_S10x20x256 (constant (F := F) S_ .f32 0x00000000#32)) x
  let v4 : FVec F S10x20x256 .f32 :=
    select (cmpf .oeq v1 (broadcastInDim S10x20x256 ![] bcast_S_S10x20x256 (constant (F := F) S_ .f32 0x7F800000#32)))
      (broadcastInDim S10x20x256 ![] bcast_S_S10x20x256 (constant (F := F) S_ .f32 0x7F7FFFFF#32)) v1
  select (cmpf .oeq v4 (broadcastInDim S10x20x256 ![] bcast_S_S10x20x256 (constant (F := F) S_ .f32 0xFF800000#32)))
    (broadcastInDim S10x20x256 ![] bcast_S_S10x20x256 (constant (F := F) S_ .f32 0xFF7FFFFF#32)) v4

/-- nan_to_num at shape 10. -/
def nan1 (x : FVec F S10 .f32) : FVec F S10 .f32 :=
  let v1 : FVec F S10 .f32 :=
    select (cmpf .une x x)
      (broadcastInDim S10 ![] bcast_S_S10 (constant (F := F) S_ .f32 0x00000000#32)) x
  let v4 : FVec F S10 .f32 :=
    select (cmpf .oeq v1 (broadcastInDim S10 ![] bcast_S_S10 (constant (F := F) S_ .f32 0x7F800000#32)))
      (broadcastInDim S10 ![] bcast_S_S10 (constant (F := F) S_ .f32 0x7F7FFFFF#32)) v1
  select (cmpf .oeq v4 (broadcastInDim S10 ![] bcast_S_S10 (constant (F := F) S_ .f32 0xFF800000#32)))
    (broadcastInDim S10 ![] bcast_S_S10 (constant (F := F) S_ .f32 0xFF7FFFFF#32)) v4

/-- The labels as a column of one-component scatter / gather indices. -/
def labCol (lab : IVec S8192 32) : IVec S8192x1 32 :=
  broadcastInDim S8192x1 ![0] bcast_S8192_S8192x1_0 lab

/-- Per label, how many samples carry it: a one per sample, added into ten zeros at the sample's label. -/
def rCounts (lab : IVec S8192 32) : FVec F S10 .f32 :=
  Host.scatterAdd scatter_S10_S8192x1_S8192_n_0_0_1
    (broadcastInDim S10 ![] bcast_S_S10 (constant (F := F) S_ .f32 0x00000000#32))
    (labCol lab)
    (broadcastInDim S8192 ![] bcast_S_S8192 (constant (F := F) S_ .f32 0x3F800000#32))

/-- Per label, the sum of the cleaned samples carrying it (a 20 × 256 block per label). -/
def rSums (z : FVec F S8192x20x256 .f32) (lab : IVec S8192 32) : FVec F S10x20x256 .f32 :=
  Host.scatterAdd scatter_S10x20x256_S8192x1_S8192x20x256_12_0_0_1
    (broadcastInDim S10x20x256 ![] bcast_S_S10x20x256 (constant (F := F) S_ .f32 0x00000000#32))
    (labCol lab)
    (nan3 z)

/-- max(count, 1) per label. -/
def rDen (lab : IVec S8192 32) : FVec F S10 .f32 :=
  maximumf (rCounts (F := F) lab) (broadcastInDim S10 ![] bcast_S_S10 (constant (F := F) S_ .f32 0x3F800000#32))

/-- The per-label means: the sums over max(count, 1) (broadcast along the block), cleaned. -/
def rMeans (z : FVec F S8192x20x256 .f32) (lab : IVec S8192 32) : FVec F S10x20x256 .f32 :=
  nanK (Host.divf (rSums z lab)
    (broadcastInDim S10x20x256 ![0, 1, 2] bcast_S10x1x1_S10x20x256_0_1_2
      (broadcastInDim S10x1x1 ![0] bcast_S10_S10x1x1_0 (rDen (F := F) lab))))

/-- The labels normalised as an index from the end when negative: lab + 10 where lab < 0. -/
def labNorm (lab : IVec S8192 32) : IVec S8192 32 :=
  select (cmpi .slt lab (broadcastInDim S8192 ![] bcast_S_S8192 (constantI S_ 32 0#32)))
    (addi lab (broadcastInDim S8192 ![] bcast_S_S8192 (constantI S_ 32 10#32))) lab

/-- Per sample, the squared distance of sample + ε from its label's mean, summed over the block. -/
def rPer (z : FVec F S8192x20x256 .f32) (lab : IVec S8192 32) : FVec F S8192 .f32 :=
  let d : FVec F S8192x20x256 .f32 :=
    subf
      (addf (nan3 z) (broadcastInDim S8192x20x256 ![] bcast_S_S8192x20x256 (constant (F := F) S_ .f32 0x322BCC77#32)))
      (Host.gather gather_S10x20x256_S8192x1_S8192x20x256_12_0_n_n_0_1_120256 (rMeans z lab)
        (broadcastInDim S8192x1 ![0] bcast_S8192_S8192x1_0 (labNorm lab)))
  Host.reduceAdd (mulf d d) (constant (F := F) S_ .f32 0x00000000#32) reducesTo_S8192x20x256_S8192_d1_2 h_S_

/-- Per label, the sum of its samples' squared distances. -/
def rSse (z : FVec F S8192x20x256 .f32) (lab : IVec S8192 32) : FVec F S10 .f32 :=
  Host.scatterAdd scatter_S10_S8192x1_S8192_n_0_0_1
    (broadcastInDim S10 ![] bcast_S_S10 (constant (F := F) S_ .f32 0x00000000#32))
    (labCol lab)
    (rPer z lab)

/-- The result: over the labels that occur (count > 0), the sum of the cleaned
    sse / (max(count, 1) · 5120); a label that does not occur contributes zero. -/
def refVal (z : FVec F S8192x20x256 .f32) (lab : IVec S8192 32) : FVec F S_ .f32 :=
  let q : FVec F S10 .f32 :=
    Host.divf (rSse z lab)
      (mulf (rDen (F := F) lab) (broadcastInDim S10 ![] bcast_S_S10 (constant (F := F) S_ .f32 0x45A00000#32)))
  let pos : IVec S10 1 :=
    cmpf .ogt (rCounts (F := F) lab) (broadcastInDim S10 ![] bcast_S_S10 (constant (F := F) S_ .f32 0x00000000#32))
  let w : FVec F S10 .f32 :=
    select pos (nan1 q)
      (broadcastInDim S10 ![] bcast_S_S10 (id (constant (F := F) S_ .f32 0x00000000#32)))
  Host.reduceAdd w (constant (F := F) S_ .f32 0x00000000#32) reducesTo_S10_S_d0 h_S_

end Cert.ReferenceIdeal.Hand

end
-- ==== Proof.Ref.Ops.lean ====
import proofs.«411193_j75273596830476_3_alg».proof.ReferenceIdeal
import Idealize.ShloMosaic.Lib.StableHlo.Run

/-!
# The reference as a list of operations

The reference's @main is a straight line: its own operations, and at each call of a module-local
function that function's operations over the call's buffers (a call executes the callee's body on
the operands).  Here the line is written as five consecutive lists, their concatenation is shown
to be @main, and every operation is shown to touch TensorCore references only and to allocate
nothing.
-/

noncomputable section

namespace Cert.ReferenceIdeal.Hand

open Cert.ReferenceIdeal Facts₀ Facts
open Idealize.ShloMosaic Idealize.ShloMosaic.TcCoe Idealize.SL.Sem Idealize.ShloMosaic.StableHlo

variable {F : FTy → Type} [FloatOps F] [Facts]

/-- The sixteen operations of the first cleaning (of the samples): result main_v0. -/
abbrev opsA : List (HloOp τ sig (Elt F)) :=
  [ TRef.binary (.of main_arg0) (.of main_arg0) main_call0.v0 (cmpf .une),
    TRef.nullary main_call0.cst (constant S_ .f32 0x00000000#32),
    TRef.unary main_call0.cst main_call0.call0.v0 (broadcastInDim S8192x20x256 ![] bcast_S_S8192x20x256),
    TRef.ternary main_call0.v0 main_call0.call0.v0 (.of main_arg0) main_call0.call0.v1 select,
    TRef.nullary main_call0.cst_0 (constant S_ .f32 0x7F800000#32),
    TRef.unary main_call0.cst_0 main_call0.v2 (broadcastInDim S8192x20x256 ![] bcast_S_S8192x20x256),
    TRef.binary main_call0.call0.v1 main_call0.v2 main_call0.v3 (cmpf .oeq),
    TRef.nullary main_call0.cst_1 (constant S_ .f32 0x7F7FFFFF#32),
    TRef.unary main_call0.cst_1 main_call0.call1.v0 (broadcastInDim S8192x20x256 ![] bcast_S_S8192x20x256),
    TRef.ternary main_call0.v3 main_call0.call1.v0 main_call0.call0.v1 main_call0.call1.v1 select,
    TRef.nullary main_call0.cst_2 (constant S_ .f32 0xFF800000#32),
    TRef.unary main_call0.cst_2 main_call0.v5 (broadcastInDim S8192x20x256 ![] bcast_S_S8192x20x256),
    TRef.binary main_call0.call1.v1 main_call0.v5 main_call0.v6 (cmpf .oeq),
    TRef.nullary main_call0.cst_3 (constant S_ .f32 0xFF7FFFFF#32),
    TRef.unary main_call0.cst_3 main_call0.call2.v0 (broadcastInDim S8192x20x256 ![] bcast_S_S8192x20x256),
    TRef.ternary main_call0.v6 main_call0.call2.v0 main_call0.call1.v1 main_call0.call2.v1 select ]

/-- Sixteen operations: the counts (main_v4), the per-label sums (main_v7), and the sums over max(count, 1) (main_v12). -/
abbrev opsB : List (HloOp τ sig (Elt F)) :=
  [ nullary main_cst (constant S_ .f32 0x3F800000#32),
    unary main_cst main_v1 (broadcastInDim S8192 ![] bcast_S_S8192 : (⟨S_, .f32⟩ : BufTy).Contents (Elt F) → (⟨S8192, .f32⟩ : BufTy).Contents (Elt F)),
    nullary main_cst_0 (constant S_ .f32 0x00000000#32),
    unary main_cst_0 main_v2 (broadcastInDim S10 ![] bcast_S_S10 : (⟨S_, .f32⟩ : BufTy).Contents (Elt F) → (⟨S10, .f32⟩ : BufTy).Contents (Elt F)),
    unary main_arg1 main_v3 (broadcastInDim S8192x1 ![0] bcast_S8192_S8192x1_0 : (⟨S8192, .i32⟩ : BufTy).Contents (Elt F) → (⟨S8192x1, .i32⟩ : BufTy).Contents (Elt F)),
    ternary main_v2 main_v3 main_v1 main_v4 ((fun x i u => Host.scatterAdd scatter_S10_S8192x1_S8192_n_0_0_1 x i u) : (⟨S10, .f32⟩ : BufTy).Contents (Elt F) → (⟨S8192x1, .i32⟩ : BufTy).Contents (Elt F) → (⟨S8192, .f32⟩ : BufTy).Contents (Elt F) → (⟨S10, .f32⟩ : BufTy).Contents (Elt F)),
    nullary main_cst_1 (constant S_ .f32 0x00000000#32),
    unary main_cst_1 main_v5 (broadcastInDim S10x20x256 ![] bcast_S_S10x20x256 : (⟨S_, .f32⟩ : BufTy).Contents (Elt F) → (⟨S10x20x256, .f32⟩ : BufTy).Contents (Elt F)),
    unary main_arg1 main_v6 (broadcastInDim S8192x1 ![0] bcast_S8192_S8192x1_0 : (⟨S8192, .i32⟩ : BufTy).Contents (Elt F) → (⟨S8192x1, .i32⟩ : BufTy).Contents (Elt F)),
    ternary main_v5 main_v6 main_v0 main_v7 ((fun x i u => Host.scatterAdd scatter_S10x20x256_S8192x1_S8192x20x256_12_0_0_1 x i u) : (⟨S10x20x256, .f32⟩ : BufTy).Contents (Elt F) → (⟨S8192x1, .i32⟩ : BufTy).Contents (Elt F) → (⟨S8192x20x256, .f32⟩ : BufTy).Contents (Elt F) → (⟨S10x20x256, .f32⟩ : BufTy).Contents (Elt F)),
    nullary main_cst_2 (constant S_ .f32 0x3F800000#32),
    unary main_cst_2 main_v8 (broadcastInDim S10 ![] bcast_S_S10 : (⟨S_, .f32⟩ : BufTy).Contents (Elt F) → (⟨S10, .f32⟩ : BufTy).Contents (Elt F)),
    binary main_v4 main_v8 main_v9 (maximumf : (⟨S10, .f32⟩ : BufTy).Contents (Elt F) → (⟨S10, .f32⟩ : BufTy).Contents (Elt F) → (⟨S10, .f32⟩ : BufTy).Contents (Elt F)),
    unary main_v9 main_v10 (broadcastInDim S10x1x1 ![0] bcast_S10_S10x1x1_0 : (⟨S10, .f32⟩ : BufTy).Contents (Elt F) → (⟨S10x1x1, .f32⟩ : BufTy).Contents (Elt F)),
    unary main_v10 main_v11 (broadcastInDim S10x20x256 ![0, 1, 2] bcast_S10x1x1_S10x20x256_0_1_2 : (⟨S10x1x1, .f32⟩ : BufTy).Contents (Elt F) → (⟨S10x20x256, .f32⟩ : BufTy).Contents (Elt F)),
    binary main_v7 main_v11 main_v12 (Host.divf : (⟨S10x20x256, .f32⟩ : BufTy).Contents (Elt F) → (⟨S10x20x256, .f32⟩ : BufTy).Contents (Elt F) → (⟨S10x20x256, .f32⟩ : BufTy).Contents (Elt F)) ]

/-- The sixteen operations of the second cleaning (of the quotients): result main_v13, the means. -/
abbrev opsC : List (HloOp τ sig (Elt F)) :=
  [ TRef.binary (.of main_v12) (.of main_v12) main_call1.v0 (cmpf .une),
    TRef.nullary main_call1.cst (constant S_ .f32 0x00000000#32),
    TRef.unary main_call1.cst main_call1.call0.v0 (broadcastInDim S10x20x256 ![] bcast_S_S10x20x256),
    TRef.ternary main_call1.v0 main_call1.call0.v0 (.of main_v12) main_call1.call0.v1 select,
    TRef.nullary main_call1.cst_0 (constant S_ .f32 0x7F800000#32),
    TRef.unary main_call1.cst_0 main_call1.v2 (broadcastInDim S10x20x256 ![] bcast_S_S10x20x256),
    TRef.binary main_call1.call0.v1 main_call1.v2 main_call1.v3 (cmpf .oeq),
    TRef.nullary main_call1.cst_1 (constant S_ .f32 0x7F7FFFFF#32),
    TRef.unary main_call1.cst_1 main_call1.call1.v0 (broadcastInDim S10x20x256 ![] bcast_S_S10x20x256),
    TRef.ternary main_call1.v3 main_call1.call1.v0 main_call1.call0.v1 main_call1.call1.v1 select,
    TRef.nullary main_call1.cst_2 (constant S_ .f32 0xFF800000#32),
    TRef.unary main_call1.cst_2 main_call1.v5 (broadcastInDim S10x20x256 ![] bcast_S_S10x20x256),
    TRef.binary main_call1.call1.v1 main_call1.v5 main_call1.v6 (cmpf .oeq),
    TRef.nullary main_call1.cst_3 (constant S_ .f32 0xFF7FFFFF#32),
    TRef.unary main_call1.cst_3 main_call1.call2.v0 (broadcastInDim S10x20x256 ![] bcast_S_S10x20x256),
    TRef.ternary main_call1.v6 main_call1.call2.v0 main_call1.call1.v1 main_call1.call2.v1 select ]

/-- Thirty operations: the samples plus ε, the labels normalised, the means gathered at them, the squared differences summed per sample (main_v25), those sums added per label (main_v28), divided by max(count, 1) · 5120 (main_v33); and which labels occur (main_v35). -/
abbrev opsD : List (HloOp τ sig (Elt F)) :=
  [ nullary main_cst_3 (constant S_ .f32 0x322BCC77#32),
    unary main_cst_3 main_v14 (broadcastInDim S8192x20x256 ![] bcast_S_S8192x20x256 : (⟨S_, .f32⟩ : BufTy).Contents (Elt F) → (⟨S8192x20x256, .f32⟩ : BufTy).Contents (Elt F)),
    binary main_v0 main_v14 main_v15 (addf : (⟨S8192x20x256, .f32⟩ : BufTy).Contents (Elt F) → (⟨S8192x20x256, .f32⟩ : BufTy).Contents (Elt F) → (⟨S8192x20x256, .f32⟩ : BufTy).Contents (Elt F)),
    nullary main_c (constantI S_ 32 0#32),
    unary main_c main_v16 (broadcastInDim S8192 ![] bcast_S_S8192 : (⟨S_, .i32⟩ : BufTy).Contents (Elt F) → (⟨S8192, .i32⟩ : BufTy).Contents (Elt F)),
    binary main_arg1 main_v16 main_v17 (cmpi .slt : (⟨S8192, .i32⟩ : BufTy).Contents (Elt F) → (⟨S8192, .i32⟩ : BufTy).Contents (Elt F) → (⟨S8192, .i1⟩ : BufTy).Contents (Elt F)),
    nullary main_c_4 (constantI S_ 32 10#32),
    unary main_c_4 main_v18 (broadcastInDim S8192 ![] bcast_S_S8192 : (⟨S_, .i32⟩ : BufTy).Contents (Elt F) → (⟨S8192, .i32⟩ : BufTy).Contents (Elt F)),
    binary main_arg1 main_v18 main_v19 (addi : (⟨S8192, .i32⟩ : BufTy).Contents (Elt F) → (⟨S8192, .i32⟩ : BufTy).Contents (Elt F) → (⟨S8192, .i32⟩ : BufTy).Contents (Elt F)),
    ternary main_v17 main_v19 main_arg1 main_v20 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v20 main_v21 (broadcastInDim S8192x1 ![0] bcast_S8192_S8192x1_0 : (⟨S8192, .i32⟩ : BufTy).Contents (Elt F) → (⟨S8192x1, .i32⟩ : BufTy).Contents (Elt F)),
    binary main_v13 main_v21 main_v22 ((fun x i => Host.gather gather_S10x20x256_S8192x1_S8192x20x256_12_0_n_n_0_1_120256 x i) : (⟨S10x20x256, .f32⟩ : BufTy).Contents (Elt F) → (⟨S8192x1, .i32⟩ : BufTy).Contents (Elt F) → (⟨S8192x20x256, .f32⟩ : BufTy).Contents (Elt F)),
    binary main_v15 main_v22 main_v23 (subf : (⟨S8192x20x256, .f32⟩ : BufTy).Contents (Elt F) → (⟨S8192x20x256, .f32⟩ : BufTy).Contents (Elt F) → (⟨S8192x20x256, .f32⟩ : BufTy).Contents (Elt F)),
    binary main_v23 main_v23 main_v24 (mulf : (⟨S8192x20x256, .f32⟩ : BufTy).Contents (Elt F) → (⟨S8192x20x256, .f32⟩ : BufTy).Contents (Elt F) → (⟨S8192x20x256, .f32⟩ : BufTy).Contents (Elt F)),
    nullary main_cst_5 (constant S_ .f32 0x00000000#32),
    binary main_v24 main_cst_5 main_v25 ((fun x v => Host.reduceAdd x v reducesTo_S8192x20x256_S8192_d1_2 h_S_) : (⟨S8192x20x256, .f32⟩ : BufTy).Contents (Elt F) → (⟨S_, .f32⟩ : BufTy).Contents (Elt F) → (⟨S8192, .f32⟩ : BufTy).Contents (Elt F)),
    nullary main_cst_6 (constant S_ .f32 0x00000000#32),
    unary main_cst_6 main_v26 (broadcastInDim S10 ![] bcast_S_S10 : (⟨S_, .f32⟩ : BufTy).Contents (Elt F) → (⟨S10, .f32⟩ : BufTy).Contents (Elt F)),
    unary main_arg1 main_v27 (broadcastInDim S8192x1 ![0] bcast_S8192_S8192x1_0 : (⟨S8192, .i32⟩ : BufTy).Contents (Elt F) → (⟨S8192x1, .i32⟩ : BufTy).Contents (Elt F)),
    ternary main_v26 main_v27 main_v25 main_v28 ((fun x i u => Host.scatterAdd scatter_S10_S8192x1_S8192_n_0_0_1 x i u) : (⟨S10, .f32⟩ : BufTy).Contents (Elt F) → (⟨S8192x1, .i32⟩ : BufTy).Contents (Elt F) → (⟨S8192, .f32⟩ : BufTy).Contents (Elt F) → (⟨S10, .f32⟩ : BufTy).Contents (Elt F)),
    nullary main_cst_7 (constant S_ .f32 0x3F800000#32),
    unary main_cst_7 main_v29 (broadcastInDim S10 ![] bcast_S_S10 : (⟨S_, .f32⟩ : BufTy).Contents (Elt F) → (⟨S10, .f32⟩ : BufTy).Contents (Elt F)),
    binary main_v4 main_v29 main_v30 (maximumf : (⟨S10, .f32⟩ : BufTy).Contents (Elt F) → (⟨S10, .f32⟩ : BufTy).Contents (Elt F) → (⟨S10, .f32⟩ : BufTy).Contents (Elt F)),
    nullary main_cst_8 (constant S_ .f32 0x45A00000#32),
    unary main_cst_8 main_v31 (broadcastInDim S10 ![] bcast_S_S10 : (⟨S_, .f32⟩ : BufTy).Contents (Elt F) → (⟨S10, .f32⟩ : BufTy).Contents (Elt F)),
    binary main_v30 main_v31 main_v32 (mulf : (⟨S10, .f32⟩ : BufTy).Contents (Elt F) → (⟨S10, .f32⟩ : BufTy).Contents (Elt F) → (⟨S10, .f32⟩ : BufTy).Contents (Elt F)),
    binary main_v28 main_v32 main_v33 (Host.divf : (⟨S10, .f32⟩ : BufTy).Contents (Elt F) → (⟨S10, .f32⟩ : BufTy).Contents (Elt F) → (⟨S10, .f32⟩ : BufTy).Contents (Elt F)),
    nullary main_cst_9 (constant S_ .f32 0x00000000#32),
    unary main_cst_9 main_v34 (broadcastInDim S10 ![] bcast_S_S10 : (⟨S_, .f32⟩ : BufTy).Contents (Elt F) → (⟨S10, .f32⟩ : BufTy).Contents (Elt F)),
    binary main_v4 main_v34 main_v35 (cmpf .ogt : (⟨S10, .f32⟩ : BufTy).Contents (Elt F) → (⟨S10, .f32⟩ : BufTy).Contents (Elt F) → (⟨S10, .i1⟩ : BufTy).Contents (Elt F)) ]

/-- Twenty-two operations: the third cleaning (main_v36), the choice of it or zero by occurrence (main_v37), and the sum over the ten labels (main_v38). -/
abbrev opsE : List (HloOp τ sig (Elt F)) :=
  [ TRef.binary (.of main_v33) (.of main_v33) main_call2.v0 (cmpf .une),
    TRef.nullary main_call2.cst (constant S_ .f32 0x00000000#32),
    TRef.unary main_call2.cst main_call2.call0.v0 (broadcastInDim S10 ![] bcast_S_S10),
    TRef.ternary main_call2.v0 main_call2.call0.v0 (.of main_v33) main_call2.call0.v1 select,
    TRef.nullary main_call2.cst_0 (constant S_ .f32 0x7F800000#32),
    TRef.unary main_call2.cst_0 main_call2.v2 (broadcastInDim S10 ![] bcast_S_S10),
    TRef.binary main_call2.call0.v1 main_call2.v2 main_call2.v3 (cmpf .oeq),
    TRef.nullary main_call2.cst_1 (constant S_ .f32 0x7F7FFFFF#32),
    TRef.unary main_call2.cst_1 main_call2.call1.v0 (broadcastInDim S10 ![] bcast_S_S10),
    TRef.ternary main_call2.v3 main_call2.call1.v0 main_call2.call0.v1 main_call2.call1.v1 select,
    TRef.nullary main_call2.cst_2 (constant S_ .f32 0xFF800000#32),
    TRef.unary main_call2.cst_2 main_call2.v5 (broadcastInDim S10 ![] bcast_S_S10),
    TRef.binary main_call2.call1.v1 main_call2.v5 main_call2.v6 (cmpf .oeq),
    TRef.nullary main_call2.cst_3 (constant S_ .f32 0xFF7FFFFF#32),
    TRef.unary main_call2.cst_3 main_call2.call2.v0 (broadcastInDim S10 ![] bcast_S_S10),
    TRef.ternary main_call2.v6 main_call2.call2.v0 main_call2.call1.v1 main_call2.call2.v1 select,
    nullary main_cst_10 (constant S_ .f32 0x00000000#32),
    TRef.unary (.of main_cst_10) main_call3.v0 id,
    TRef.unary main_call3.v0 main_call3.v1 (broadcastInDim S10 ![] bcast_S_S10),
    TRef.ternary (.of main_v35) (.of main_v36) main_call3.v1 main_call3.v2 select,
    nullary main_cst_11 (constant S_ .f32 0x00000000#32),
    binary main_v37 main_cst_11 main_v38 ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F)) ]

/-- The whole line: the five lists one after the other. -/
abbrev ops : List (HloOp τ sig (Elt F)) := opsA ++ (opsB ++ (opsC ++ (opsD ++ opsE)))

-- sequencing is re-associated once per statement of the line, a hundred in all
set_option maxRecDepth 8192 in
set_option maxHeartbeats 1000000 in
/-- @main is that line: the functions unfolded at their calls and the records at their fields, both sides
    are one chain of steps once sequencing is re-associated. -/
theorem main_eq (c : Dev nD) : main (F := F) c = seq ops := by
  simp only [main, fn_nan_to_num.body, fn_nan_to_num_1.body, fn_nan_to_num_3.body, fn_where.body, fn_where_0.body,
    fn_where_2.body, fn_where_4.body, fn_where_5.body, ops, opsA, opsB, opsC, opsD, opsE, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub ..⟩

theorem opsA_fresh : ∀ op ∈ (opsA : List (HloOp τ sig (Elt F))), op.fresh = ∅ := by
  intro _ h; (repeat (cases h with | head => rfl | tail _ h => ?_)); exact nomatch h

theorem opsB_sub : (opsB : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem opsB_fresh : ∀ op ∈ (opsB : List (HloOp τ sig (Elt F))), op.fresh = ∅ := by
  intro _ h; (repeat (cases h with | head => rfl | tail _ h => ?_)); exact nomatch h

theorem opsC_sub : (opsC : List (HloOp τ sig (Elt F))).Forall fun op => op.bufs ⊆ tcRefs τ sig :=
  ⟨binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub ..⟩

theorem opsC_fresh : ∀ op ∈ (opsC : List (HloOp τ sig (Elt F))), op.fresh = ∅ := by
  intro _ h; (repeat (cases h with | head => rfl | tail _ h => ?_)); exact nomatch h

theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩

theorem opsD_fresh : ∀ op ∈ (opsD : List (HloOp τ sig (Elt F))), op.fresh = ∅ := by
  intro _ h; (repeat (cases h with | head => rfl | tail _ h => ?_)); exact nomatch h

theorem opsE_sub : (opsE : List (HloOp τ sig (Elt F))).Forall fun op => op.bufs ⊆ tcRefs τ sig :=
  ⟨binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., unary_bufs_sub .., ternary_bufs_sub .., nullary_bufs_sub .., binary_bufs_sub ..⟩

theorem opsE_fresh : ∀ op ∈ (opsE : List (HloOp τ sig (Elt F))), op.fresh = ∅ := by
  intro _ h; (repeat (cases h with | head => rfl | tail _ h => ?_)); exact nomatch h

/-- Every operation of the line touches TensorCore references only. -/
theorem ops_sub : (ops : List (HloOp τ sig (Elt F))).Forall fun op => op.bufs ⊆ tcRefs τ sig :=
  List.forall_append.2 ⟨opsA_sub, List.forall_append.2 ⟨opsB_sub, List.forall_append.2 ⟨opsC_sub,
    List.forall_append.2 ⟨opsD_sub, opsE_sub⟩⟩⟩⟩

/-- No operation of the line allocates a buffer: each determines its results. -/
theorem ops_fresh : ∀ op ∈ (ops : List (HloOp τ sig (Elt F))), op.fresh = ∅ := by
  intro op h
  rcases List.mem_append.1 h with h | h
  · exact opsA_fresh op h
  rcases List.mem_append.1 h with h | h
  · exact opsB_fresh op h
  rcases List.mem_append.1 h with h | h
  · exact opsC_fresh op h
  rcases List.mem_append.1 h with h | h
  · exact opsD_fresh op h
  · exact opsE_fresh op h

end Cert.ReferenceIdeal.Hand

end
-- ==== Proof.Ref.Run.lean ====
import proofs.«411193_j75273596830476_3_alg».proof.Proof.Ref.Val
import proofs.«411193_j75273596830476_3_alg».proof.Proof.Ref.Ops
import Idealize.ShloMosaic.Lib.Pipeline.Frame

/-!
# The reference's run

Every weakly fair execution of the reference terminates, with its result buffer at refVal of the two
arguments' launch contents and the arguments unchanged.

The line of operations is read back list by list.  For each of the five lists, the contents it
leaves at the buffers a later list (or the result) reads are stated as a function of the contents it
starts from: the fold of the operations' results unrolled, each operation's result deciding whether
the buffer read is the one it writes.  The scatter-adds, the gather and the sums are kept folded
meanwhile (the equations never look inside them).  The five readings compose to refVal.
-/

noncomputable section

namespace Cert.ReferenceIdeal.Hand

open Cert.ReferenceIdeal Facts₀ Facts
open Idealize.ShloMosaic Idealize.ShloMosaic.TcCoe Idealize.SL.Sem Idealize.ShloMosaic.StableHlo

variable {F : FTy → Type} [FloatOps F] [Facts]

attribute [local irreducible] Host.scatterAdd Host.gather Host.reduceAdd

/-! ## First list: the samples cleaned -/

theorem A_v0 (W : Valuation τ sig (Elt F)) :
    after opsA W (main_v0 : DevRef τ sig) = nan3 (W (main_arg0 : DevRef τ sig)) := by
  simp only [after_cons, after_nil]
  rfl

theorem A_arg0 (W : Valuation τ sig (Elt F)) :
    after opsA W (main_arg0 : DevRef τ sig) = W (main_arg0 : DevRef τ sig) := by
  simp only [after_cons, after_nil]
  rfl

theorem A_arg1 (W : Valuation τ sig (Elt F)) :
    after opsA W (main_arg1 : DevRef τ sig) = W (main_arg1 : DevRef τ sig) := by
  simp only [after_cons, after_nil]
  rfl

/-! ## Second list: counts, sums, quotients -/

theorem B_v4 (W : Valuation τ sig (Elt F)) :
    after opsB W (main_v4 : DevRef τ sig) = rCounts (W (main_arg1 : DevRef τ sig)) := by
  simp only [after_cons, after_nil]
  rfl

theorem B_v12 (W : Valuation τ sig (Elt F)) :
    after opsB W (main_v12 : DevRef τ sig)
      = Host.divf
          (Host.scatterAdd scatter_S10x20x256_S8192x1_S8192x20x256_12_0_0_1
            (broadcastInDim S10x20x256 ![] bcast_S_S10x20x256 (constant (F := F) S_ .f32 0x00000000#32))
            (labCol (W (main_arg1 : DevRef τ sig)))
            (W (main_v0 : DevRef τ sig)))
          (broadcastInDim S10x20x256 ![0, 1, 2] bcast_S10x1x1_S10x20x256_0_1_2
            (broadcastInDim S10x1x1 ![0] bcast_S10_S10x1x1_0 (rDen (F := F) (W (main_arg1 : DevRef τ sig))))) := by
  simp only [after_cons, after_nil]
  rfl

theorem B_v0 (W : Valuation τ sig (Elt F)) :
    after opsB W (main_v0 : DevRef τ sig) = W (main_v0 : DevRef τ sig) := by
  simp only [after_cons, after_nil]
  rfl

theorem B_arg0 (W : Valuation τ sig (Elt F)) :
    after opsB W (main_arg0 : DevRef τ sig) = W (main_arg0 : DevRef τ sig) := by
  simp only [after_cons, after_nil]
  rfl

theorem B_arg1 (W : Valuation τ sig (Elt F)) :
    after opsB W (main_arg1 : DevRef τ sig) = W (main_arg1 : DevRef τ sig) := by
  simp only [after_cons, after_nil]
  rfl

/-! ## Third list: the quotients cleaned -/

theorem C_v13 (W : Valuation τ sig (Elt F)) :
    after opsC W (main_v13 : DevRef τ sig) = nanK (W (main_v12 : DevRef τ sig)) := by
  simp only [after_cons, after_nil]
  rfl

theorem C_v0 (W : Valuation τ sig (Elt F)) :
    after opsC W (main_v0 : DevRef τ sig) = W (main_v0 : DevRef τ sig) := by
  simp only [after_cons, after_nil]
  rfl

theorem C_v4 (W : Valuation τ sig (Elt F)) :
    after opsC W (main_v4 : DevRef τ sig) = W (main_v4 : DevRef τ sig) := by
  simp only [after_cons, after_nil]
  rfl

theorem C_arg0 (W : Valuation τ sig (Elt F)) :
    after opsC W (main_arg0 : DevRef τ sig) = W (main_arg0 : DevRef τ sig) := by
  simp only [after_cons, after_nil]
  rfl

theorem C_arg1 (W : Valuation τ sig (Elt F)) :
    after opsC W (main_arg1 : DevRef τ sig) = W (main_arg1 : DevRef τ sig) := by
  simp only [after_cons, after_nil]
  rfl

/-! ## Fourth list: squared distances, their sums per label, the quotient; which labels occur -/

theorem D_v33 (W : Valuation τ sig (Elt F)) :
    after opsD W (main_v33 : DevRef τ sig)
      = Host.divf
          (Host.scatterAdd scatter_S10_S8192x1_S8192_n_0_0_1
            (broadcastInDim S10 ![] bcast_S_S10 (constant (F := F) S_ .f32 0x00000000#32))
            (labCol (W (main_arg1 : DevRef τ sig)))
            (Host.reduceAdd
              (mulf
                (subf
                  (addf (W (main_v0 : DevRef τ sig))
                    (broadcastInDim S8192x20x256 ![] bcast_S_S8192x20x256 (constant (F := F) S_ .f32 0x322BCC77#32)))
                  (Host.gather gather_S10x20x256_S8192x1_S8192x20x256_12_0_n_n_0_1_120256 (W (main_v13 : DevRef τ sig))
                    (broadcastInDim S8192x1 ![0] bcast_S8192_S8192x1_0 (labNorm (W (main_arg1 : DevRef τ sig))))))
                (subf
                  (addf (W (main_v0 : DevRef τ sig))
                    (broadcastInDim S8192x20x256 ![] bcast_S_S8192x20x256 (constant (F := F) S_ .f32 0x322BCC77#32)))
                  (Host.gather gather_S10x20x256_S8192x1_S8192x20x256_12_0_n_n_0_1_120256 (W (main_v13 : DevRef τ sig))
                    (broadcastInDim S8192x1 ![0] bcast_S8192_S8192x1_0 (labNorm (W (main_arg1 : DevRef τ sig)))))))
              (constant (F := F) S_ .f32 0x00000000#32) reducesTo_S8192x20x256_S8192_d1_2 h_S_))
          (mulf
            (maximumf (W (main_v4 : DevRef τ sig))
              (broadcastInDim S10 ![] bcast_S_S10 (constant (F := F) S_ .f32 0x3F800000#32)))
            (broadcastInDim S10 ![] bcast_S_S10 (constant (F := F) S_ .f32 0x45A00000#32))) := by
  simp only [after_cons, after_nil]
  rfl

theorem D_v35 (W : Valuation τ sig (Elt F)) :
    after opsD W (main_v35 : DevRef τ sig)
      = cmpf .ogt (W (main_v4 : DevRef τ sig))
          (broadcastInDim S10 ![] bcast_S_S10 (constant (F := F) S_ .f32 0x00000000#32)) := by
  simp only [after_cons, after_nil]
  rfl

theorem D_arg0 (W : Valuation τ sig (Elt F)) :
    after opsD W (main_arg0 : DevRef τ sig) = W (main_arg0 : DevRef τ sig) := by
  simp only [after_cons, after_nil]
  rfl

theorem D_arg1 (W : Valuation τ sig (Elt F)) :
    after opsD W (main_arg1 : DevRef τ sig) = W (main_arg1 : DevRef τ sig) := by
  simp only [after_cons, after_nil]
  rfl

/-! ## Fifth list: the quotient cleaned, kept where the label occurs, summed -/

theorem E_v38 (W : Valuation τ sig (Elt F)) :
    after opsE W (main_v38 : DevRef τ sig)
      = Host.reduceAdd
          (select (W (main_v35 : DevRef τ sig)) (nan1 (W (main_v33 : DevRef τ sig)))
            (broadcastInDim S10 ![] bcast_S_S10 (id (constant (F := F) S_ .f32 0x00000000#32))))
          (constant (F := F) S_ .f32 0x00000000#32) reducesTo_S10_S_d0 h_S_ := by
  simp only [after_cons, after_nil]
  rfl

theorem E_arg0 (W : Valuation τ sig (Elt F)) :
    after opsE W (main_arg0 : DevRef τ sig) = W (main_arg0 : DevRef τ sig) := by
  simp only [after_cons, after_nil]
  rfl

theorem E_arg1 (W : Valuation τ sig (Elt F)) :
    after opsE W (main_arg1 : DevRef τ sig) = W (main_arg1 : DevRef τ sig) := by
  simp only [after_cons, after_nil]
  rfl

/-! ## The whole line -/

/-- The result buffer after the whole line: the five readings composed are refVal of the arguments. -/
theorem val_eq (V : Valuation τ sig (Elt F)) :
    after ops V (main_v38 : DevRef τ sig)
      = refVal (V (main_arg0 : DevRef τ sig)) (V (main_arg1 : DevRef τ sig)) := by
  simp only [ops, StableHlo.after_append]
  rw [E_v38, D_v33, D_v35, C_v13, C_v0, C_v4, C_arg1, B_v12, B_v4, B_v0, B_arg1, A_v0, A_arg1]
  rfl

theorem arg0_eq (V : Valuation τ sig (Elt F)) :
    after ops V (main_arg0 : DevRef τ sig) = V (main_arg0 : DevRef τ sig) := by
  simp only [ops, StableHlo.after_append]
  rw [E_arg0, D_arg0, C_arg0, B_arg0, A_arg0]

theorem arg1_eq (V : Valuation τ sig (Elt F)) :
    after ops V (main_arg1 : DevRef τ sig) = V (main_arg1 : DevRef τ sig) := by
  simp only [ops, StableHlo.after_append]
  rw [E_arg1, D_arg1, C_arg1, B_arg1, A_arg1]

/-- On the device, for any float values, from any memory with zero counters: every weakly fair execution of
    @main terminates with the result at refVal of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
          = refVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v38).trans (val_eq _), (h c main_arg0).trans (arg0_eq _),
      (h c main_arg1).trans (arg1_eq _)⟩)
    (run_seq scopedRefs_eq scopedSems_eq defs main (fun _ => ops) main_eq (fun _ => ops_sub) m ρ (fun _ => ops_fresh))

end Cert.ReferenceIdeal.Hand

end
-- ==== Proof.Ref.RealBasics.lean ====
/-
  Extended reals that are real numbers: the facts the reference's value reading rests on.

  The cleaning nan_to_num, read at one element, is three selects in a row: zero where the element differs from
  itself, the largest finite value where it is +∞, its negation where it is -∞.  A real number differs from neither
  itself nor an infinity is it, so the cleaning returns it unchanged.  Sums, products, maxima and quotients (by a
  divisor that is not zero) of real numbers are the real numbers' sums, products, maxima and quotients; and the
  four constants the reference uses are the reals 0, 1, 5120 and ε.
-/
import Idealize.ShloMosaic.PureOps.Ideal
import Idealize.ShloMosaic.PureOps.Ideal.Laws
import Idealize.ShloMosaic.Lib.ValueIdx
import Idealize.ShloMosaic.Lib.IdealHost
import Mathlib.Data.EReal.Basic
import Mathlib.Data.EReal.Operations
import Mathlib.Algebra.BigOperators.Group.Finset.Basic
import Mathlib.Tactic.NormNum

noncomputable section

namespace Cert.ReferenceIdeal.Hand

open Idealize.ShloMosaic

/-- nan_to_num at one element: zero where the element is not itself, then the largest finite float where the value
    is +∞, then the most negative finite float where it is -∞. -/
def nanS (a : EReal) : EReal :=
  let v1 : EReal := Scalar.select (Ideal.cmp .une a a) (Ideal.ofBits .f32 0x00000000#32) a
  let v4 : EReal := Scalar.select (Ideal.cmp .oeq v1 (Ideal.ofBits .f32 0x7F800000#32)) (Ideal.ofBits .f32 0x7F7FFFFF#32) v1
  Scalar.select (Ideal.cmp .oeq v4 (Ideal.ofBits .f32 0xFF800000#32)) (Ideal.ofBits .f32 0xFF7FFFFF#32) v4

/-- The pattern 0x7F800000 is +∞. -/
theorem ofBits_pinf : Ideal.ofBits .f32 0x7F800000#32 = ⊤ := by simp [Ideal.ofBits, Ideal.ieee]
/-- The pattern 0xFF800000 is -∞. -/
theorem ofBits_ninf : Ideal.ofBits .f32 0xFF800000#32 = ⊥ := by simp [Ideal.ofBits, Ideal.ieee]
/-- The pattern 0x45A00000 is 5120 = 1.25 · 2¹². -/
theorem ofBits_5120 : Ideal.ofBits .f32 0x45A00000#32 = ((5120 : ℝ) : EReal) := by
  simp [Ideal.ofBits, Ideal.ieee, -EReal.coe_mul]; norm_num
/-- The pattern 0x3F800000 is the real number one. -/
theorem ofBits_one : Ideal.ofBits .f32 0x3F800000#32 = ((1 : ℝ) : EReal) := by
  rw [Ideal.ofBits_one_f32]; norm_cast
/-- The pattern of zero is the real number zero. -/
theorem ofBits_zero : Ideal.ofBits .f32 0x00000000#32 = ((0 : ℝ) : EReal) := by
  rw [Ideal.ofBits_zero_f32]; norm_cast

/-- A real number passes the cleaning unchanged. -/
theorem nanS_coe (r : ℝ) : nanS (r : EReal) = (r : EReal) := by
  have h1 : Ideal.cmp .une (r : EReal) (r : EReal) = 0#1 := by simp [Ideal.cmp]
  have h2 : Ideal.cmp .oeq (r : EReal) ⊤ = 0#1 := by simp [Ideal.cmp]
  have h3 : Ideal.cmp .oeq (r : EReal) ⊥ = 0#1 := by simp [Ideal.cmp]
  unfold nanS
  simp only [h1, ValueIdx.select_zero, ofBits_pinf, h2, ofBits_ninf, h3]

/-- A finite sum of real numbers, read in the extended reals, is the sum of the numbers read there. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The quotient of two real numbers, the divisor not zero, is the real quotient. -/
theorem div_coe_coe (x y : ℝ) (hy : y ≠ 0) : Ideal.div (x : EReal) (y : EReal) = ((x / y : ℝ) : EReal) := by
  rw [Ideal.div_coe hy, ← EReal.coe_mul, mul_one_div]

/-- The maximum of two real numbers is the real maximum. -/
theorem max_coe_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The comparison "greater than zero" of a real number is the real comparison. -/
theorem cmp_ogt_coe_zero (x : ℝ) : Ideal.cmp .ogt (x : EReal) ((0 : ℝ) : EReal) = if 0 < x then 1#1 else 0#1 := by
  unfold Ideal.cmp
  by_cases h : 0 < x
  · simp [h]
  · simp [h]

end Cert.ReferenceIdeal.Hand

end
-- ==== Proof.LibScatterAddBins.lean ====
/-
  An accumulating float scatter of N scalars into a vector of K bins, read at a bin, over the extended reals.

  `x.at[idx].add(upd)` of a vector `x : [K]` with one index per update (`idx : [N, 1]`, `upd : [N]`; also what
  `jax.ops.segment_sum` lowers to) prints as a scatter whose one operand axis is inserted and indexed by the start
  index. At the ideal instance the result at bin b is the operand's element plus the sum of the updates whose index
  word, read as a signed integer, is b; an update whose index is negative or at least K lands nowhere.

  The steps, each a lemma of its own: on the one operand axis the start of update j is the signed index word of row j
  (`binsDims_start`) and the window coordinate is 0, the axis being inserted (`binsDims_window`); so update j lands
  on bin b exactly when that signed word equals b (`binsDims_resultIdx?_eq_some_iff`); and the sum over the updates
  landing on b, taken over the indices of the update vector, is re-indexed over the numbers below N (`idx1Equiv`).
-/
import Idealize.ShloMosaic.PureOps.Ideal
import Idealize.ShloMosaic.Lib.ValueIdx

noncomputable section

namespace Idealize.ShloMosaic.ScatterAddBins

open Idealize.ShloMosaic Idealize.ShloMosaic.ValueIdx

/-- The dimension numbers of a scatter of N scalars into K bins: operand `[K]`, indices `[N, 1]`, updates `[N]`. -/
abbrev binsDims (K N : Nat) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

/-- The start of update `j` on the one operand axis is the index word of row `j`, read as a signed integer: the
    start index's only component sits at `[j, 0]` of the scatter indices. -/
theorem binsDims_start {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (a : Fin 1) :
    (binsDims K N wf).start j idx a = (idx (ix2 (j 0) (0 : Fin 1))).toInt := by
  obtain rfl : a = 0 := Subsingleton.elim _ _
  unfold ScatterDims.start
  rw [dif_pos (show (0 : Fin 1) ∈ (binsDims K N wf).scatterDimsToOperandDims from List.mem_singleton.mpr rfl)]
  have hsi : (binsDims K N wf).siIdx j ⟨List.idxOf (0 : Fin 1) (binsDims K N wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The one operand axis is an inserted window axis, so every update's window coordinate on it is `0`. -/
theorem binsDims_window {K N : Nat} (wf : ScatterDims.WF ⟨1, ![K]⟩ ⟨2, ![N, 1]⟩ ⟨1, ![N]⟩ [] [0] [0] 1)
    (j : (⟨1, ![N]⟩ : Shape).Idx) (a : Fin 1) : (binsDims K N wf).window j a = 0 := by
  obtain rfl : a = 0 := Subsingleton.elim _ _
  unfold ScatterDims.window
  rw [dif_neg]
  intro h
  have h2 := (List.mem_filter.1 h).2
  simp at h2

/-- Update `j` lands on bin `b` exactly when its index word, read as a signed integer, is `b`: a word that is
    negative or at least `K` names no bin, and the update is dropped. -/
theorem binsDims_resultIdx?_eq_some_iff {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (b : Fin K) :
    (binsDims K N wf).resultIdx? j idx = some (ix1 b) ↔ (idx (ix2 (j 0) (0 : Fin 1))).toInt = (b.val : Int) := by
  have hb : b.val < K := b.isLt
  unfold ScatterDims.resultIdx?
  split_ifs with h
  · rw [Option.some.injEq]
    constructor
    · intro e
      have e0 := congrArg (fun f => (f 0).val) e
      simp only [binsDims_start, binsDims_window] at e0
      have h0 := h 0
      simp only [binsDims_start, binsDims_window] at h0
      change ((idx (ix2 (j 0) (0 : Fin 1))).toInt + ((0 : Nat) : Int)).toNat = b.val at e0
      omega
    · intro e
      funext a
      obtain rfl : a = 0 := Subsingleton.elim _ _
      refine Fin.ext ?_
      simp only [binsDims_start, binsDims_window]
      change ((idx (ix2 (j 0) (0 : Fin 1))).toInt + ((0 : Nat) : Int)).toNat = b.val
      omega
  · constructor
    · intro e; exact absurd e (by simp)
    · intro e
      exfalso
      apply h
      intro a
      simp only [binsDims_start, binsDims_window]
      obtain rfl : a = 0 := Subsingleton.elim _ _
      change 0 ≤ (idx (ix2 (j 0) (0 : Fin 1))).toInt + ((0 : Nat) : Int) ∧
        (idx (ix2 (j 0) (0 : Fin 1))).toInt + ((0 : Nat) : Int) < (K : Int)
      omega

/-- The indices of a vector of extent `N` are the numbers below `N`. -/
def idx1Equiv (N : Nat) : Fin N ≃ (⟨1, ![N]⟩ : Shape).Idx where
  toFun := fun i => ix1 i
  invFun := fun j => j 0
  left_inv := fun _ => rfl
  right_inv := fun j => (eq_ix1 j).symm

/-- THE BINNED SUM AT BIN `b`: the operand's element plus the sum of the updates whose index word is `b`. -/
theorem scatterAdd_bins_apply {K N w : Nat} (wf : ScatterDims.WF ⟨1, ![K]⟩ ⟨2, ![N, 1]⟩ ⟨1, ![N]⟩ [] [0] [0] 1)
    (x : (⟨1, ![K]⟩ : Shape).Idx → EReal) (idx : IVec ⟨2, ![N, 1]⟩ w) (upd : (⟨1, ![N]⟩ : Shape).Idx → EReal) (b : Fin K) :
    Ideal.hostScatterAdd (binsDims K N wf) x idx upd (ix1 b)
      = x (ix1 b) + ∑ i : Fin N, if (idx (ix2 i (0 : Fin 1))).toInt = (b.val : Int) then upd (ix1 i) else 0 := by
  unfold Ideal.hostScatterAdd
  refine congrArg (x (ix1 b) + ·) ?_
  rw [Finset.sum_filter]
  refine (Fintype.sum_equiv (idx1Equiv N) _ _ fun i => ?_).symm
  exact (if_congr (binsDims_resultIdx?_eq_some_iff wf idx (ix1 i) b) rfl rfl).symm

end Idealize.ShloMosaic.ScatterAddBins

end
-- ==== Proof.LibScatterAddRows3.lean ====
/-
  An accumulating float scatter of N whole two-axis rows into a three-axis table of K rows, read at an element, over
  the extended reals.

  `x.at[idx].add(upd)` of a table `x : [K, A, B]` with one row index per update (`idx : [N, 1]`, `upd : [N, A, B]`; also what
  `jax.ops.segment_sum` of a three-axis array lowers to) prints as a scatter whose first operand axis is inserted and
  indexed by the start index, and whose other two operand axes are the update's two window axes. At the ideal instance
  the result at `(b, a, c)` is the operand's element plus the sum over the updates `i` whose index word, read as a signed
  integer, is `b`, of the update's element `(i, a, c)`; an update whose index is negative or at least K lands nowhere.

  The steps, each a lemma of its own. On the first operand axis the start of update element `(i, a', c')` is the signed
  index word of row `i` (`rows3Dims_start0`) and the window coordinate is 0, the axis being inserted
  (`rows3Dims_window0`); on the other two axes the start is 0, the start index naming the first axis only
  (`rows3Dims_start1`, `rows3Dims_start2`), and the window coordinates are `a'` and `c'` (`rows3Dims_window1`,
  `rows3Dims_window2`). So update element `(i, a', c')` lands on `(b, a, c)` exactly when the signed word of row `i` equals
  `b`, `a' = a` and `c' = c` (`rows3Dims_resultIdx?_eq_some_iff`). The sum over the update elements landing on `(b, a, c)`,
  written as a triple sum over the coordinates (`sum_idx3`), then keeps one term in each of the two inner sums, and what
  is left is a sum over the rows `i` alone.
-/
import Idealize.ShloMosaic.PureOps.Ideal
import Idealize.ShloMosaic.Lib.ValueIdx

noncomputable section

open scoped BigOperators

namespace Idealize.ShloMosaic.ScatterAddRows3

open Idealize.ShloMosaic Idealize.ShloMosaic.ValueIdx

/-- The dimension numbers of a scatter of N two-axis rows into a table of K rows: operand `[K, A, B]`, indices
    `[N, 1]`, updates `[N, A, B]`. -/
abbrev rows3Dims (K A B N : Nat)
    (wf : ScatterDims.WF ⟨3, ![K, A, B]⟩ ⟨2, ![N, 1]⟩ ⟨3, ![N, A, B]⟩ [1, 2] [0] [0] 1) :
    ScatterDims ⟨3, ![K, A, B]⟩ ⟨2, ![N, 1]⟩ ⟨3, ![N, A, B]⟩ where
  updateWindowDims := [1, 2]
  insertedWindowDims := [0]
  scatterDimsToOperandDims := [0]
  indexVectorDim := 1
  wf := wf

/-- A property of the three axes holds of every axis once it holds of each. -/
theorem forall_axis3 {P : Fin 3 → Prop} (h0 : P 0) (h1 : P 1) (h2 : P 2) : ∀ a, P a := by
  intro a
  match a with
  | ⟨0, _⟩ => exact h0
  | ⟨1, _⟩ => exact h1
  | ⟨2, _⟩ => exact h2

/-- Two three-axis indices with the same three coordinates are equal. -/
theorem idx3_ext {n0 n1 n2 : Nat} {f g : (⟨3, ![n0, n1, n2]⟩ : Shape).Idx}
    (h0 : f 0 = g 0) (h1 : f 1 = g 1) (h2 : f 2 = g 2) : f = g := by
  rw [eq_ix3 f, eq_ix3 g, h0, h1, h2]

/-- The operand's axes that are not inserted are the second and the third. -/
theorem rows3Dims_sKept {K A B N : Nat}
    (wf : ScatterDims.WF ⟨3, ![K, A, B]⟩ ⟨2, ![N, 1]⟩ ⟨3, ![N, A, B]⟩ [1, 2] [0] [0] 1) :
    (rows3Dims K A B N wf).sKept = [1, 2] := rfl

/-- The start of an update element on the first operand axis is the index word of its row, read as a signed integer:
    the start index's only component sits at `[j 0, 0]` of the scatter indices. -/
theorem rows3Dims_start0 {K A B N w : Nat}
    (wf : ScatterDims.WF ⟨3, ![K, A, B]⟩ ⟨2, ![N, 1]⟩ ⟨3, ![N, A, B]⟩ [1, 2] [0] [0] 1)
    (idx : IVec ⟨2, ![N, 1]⟩ w) (j : (⟨3, ![N, A, B]⟩ : Shape).Idx) :
    (rows3Dims K A B N wf).start j idx 0 = (idx (ix2 (j 0) (0 : Fin 1))).toInt := by
  unfold ScatterDims.start
  rw [dif_pos (show (0 : Fin 3) ∈ (rows3Dims K A B N wf).scatterDimsToOperandDims from List.mem_singleton.mpr rfl)]
  have hsi : (rows3Dims K A B N wf).siIdx j ⟨List.idxOf (0 : Fin 3) (rows3Dims K A B N wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The start index names the first operand axis only, so on the second axis every start is `0`. -/
theorem rows3Dims_start1 {K A B N w : Nat}
    (wf : ScatterDims.WF ⟨3, ![K, A, B]⟩ ⟨2, ![N, 1]⟩ ⟨3, ![N, A, B]⟩ [1, 2] [0] [0] 1)
    (idx : IVec ⟨2, ![N, 1]⟩ w) (j : (⟨3, ![N, A, B]⟩ : Shape).Idx) :
    (rows3Dims K A B N wf).start j idx 1 = 0 := by
  unfold ScatterDims.start
  rw [dif_neg (show ¬ (1 : Fin 3) ∈ (rows3Dims K A B N wf).scatterDimsToOperandDims from
    fun h => absurd (List.mem_singleton.mp h) (by decide : ¬ (1 : Fin 3) = 0))]

/-- Likewise on the third axis. -/
theorem rows3Dims_start2 {K A B N w : Nat}
    (wf : ScatterDims.WF ⟨3, ![K, A, B]⟩ ⟨2, ![N, 1]⟩ ⟨3, ![N, A, B]⟩ [1, 2] [0] [0] 1)
    (idx : IVec ⟨2, ![N, 1]⟩ w) (j : (⟨3, ![N, A, B]⟩ : Shape).Idx) :
    (rows3Dims K A B N wf).start j idx 2 = 0 := by
  unfold ScatterDims.start
  rw [dif_neg (show ¬ (2 : Fin 3) ∈ (rows3Dims K A B N wf).scatterDimsToOperandDims from
    fun h => absurd (List.mem_singleton.mp h) (by decide : ¬ (2 : Fin 3) = 0))]

/-- The first operand axis is an inserted window axis, so every update element's window coordinate on it is `0`. -/
theorem rows3Dims_window0 {K A B N : Nat}
    (wf : ScatterDims.WF ⟨3, ![K, A, B]⟩ ⟨2, ![N, 1]⟩ ⟨3, ![N, A, B]⟩ [1, 2] [0] [0] 1)
    (j : (⟨3, ![N, A, B]⟩ : Shape).Idx) : (rows3Dims K A B N wf).window j 0 = 0 := by
  unfold ScatterDims.window
  rw [dif_neg]
  rw [rows3Dims_sKept]
  exact (by decide : ¬ (0 : Fin 3) ∈ [1, 2])

/-- The second operand axis is the first of the kept ones, so the window coordinate on it is the update element's
    coordinate on its first window axis, the second. -/
theorem rows3Dims_window1 {K A B N : Nat}
    (wf : ScatterDims.WF ⟨3, ![K, A, B]⟩ ⟨2, ![N, 1]⟩ ⟨3, ![N, A, B]⟩ [1, 2] [0] [0] 1)
    (j : (⟨3, ![N, A, B]⟩ : Shape).Idx) : (rows3Dims K A B N wf).window j 1 = (j 1).val := by
  unfold ScatterDims.window
  rw [dif_pos (show (1 : Fin 3) ∈ (rows3Dims K A B N wf).sKept by
    rw [rows3Dims_sKept]; exact (by decide : (1 : Fin 3) ∈ [1, 2]))]
  rfl

/-- The third operand axis is the second of the kept ones, so the window coordinate on it is the update element's
    coordinate on its second window axis, the third. -/
theorem rows3Dims_window2 {K A B N : Nat}
    (wf : ScatterDims.WF ⟨3, ![K, A, B]⟩ ⟨2, ![N, 1]⟩ ⟨3, ![N, A, B]⟩ [1, 2] [0] [0] 1)
    (j : (⟨3, ![N, A, B]⟩ : Shape).Idx) : (rows3Dims K A B N wf).window j 2 = (j 2).val := by
  unfold ScatterDims.window
  rw [dif_pos (show (2 : Fin 3) ∈ (rows3Dims K A B N wf).sKept by
    rw [rows3Dims_sKept]; exact (by decide : (2 : Fin 3) ∈ [1, 2]))]
  rfl

/-- Update element `(i, a', c')` lands on `(b, a, c)` exactly when the index word of row `i`, read as a signed integer,
    is `b`, and `a' = a`, `c' = c`: a word that is negative or at least `K` names no row of the operand, and the update
    is dropped. -/
theorem rows3Dims_resultIdx?_eq_some_iff {K A B N w : Nat}
    (wf : ScatterDims.WF ⟨3, ![K, A, B]⟩ ⟨2, ![N, 1]⟩ ⟨3, ![N, A, B]⟩ [1, 2] [0] [0] 1)
    (idx : IVec ⟨2, ![N, 1]⟩ w) (i : Fin N) (a' : Fin A) (c' : Fin B) (b : Fin K) (a : Fin A) (c : Fin B) :
    (rows3Dims K A B N wf).resultIdx? (ix3 i a' c') idx = some (ix3 b a c)
      ↔ (idx (ix2 i (0 : Fin 1))).toInt = (b.val : Int) ∧ a' = a ∧ c' = c := by
  have hb : b.val < K := b.isLt
  have ha' : a'.val < A := a'.isLt
  have hc' : c'.val < B := c'.isLt
  have p0 : (rows3Dims K A B N wf).start (ix3 i a' c') idx 0 + ((rows3Dims K A B N wf).window (ix3 i a' c') 0 : Int)
      = (idx (ix2 i (0 : Fin 1))).toInt := by
    rw [rows3Dims_start0, rows3Dims_window0]; exact Int.add_zero _
  have p1 : (rows3Dims K A B N wf).start (ix3 i a' c') idx 1 + ((rows3Dims K A B N wf).window (ix3 i a' c') 1 : Int)
      = (a'.val : Int) := by
    rw [rows3Dims_start1, rows3Dims_window1]; exact Int.zero_add _
  have p2 : (rows3Dims K A B N wf).start (ix3 i a' c') idx 2 + ((rows3Dims K A B N wf).window (ix3 i a' c') 2 : Int)
      = (c'.val : Int) := by
    rw [rows3Dims_start2, rows3Dims_window2]; exact Int.zero_add _
  unfold ScatterDims.resultIdx?
  split_ifs with h
  · rw [Option.some.injEq]
    constructor
    · intro e
      have e0 := congrArg (fun f => (f 0).val) e
      have e1 := congrArg (fun f => (f 1).val) e
      have e2 := congrArg (fun f => (f 2).val) e
      change ((rows3Dims K A B N wf).start (ix3 i a' c') idx 0
        + ((rows3Dims K A B N wf).window (ix3 i a' c') 0 : Int)).toNat = b.val at e0
      change ((rows3Dims K A B N wf).start (ix3 i a' c') idx 1
        + ((rows3Dims K A B N wf).window (ix3 i a' c') 1 : Int)).toNat = a.val at e1
      change ((rows3Dims K A B N wf).start (ix3 i a' c') idx 2
        + ((rows3Dims K A B N wf).window (ix3 i a' c') 2 : Int)).toNat = c.val at e2
      have h0 := (h 0).1
      rw [p0] at e0 h0
      rw [p1] at e1
      rw [p2] at e2
      exact ⟨by omega, Fin.ext (by omega), Fin.ext (by omega)⟩
    · rintro ⟨e, rfl, rfl⟩
      refine idx3_ext (Fin.ext ?_) (Fin.ext ?_) (Fin.ext ?_)
      · change ((rows3Dims K A B N wf).start (ix3 i a' c') idx 0
          + ((rows3Dims K A B N wf).window (ix3 i a' c') 0 : Int)).toNat = b.val
        rw [p0]; omega
      · change ((rows3Dims K A B N wf).start (ix3 i a' c') idx 1
          + ((rows3Dims K A B N wf).window (ix3 i a' c') 1 : Int)).toNat = a'.val
        rw [p1]; omega
      · change ((rows3Dims K A B N wf).start (ix3 i a' c') idx 2
          + ((rows3Dims K A B N wf).window (ix3 i a' c') 2 : Int)).toNat = c'.val
        rw [p2]; omega
  · constructor
    · intro e; exact absurd e (by simp)
    · rintro ⟨e, rfl, rfl⟩
      exfalso
      apply h
      refine forall_axis3 ?_ ?_ ?_
      · rw [p0]
        change 0 ≤ (idx (ix2 i (0 : Fin 1))).toInt ∧ (idx (ix2 i (0 : Fin 1))).toInt < (K : Int)
        omega
      · rw [p1]
        change 0 ≤ (a'.val : Int) ∧ (a'.val : Int) < (A : Int)
        omega
      · rw [p2]
        change 0 ≤ (c'.val : Int) ∧ (c'.val : Int) < (B : Int)
        omega

/-- The indices of a three-axis array are the triples of coordinates. -/
def idx3Equiv {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a three-axis array is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idx3Equiv (n0 := n0) (n1 := n1) (n2 := n2)).symm f, Fintype.sum_prod_type]
  refine Finset.sum_congr rfl fun a _ => ?_
  rw [Fintype.sum_prod_type]
  rfl

/-- THE SUM OF ROWS AT `(b, a, c)`: the operand's element plus the sum, over the updates whose index word is `b`, of the
    update's element `(i, a, c)`. -/
theorem scatterAdd_rows3_apply {K A B N w : Nat}
    (wf : ScatterDims.WF ⟨3, ![K, A, B]⟩ ⟨2, ![N, 1]⟩ ⟨3, ![N, A, B]⟩ [1, 2] [0] [0] 1)
    (x : (⟨3, ![K, A, B]⟩ : Shape).Idx → EReal) (idx : IVec ⟨2, ![N, 1]⟩ w)
    (upd : (⟨3, ![N, A, B]⟩ : Shape).Idx → EReal) (b : Fin K) (a : Fin A) (c : Fin B) :
    Ideal.hostScatterAdd (rows3Dims K A B N wf) x idx upd (ix3 b a c)
      = x (ix3 b a c) + ∑ i : Fin N, if (idx (ix2 i (0 : Fin 1))).toInt = (b.val : Int) then upd (ix3 i a c) else 0 := by
  unfold Ideal.hostScatterAdd
  refine congrArg (x (ix3 b a c) + ·) ?_
  rw [Finset.sum_filter, sum_idx3]
  refine Finset.sum_congr rfl fun i _ => ?_
  have hin : ∀ a' : Fin A, a' ≠ a →
      (∑ c' : Fin B, if (rows3Dims K A B N wf).resultIdx? (ix3 i a' c') idx = some (ix3 b a c)
        then upd (ix3 i a' c') else 0) = 0 := fun a' ha' =>
    Finset.sum_eq_zero fun c' _ =>
      if_neg fun h => ha' ((rows3Dims_resultIdx?_eq_some_iff wf idx i a' c' b a c).mp h).2.1
  have hc : ∀ c' : Fin B, c' ≠ c →
      (if (rows3Dims K A B N wf).resultIdx? (ix3 i a c') idx = some (ix3 b a c)
        then upd (ix3 i a c') else 0) = 0 := fun c' hc' =>
    if_neg fun h => hc' ((rows3Dims_resultIdx?_eq_some_iff wf idx i a c' b a c).mp h).2.2
  rw [Fintype.sum_eq_single a hin, Fintype.sum_eq_single c hc]
  exact if_congr ((rows3Dims_resultIdx?_eq_some_iff wf idx i a c b a c).trans
    ⟨fun h => h.1, fun h => ⟨h, rfl, rfl⟩⟩) rfl rfl

end Idealize.ShloMosaic.ScatterAddRows3

end
-- ==== Proof.Ref.RefCounts.lean ====
/-
  The reference's counts and per-label sums, read over the reals.

  The cleaning of an array is the one-element cleaning at every index.  The labels' column of one-component indices
  reads the label of its row.  A scatter-add into zeros, read at a label, is the sum over the samples carrying that
  label (the signed reading of a label word is k exactly when the word names class k): of ones it is the count, of the
  cleaned samples it is the column sum, a real sample passing the cleaning unchanged.
-/
import proofs.«411193_j75273596830476_3_alg».proof.Proof.Ref.Val
import proofs.«411193_j75273596830476_3_alg».proof.Proof.Ref.RealBasics
import proofs.«411193_j75273596830476_3_alg».proof.Proof.Spec
import proofs.«411193_j75273596830476_3_alg».proof.Proof.SpecConsts
import proofs.«411193_j75273596830476_3_alg».proof.Proof.LibScatterAddBins
import proofs.«411193_j75273596830476_3_alg».proof.Proof.LibScatterAddRows3
import Idealize.ShloMosaic.Lib.Pipeline.Value

noncomputable section

namespace Cert.ReferenceIdeal.Hand

open Idealize.ShloMosaic Idealize.ShloMosaic.ValueIdx Idealize.SL.Sem
open Cert.ReferenceIdeal Facts₀ Facts

variable [Facts]

/-- Sample i carries label k: its label word names class k. -/
abbrev sel (lab : IVec S8192 32) (i : Fin 8192) (k : Fin 10) : Prop := Cert.Spec.isLab (lab (ix1 i)) k

/-- The cleaning of the samples, at an index, is the one-element cleaning. -/
theorem nan3_apply (x : FVec Ideal S8192x20x256 .f32) (j : S8192x20x256.Idx) : nan3 (F := Ideal) x j = nanS (x j) := rfl
/-- The cleaning of a per-label block array, at an index, is the one-element cleaning. -/
theorem nanK_apply (x : FVec Ideal S10x20x256 .f32) (j : S10x20x256.Idx) : nanK (F := Ideal) x j = nanS (x j) := rfl
/-- The cleaning of a per-label vector, at an index, is the one-element cleaning. -/
theorem nan1_apply (x : FVec Ideal S10 .f32) (j : S10.Idx) : nan1 (F := Ideal) x j = nanS (x j) := rfl

/-- Row i of the labels' column is sample i's label. -/
theorem labCol_apply (lab : IVec S8192 32) (i : Fin 8192) : labCol lab (ix2 i (0 : Fin 1)) = lab (ix1 i) :=
  broadcastInDim_apply _ _ lab (ix2 i (0 : Fin 1)) (ix1 i) (fun a => match a with | ⟨0, _⟩ => rfl)

/-- The signed reading of a label word is k exactly when the word names class k: the two tests choose alike. -/
theorem ite_toInt_eq (w : BitVec 32) (k : Fin 10) (u : EReal) :
    (if w.toInt = (k.val : Int) then u else 0) = if Cert.Spec.isLab w k then u else 0 :=
  if_congr (Cert.Spec.isLab_iff_toInt w k).symm rfl rfl

/-- A sum over the samples, each term chosen by the label test between a real number and zero, is the real sum. -/
theorem sum_ite_coe (lab : IVec S8192 32) (k : Fin 10) (f : Fin 8192 → ℝ) :
    (∑ i : Fin 8192, if sel lab i k then ((f i : ℝ) : EReal) else 0)
      = ((∑ i : Fin 8192, if sel lab i k then f i else 0 : ℝ) : EReal) := by
  rw [coe_sum]
  refine Finset.sum_congr rfl fun i _ => ?_
  by_cases h : sel lab i k
  · rw [if_pos h, if_pos h]
  · rw [if_neg h, if_neg h, EReal.coe_zero]

/-- The count of label k is the number of samples carrying it. -/
theorem rCounts_apply (lab : IVec S8192 32) (k : Fin 10) :
    rCounts (F := Ideal) lab (ix1 k) = ((Cert.Spec.cnt (sel lab) k : ℝ) : EReal) := by
  refine (ScatterAddBins.scatterAdd_bins_apply scatter_S10_S8192x1_S8192_n_0_0_1_wf _ (labCol lab) _ k).trans ?_
  have h0 : broadcastInDim S10 ![] bcast_S_S10 (constant (F := Ideal) S_ .f32 0x00000000#32) (ix1 k) = 0 :=
    Ideal.ofBits_zero_f32
  rw [h0, zero_add]
  unfold Cert.Spec.cnt
  rw [← sum_ite_coe]
  refine Finset.sum_congr rfl fun i _ => ?_
  rw [labCol_apply, ite_toInt_eq]
  exact if_congr Iff.rfl ofBits_one rfl

/-- The sum block of label k at column (a, b) is the column sum over the samples carrying k. -/
theorem rSums_apply (zr : Fin 8192 → Fin 20 × Fin 256 → ℝ) (z : FVec Ideal S8192x20x256 .f32) (lab : IVec S8192 32)
    (hz : ∀ (i : Fin 8192) (a : Fin 20) (b : Fin 256), z (ix3 i a b) = ((zr i (a, b) : ℝ) : EReal))
    (k : Fin 10) (a : Fin 20) (b : Fin 256) :
    rSums (F := Ideal) z lab (ix3 k a b) = ((Cert.Spec.colSum (sel lab) zr k (a, b) : ℝ) : EReal) := by
  refine (ScatterAddRows3.scatterAdd_rows3_apply scatter_S10x20x256_S8192x1_S8192x20x256_12_0_0_1_wf _ (labCol lab) _ k a b).trans ?_
  have h0 : broadcastInDim S10x20x256 ![] bcast_S_S10x20x256 (constant (F := Ideal) S_ .f32 0x00000000#32) (ix3 k a b) = 0 :=
    Ideal.ofBits_zero_f32
  rw [h0, zero_add]
  unfold Cert.Spec.colSum
  rw [← sum_ite_coe]
  refine Finset.sum_congr rfl fun i _ => ?_
  rw [labCol_apply, ite_toInt_eq, nan3_apply, hz, nanS_coe]

end Cert.ReferenceIdeal.Hand

end
-- ==== Proof.LibGatherRows3.lean ====
/-
  A three-axis table gathered along its FIRST axis by a COLUMN of start indices, read at an element.

  `x[idx]` of `x : [N, A, B]` at `idx : [R]` lowers to a gather whose start indices are the `[R, 1]` column of `idx`
  and whose result `[R, A, B]` has two offset axes (the last two, running over the table's second and third axes); the
  table's first axis is collapsed and indexed by the start index. The result element at `(r, a, b)` is the table's
  element at row `idx[r, 0]`, read as a signed integer and clamped into `[0, N - 1]`, and at `(a, b)` within the row.

  The steps, each a lemma of its own: on the indexed axis the operand index is the clamped start index, there being
  no batching coordinate and, the axis being collapsed, no offset coordinate (`rows3_axis0`); on each of the other two
  axes the start is 0, the start index naming the first axis only, and the operand index is the result's coordinate on
  the offset axis in that position (`rows3_axis1`, `rows3_axis2`).
-/
import Idealize.ShloMosaic.Lib.ValueIdx

noncomputable section

namespace Idealize.ShloMosaic.GatherRows3

open Idealize.ShloMosaic Idealize.ShloMosaic.ValueIdx

variable {α : Type}

/-- The clamped start position a signed word names on an axis of extent `N` (slices of one element). -/
abbrev clampPos {w : Nat} (N : Nat) (hN : 0 < N) (v : BitVec w) : Fin N := ⟨min v.toInt.toNat (N - 1), by omega⟩

/-- The dimension numbers of a take of whole two-axis rows by a column of start indices. -/
abbrev rows3Dims (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- On the indexed axis the operand index is the clamped start index. -/
theorem rows3_axis0 {N A B R w : Nat}
    (wf : GatherDims.WF ⟨3, ![N, A, B]⟩ ⟨2, ![R, 1]⟩ ⟨3, ![R, A, B]⟩ [1, 2] [0] [] [0] [] 1 ![1, A, B])
    (idx : IVec ⟨2, ![R, 1]⟩ w) (j : (⟨3, ![R, A, B]⟩ : Shape).Idx) :
    ((rows3Dims N A B R wf).operandIdx j idx 0).val
      = min (idx (ix2 (j 0) (0 : Fin 1))).toInt.toNat (N - 1) := by
  show (rows3Dims N A B R wf).start j idx 0 + (rows3Dims N A B R wf).batchCoord j 0
    + (rows3Dims N A B R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (rows3Dims N A B R wf).startIndexMap from List.mem_singleton.mpr rfl)]
  have hsi : (rows3Dims N A B R wf).siIdx j ⟨List.idxOf (0 : Fin 3) (rows3Dims N A B R wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the second axis the operand index is the result's coordinate on its first offset axis, the second. -/
theorem rows3_axis1 {N A B R w : Nat}
    (wf : GatherDims.WF ⟨3, ![N, A, B]⟩ ⟨2, ![R, 1]⟩ ⟨3, ![R, A, B]⟩ [1, 2] [0] [] [0] [] 1 ![1, A, B])
    (idx : IVec ⟨2, ![R, 1]⟩ w) (j : (⟨3, ![R, A, B]⟩ : Shape).Idx) :
    ((rows3Dims N A B R wf).operandIdx j idx 1).val = (j 1).val := by
  show (rows3Dims N A B R wf).start j idx 1 + (rows3Dims N A B R wf).batchCoord j 1
    + (rows3Dims N A B R wf).offCoord j 1 = _
  rw [GatherDims.batchCoord_eq_zero _ _ _ List.not_mem_nil]
  unfold GatherDims.start
  rw [dif_neg (show ¬ (1 : Fin 3) ∈ (rows3Dims N A B R wf).startIndexMap from
    fun h => absurd (List.mem_singleton.mp h) (by decide : ¬ (1 : Fin 3) = 0))]
  unfold GatherDims.offCoord
  rw [dif_pos (show (1 : Fin 3) ∈ (rows3Dims N A B R wf).sKept from
    (GatherDims.mem_sKept _ _).mpr ⟨fun h => absurd (List.mem_singleton.mp h) (by decide : ¬ (1 : Fin 3) = 0),
      List.not_mem_nil⟩)]
  simp only [Nat.zero_add, Nat.add_zero]
  rfl

/-- On the third axis the operand index is the result's coordinate on its second offset axis, the third. -/
theorem rows3_axis2 {N A B R w : Nat}
    (wf : GatherDims.WF ⟨3, ![N, A, B]⟩ ⟨2, ![R, 1]⟩ ⟨3, ![R, A, B]⟩ [1, 2] [0] [] [0] [] 1 ![1, A, B])
    (idx : IVec ⟨2, ![R, 1]⟩ w) (j : (⟨3, ![R, A, B]⟩ : Shape).Idx) :
    ((rows3Dims N A B R wf).operandIdx j idx 2).val = (j 2).val := by
  show (rows3Dims N A B R wf).start j idx 2 + (rows3Dims N A B R wf).batchCoord j 2
    + (rows3Dims N A B R wf).offCoord j 2 = _
  rw [GatherDims.batchCoord_eq_zero _ _ _ List.not_mem_nil]
  unfold GatherDims.start
  rw [dif_neg (show ¬ (2 : Fin 3) ∈ (rows3Dims N A B R wf).startIndexMap from
    fun h => absurd (List.mem_singleton.mp h) (by decide : ¬ (2 : Fin 3) = 0))]
  unfold GatherDims.offCoord
  rw [dif_pos (show (2 : Fin 3) ∈ (rows3Dims N A B R wf).sKept from
    (GatherDims.mem_sKept _ _).mpr ⟨fun h => absurd (List.mem_singleton.mp h) (by decide : ¬ (2 : Fin 3) = 0),
      List.not_mem_nil⟩)]
  simp only [Nat.zero_add, Nat.add_zero]
  rfl

/-- THE TAKE OF ROWS AT `(r, a, b)`: the table at row `idx[r, 0]` (signed, clamped) and at `(a, b)` within the row. -/
theorem gather_rows3_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (rows3Dims N A B R wf) x idx (ix3 r a b)
      = x (ix3 (clampPos N hN (idx (ix2 r (0 : Fin 1)))) a b) := by
  unfold Host.gather
  refine congrArg x (funext fun e => Fin.ext ?_)
  match e with
  | ⟨0, _⟩ => exact rows3_axis0 wf idx (ix3 r a b)
  | ⟨1, _⟩ => exact rows3_axis1 wf idx (ix3 r a b)
  | ⟨2, _⟩ => exact rows3_axis2 wf idx (ix3 r a b)

end Idealize.ShloMosaic.GatherRows3

end
-- ==== Proof.Ref.RefPer.lean ====
/-
  The reference's per-label means and per-sample squared distances, read over the reals.

  The denominator max(count, 1) is a real number at least one, so the quotient of a label's column sum by it is the
  real quotient, the class mean, and the cleaning keeps it.  For a sample whose label word names class k the
  normalised label is the word itself (it is not negative), the gather's clamp of its signed reading into [0, 9] is
  k, and so the gathered mean is the mean of class k.  The host's sum over the two block axes, read at sample i, is
  the sum over the block's 20 × 256 entries of that sample; each entry's term is the square of (sample + ε) − mean,
  a product of real numbers.
-/
import proofs.«411193_j75273596830476_3_alg».proof.Proof.Ref.RefCounts
import proofs.«411193_j75273596830476_3_alg».proof.Proof.LibGatherRows3

noncomputable section

namespace Cert.ReferenceIdeal.Hand

open Idealize.ShloMosaic Idealize.ShloMosaic.ValueIdx Idealize.SL.Sem
open Cert.ReferenceIdeal Facts₀ Facts

variable [Facts]

/-- A count floored at one is not zero. -/
theorem den_ne_zero (c : ℝ) : max c 1 ≠ 0 := (lt_of_lt_of_le one_pos (le_max_right c 1)).ne'

/-- The denominator of label k is max(count, 1), a real number. -/
theorem rDen_apply (lab : IVec S8192 32) (k : Fin 10) :
    rDen (F := Ideal) lab (ix1 k) = ((max (Cert.Spec.cnt (sel lab) k) 1 : ℝ) : EReal) := by
  show max (rCounts (F := Ideal) lab (ix1 k)) (Ideal.ofBits .f32 0x3F800000#32) = _
  rw [rCounts_apply, ofBits_one, max_coe_coe]

/-- The denominators broadcast along a block read the denominator of the block's label. -/
theorem rDen_bcast_apply (lab : IVec S8192 32) (k : Fin 10) (a : Fin 20) (b : Fin 256) :
    broadcastInDim S10x20x256 ![0, 1, 2] bcast_S10x1x1_S10x20x256_0_1_2
        (broadcastInDim S10x1x1 ![0] bcast_S10_S10x1x1_0 (rDen (F := Ideal) lab)) (ix3 k a b)
      = rDen (F := Ideal) lab (ix1 k) := by
  refine (broadcastInDim_apply _ _ _ (ix3 k a b) (ix3 k (0 : Fin 1) (0 : Fin 1))
    (fun a' => match a' with | ⟨0, _⟩ => rfl | ⟨1, _⟩ => rfl | ⟨2, _⟩ => rfl)).trans ?_
  exact broadcastInDim_apply _ _ _ (ix3 k (0 : Fin 1) (0 : Fin 1)) (ix1 k) (fun a' => match a' with | ⟨0, _⟩ => rfl)

/-- The mean block of label k at column (a, b) is the class mean. -/
theorem rMeans_apply (zr : Fin 8192 → Fin 20 × Fin 256 → ℝ) (z : FVec Ideal S8192x20x256 .f32) (lab : IVec S8192 32)
    (hz : ∀ (i : Fin 8192) (a : Fin 20) (b : Fin 256), z (ix3 i a b) = ((zr i (a, b) : ℝ) : EReal))
    (k : Fin 10) (a : Fin 20) (b : Fin 256) :
    rMeans (F := Ideal) z lab (ix3 k a b) = ((Cert.Spec.mean (sel lab) zr k (a, b) : ℝ) : EReal) := by
  unfold rMeans
  rw [nanK_apply, hostDivf_apply, rSums_apply zr z lab hz, rDen_bcast_apply, rDen_apply,
    div_coe_coe _ _ (den_ne_zero _), nanS_coe]
  rfl

/-- The normalised label of sample i: the label plus ten where the label is negative, else the label. -/
theorem labNorm_apply (lab : IVec S8192 32) (i : Fin 8192) :
    labNorm lab (ix1 i)
      = Scalar.select (IntOp.cmpi .slt (lab (ix1 i)) 0#32) (IntOp.addi (lab (ix1 i)) 10#32) (lab (ix1 i)) := rfl

/-- A label word that names a class is not negative, so normalising keeps it. -/
theorem norm_word_of_isLab (w : BitVec 32) (k : Fin 10) (h : Cert.Spec.isLab w k) :
    Scalar.select (IntOp.cmpi .slt w 0#32) (IntOp.addi w 10#32) w = w := by
  unfold Cert.Spec.isLab at h
  subst h
  fin_cases k <;> rfl

/-- The clamp into [0, 9] of the signed reading of a word naming class k is k. -/
theorem clamp_of_isLab (w : BitVec 32) (k : Fin 10) (h : Cert.Spec.isLab w k) :
    GatherRows3.clampPos 10 (by decide) w = k := by
  have ht := (Cert.Spec.isLab_iff_toInt w k).1 h
  have hk := k.isLt
  refine Fin.ext ?_
  show min w.toInt.toNat (10 - 1) = k.val
  omega

/-- For a sample carrying label k, the mean gathered at its normalised label is the mean of class k. -/
theorem gathered_apply (zr : Fin 8192 → Fin 20 × Fin 256 → ℝ) (z : FVec Ideal S8192x20x256 .f32) (lab : IVec S8192 32)
    (hz : ∀ (i : Fin 8192) (a : Fin 20) (b : Fin 256), z (ix3 i a b) = ((zr i (a, b) : ℝ) : EReal))
    (i : Fin 8192) (k : Fin 10) (h : sel lab i k) (a : Fin 20) (b : Fin 256) :
    Host.gather gather_S10x20x256_S8192x1_S8192x20x256_12_0_n_n_0_1_120256 (rMeans (F := Ideal) z lab)
        (broadcastInDim S8192x1 ![0] bcast_S8192_S8192x1_0 (labNorm lab)) (ix3 i a b)
      = ((Cert.Spec.mean (sel lab) zr k (a, b) : ℝ) : EReal) := by
  refine (GatherRows3.gather_rows3_apply (by decide) gather_S10x20x256_S8192x1_S8192x20x256_12_0_n_n_0_1_120256_wf
    _ _ i a b).trans ?_
  have hcol : broadcastInDim S8192x1 ![0] bcast_S8192_S8192x1_0 (labNorm lab) (ix2 i (0 : Fin 1)) = lab (ix1 i) := by
    refine (broadcastInDim_apply _ _ (labNorm lab) (ix2 i (0 : Fin 1)) (ix1 i)
      (fun a' => match a' with | ⟨0, _⟩ => rfl)).trans ?_
    rw [labNorm_apply]
    exact norm_word_of_isLab _ k h
  rw [hcol, clamp_of_isLab _ k h, rMeans_apply zr z lab hz]

/-- The kept axis of the sum over the two block axes is the sample axis. -/
theorem drop12_ix3 (a' : Fin 8192) (b' : Fin 20) (c' : Fin 256) :
    reducesTo_S8192x20x256_S8192_d1_2.drop (ix3 a' b' c') = ix1 a' := by
  funext d
  match d with
  | ⟨0, _⟩ => exact Fin.ext (Shape.ReducesTo.drop_apply_val_of_eq reducesTo_S8192x20x256_S8192_d1_2 (ix3 a' b' c') ⟨0, by decide⟩ 0)

/-- The host's sum over the two block axes from zero, read at sample i, is the sum over the block's entries. -/
theorem reduce12_apply (x : FVec Ideal S8192x20x256 .f32) (i : Fin 8192) :
    Host.reduceAdd x (constant (F := Ideal) S_ .f32 0x00000000#32) reducesTo_S8192x20x256_S8192_d1_2 h_S_ (ix1 i)
      = ∑ p : Fin 20 × Fin 256, x (ix3 i p.1 p.2) := by
  show Ideal.hostReduceAdd reducesTo_S8192x20x256_S8192_d1_2 x (Ideal.ofBits .f32 0x00000000#32) (ix1 i) = _
  unfold Ideal.hostReduceAdd
  rw [Ideal.ofBits_zero_f32, zero_add, Finset.sum_filter, ScatterAddRows3.sum_idx3, Finset.sum_eq_single i]
  · rw [Fintype.sum_prod_type]
    refine Finset.sum_congr rfl fun b' _ => Finset.sum_congr rfl fun c' _ => ?_
    rw [if_pos (drop12_ix3 i b' c')]
  · intro a' _ hne
    refine Finset.sum_eq_zero fun b' _ => Finset.sum_eq_zero fun c' _ => ?_
    rw [if_neg]
    rw [drop12_ix3]
    intro e
    exact hne (congrArg (fun f => f 0) e)
  · intro hn
    exact absurd (Finset.mem_univ i) hn

/-- For a sample carrying label k, the squared distance from the class mean, summed over the block. -/
theorem rPer_apply_of_isLab (zr : Fin 8192 → Fin 20 × Fin 256 → ℝ) (z : FVec Ideal S8192x20x256 .f32) (lab : IVec S8192 32)
    (hz : ∀ (i : Fin 8192) (a : Fin 20) (b : Fin 256), z (ix3 i a b) = ((zr i (a, b) : ℝ) : EReal))
    (i : Fin 8192) (k : Fin 10) (h : sel lab i k) :
    rPer (F := Ideal) z lab (ix1 i)
      = ((∑ j : Fin 20 × Fin 256, ((zr i j + Cert.Spec.epsR) - Cert.Spec.mean (sel lab) zr k j)
            * ((zr i j + Cert.Spec.epsR) - Cert.Spec.mean (sel lab) zr k j) : ℝ) : EReal) := by
  unfold rPer
  refine (reduce12_apply _ i).trans ?_
  rw [coe_sum]
  refine Finset.sum_congr rfl fun p _ => ?_
  obtain ⟨a, b⟩ := p
  rw [mulf_apply, subf_apply, addf_apply, nan3_apply, hz, nanS_coe, gathered_apply zr z lab hz i k h]
  have he : broadcastInDim S8192x20x256 ![] bcast_S_S8192x20x256 (constant (F := Ideal) S_ .f32 0x322BCC77#32) (ix3 i a b)
      = ((Cert.Spec.epsR : ℝ) : EReal) := Cert.Spec.eps_coe
  rw [he, ← EReal.coe_add, ← EReal.coe_sub, ← EReal.coe_mul]

end Cert.ReferenceIdeal.Hand

end
-- ==== Proof.Ref.RefReal.lean ====
/-
  The reference's value over the reals: the loss.

  The per-label sum of squared errors is a scatter-add of the per-sample distances into zeros: read at label k it
  is the sum over the samples carrying k, and for those the distance is the squared distance from the mean of class
  k; a sample carrying no label lands nowhere.  The quotient by max(count, 1) · 5120 has a real divisor that is not
  zero, the cleaning keeps it, the comparison "count above zero" is the real comparison, and the host's sum over
  the ten labels from zero is the sum over the classes: the loss.
-/
import proofs.«411193_j75273596830476_3_alg».proof.Proof.Ref.RefPer
import Idealize.ShloMosaic.Lib.ValueIdxRank1

noncomputable section

namespace Cert.ReferenceIdeal.Hand

open Idealize.ShloMosaic Idealize.ShloMosaic.ValueIdx Idealize.SL.Sem
open Cert.ReferenceIdeal Facts₀ Facts

variable [Facts]

/-- The sum of squared errors of label k is the row-by-row sum over the samples carrying it. -/
theorem rSse_apply (zr : Fin 8192 → Fin 20 × Fin 256 → ℝ) (z : FVec Ideal S8192x20x256 .f32) (lab : IVec S8192 32)
    (hz : ∀ (i : Fin 8192) (a : Fin 20) (b : Fin 256), z (ix3 i a b) = ((zr i (a, b) : ℝ) : EReal))
    (k : Fin 10) :
    rSse (F := Ideal) z lab (ix1 k) = ((Cert.Spec.sseDirect (sel lab) zr Cert.Spec.epsR k : ℝ) : EReal) := by
  refine (ScatterAddBins.scatterAdd_bins_apply scatter_S10_S8192x1_S8192_n_0_0_1_wf _ (labCol lab) _ k).trans ?_
  have h0 : broadcastInDim S10 ![] bcast_S_S10 (constant (F := Ideal) S_ .f32 0x00000000#32) (ix1 k) = 0 :=
    Ideal.ofBits_zero_f32
  rw [h0, zero_add]
  unfold Cert.Spec.sseDirect Cert.Spec.sseDirectOf
  refine Eq.trans ?_ (sum_ite_coe lab k _)
  refine Finset.sum_congr rfl fun i _ => ?_
  rw [labCol_apply, ite_toInt_eq]
  by_cases h : sel lab i k
  · rw [if_pos h, if_pos h, rPer_apply_of_isLab zr z lab hz i k h]
  · rw [if_neg h, if_neg h]

/-- Label k's term of the final sum: its sum of squared errors over max(count, 1) · 5120 where it occurs, else zero. -/
theorem term_apply (zr : Fin 8192 → Fin 20 × Fin 256 → ℝ) (z : FVec Ideal S8192x20x256 .f32) (lab : IVec S8192 32)
    (hz : ∀ (i : Fin 8192) (a : Fin 20) (b : Fin 256), z (ix3 i a b) = ((zr i (a, b) : ℝ) : EReal))
    (k : Fin 10) :
    Scalar.select (Ideal.cmp .ogt (rCounts (F := Ideal) lab (ix1 k)) (Ideal.ofBits .f32 0x00000000#32))
        (nanS (Ideal.div (rSse (F := Ideal) z lab (ix1 k))
          (rDen (F := Ideal) lab (ix1 k) * Ideal.ofBits .f32 0x45A00000#32)))
        (Ideal.ofBits .f32 0x00000000#32)
      = ((if 0 < Cert.Spec.cnt (sel lab) k
            then Cert.Spec.sseDirect (sel lab) zr Cert.Spec.epsR k / (max (Cert.Spec.cnt (sel lab) k) 1 * 5120)
            else 0 : ℝ) : EReal) := by
  rw [rCounts_apply, ofBits_zero, cmp_ogt_coe_zero, rSse_apply zr z lab hz, rDen_apply, ofBits_5120, ← EReal.coe_mul,
    div_coe_coe _ _ (mul_ne_zero (den_ne_zero _) (by norm_num)), nanS_coe]
  by_cases h : 0 < Cert.Spec.cnt (sel lab) k
  · rw [if_pos h, if_pos h, select_one]
  · rw [if_neg h, if_neg h, select_zero]

/-- THE REFERENCE'S VALUE: the loss of the labelled samples, with the row-by-row sums of squared errors. -/
theorem ref_real (zr : Fin 8192 → Fin 20 × Fin 256 → ℝ) (z : FVec Ideal S8192x20x256 .f32) (lab : IVec S8192 32)
    (hz : ∀ (i : Fin 8192) (a : Fin 20) (b : Fin 256), z (ix3 i a b) = ((zr i (a, b) : ℝ) : EReal)) :
    refVal (F := Ideal) z lab
      = fun _ => ((Cert.Spec.loss (fun (i : Fin 8192) (k : Fin 10) => Cert.Spec.isLab (lab (ix1 i)) k) (5120 : ℝ)
                    (Cert.Spec.sseDirect (fun (i : Fin 8192) (k : Fin 10) => Cert.Spec.isLab (lab (ix1 i)) k) zr Cert.Spec.epsR) : ℝ) : EReal) := by
  funext j
  unfold refVal
  refine (Ideal.hostReduceAdd_total reducesTo_S10_S_d0 (fun b => b.elim0) _ (Ideal.ofBits .f32 0x00000000#32) j).trans ?_
  rw [Ideal.ofBits_zero_f32, zero_add, ← Equiv.sum_comp (idxEquiv1 (n := 10)).symm]
  unfold Cert.Spec.loss
  rw [coe_sum]
  refine Finset.sum_congr rfl fun k _ => ?_
  exact term_apply zr z lab hz k

end Cert.ReferenceIdeal.Hand

end
-- ==== Proof.SpecReindex.lean ====
/-
  The loss does not depend on how the columns are numbered: if the columns of one table are the columns of another
  carried along a bijection, the two tables have the same class means (column by column), the same sums of squared
  errors and the same loss.
-/
import proofs.«411193_j75273596830476_3_alg».proof.Proof.Spec
import Mathlib.Logic.Equiv.Fin.Basic

noncomputable section

namespace Cert.Spec

open Finset

variable {I J J' K : Type} [Fintype I] [Fintype J] [Fintype J'] [Fintype K]
variable (sel : I → K → Prop) [∀ i k, Decidable (sel i k)] (e D : ℝ)

/-- A column of the renumbered table has the class mean of the column it came from. -/
theorem mean_reindex (φ : J ≃ J') (x : I → J → ℝ) (x' : I → J' → ℝ) (h : ∀ i j, x' i (φ j) = x i j) (k : K) (j : J) :
    mean sel x' k (φ j) = mean sel x k j := by
  unfold mean colSum
  simp only [h]

/-- The row-by-row sum of squared errors is the same for the renumbered table. -/
theorem sseDirect_reindex (φ : J ≃ J') (x : I → J → ℝ) (x' : I → J' → ℝ) (h : ∀ i j, x' i (φ j) = x i j) (k : K) :
    sseDirect sel x' e k = sseDirect sel x e k := by
  unfold sseDirect sseDirectOf
  refine Finset.sum_congr rfl fun i _ => ?_
  by_cases hs : sel i k
  · simp only [hs, if_true]
    rw [← Equiv.sum_comp φ]
    refine Finset.sum_congr rfl fun j _ => ?_
    rw [h, mean_reindex sel φ x x' h]
  · simp only [hs, if_false]

/-- And so is the loss. -/
theorem loss_sseDirect_reindex (φ : J ≃ J') (x : I → J → ℝ) (x' : I → J' → ℝ) (h : ∀ i j, x' i (φ j) = x i j) :
    loss sel D (sseDirect sel x' e) = loss sel D (sseDirect sel x e) := by
  unfold loss
  refine Finset.sum_congr rfl fun k _ => ?_
  rw [sseDirect_reindex sel e φ x x' h]

/-- The loss depends on the class test only through its truth values. -/
theorem loss_congr_sel (sel' : I → K → Prop) [∀ i k, Decidable (sel' i k)] (hs : ∀ i k, sel i k ↔ sel' i k)
    (x : I → J → ℝ) : loss sel D (sseDirect sel x e) = loss sel' D (sseDirect sel' x e) := by
  have : sel = sel' := funext fun i => funext fun k => propext (hs i k)
  subst this
  congr!

end Cert.Spec

end
-- ==== Proof.Reshape.lean ====
/-
  The two reshapes in front of the pallas_call, read at an index: the table z : [8192, 20, 256] seen as [8192, 5120]
  has, at row i and column j, the entry (i, j / 256, j % 256) — row-major order is kept —; the label vector [8192] seen
  as a column [8192, 1] has, at (i, 0), the label i.
-/
import Idealize.ShloMosaic.Lib.Pipeline.Value
import Idealize.ShloMosaic.Lib.ValueIdx

noncomputable section

namespace Cert.Reshape

open Idealize.ShloMosaic Idealize.ShloMosaic.ValueIdx

variable {α : Type}

/-- The [8192, 20, 256] table as [8192, 5120], at (i, j): the entry (i, j / 256, j % 256). -/
theorem table_apply (z : (⟨3, ![8192, 20, 256]⟩ : Shape).Idx → α)
    (h : (⟨3, ![8192, 20, 256]⟩ : Shape).ShapeCasts ⟨2, ![8192, 5120]⟩) (i : Fin 8192) (j : Fin 5120) :
    shapeCast ⟨2, ![8192, 5120]⟩ z h (ix2 i j)
      = z (ix3 i (⟨j.val / 256, by have := j.isLt; omega⟩ : Fin 20) (⟨j.val % 256, by omega⟩ : Fin 256)) := by
  refine shapeCast_apply z h _ _ ?_
  rw [Shape.rowMajor_val_three, Shape.rowMajor_val_two]
  show ((i.val * 20 + j.val / 256) * 256 + j.val % 256) = i.val * 5120 + j.val
  omega

/-- The [8192] labels as a column [8192, 1], at (i, 0): label i. -/
theorem column_apply (lab : (⟨1, ![8192]⟩ : Shape).Idx → α)
    (h : (⟨1, ![8192]⟩ : Shape).ShapeCasts ⟨2, ![8192, 1]⟩) (i : Fin 8192) :
    shapeCast ⟨2, ![8192, 1]⟩ lab h (ix2 i (0 : Fin 1)) = lab (ix1 i) := by
  refine shapeCast_apply lab h _ _ ?_
  rw [Shape.rowMajor_val_one, Shape.rowMajor_val_two]
  show i.val = i.val * 1 + 0
  omega

end Cert.Reshape

end
-- ==== Proof.Bridge.lean ====
/-
  The two programs' values joined. Over real entries the kernel program's tail, applied to what the pallas_call leaves,
  is the loss computed from the moments of the table [8192, 5120]; the reference's value is the loss computed row by
  row from the table [8192, 20, 256]. The moment expansion equals the row-by-row sum (the binomial expansion), and the
  loss does not depend on how the 5120 = 20 · 256 columns are numbered; the reshape keeps row-major order, so column j
  of the flat table is column (j / 256, j % 256) of the other.
-/
import proofs.«411193_j75273596830476_3_alg».proof.Proof.KI.TailVal
import proofs.«411193_j75273596830476_3_alg».proof.Proof.KI.ArrSpec
import proofs.«411193_j75273596830476_3_alg».proof.Proof.Ref.Val
import proofs.«411193_j75273596830476_3_alg».proof.Proof.Spec
import proofs.«411193_j75273596830476_3_alg».proof.Proof.SpecConsts
import proofs.«411193_j75273596830476_3_alg».proof.Proof.SpecReindex
import proofs.«411193_j75273596830476_3_alg».proof.Proof.Reshape

noncomputable section

namespace Cert.Bridge

open Idealize.ShloMosaic Idealize.ShloMosaic.ValueIdx

variable [Cert.KernelIdeal.Facts] [Cert.ReferenceIdeal.Facts]

/-- The column numbering of the flat table against the pair numbering: j ↦ (j / 256, j % 256). -/
def colEquiv : Fin 20 × Fin 256 ≃ Fin 5120 := finProdFinEquiv

theorem colEquiv_symm_fst (j : Fin 5120) : ((colEquiv.symm j).1).val = j.val / 256 := by
  simp [colEquiv, finProdFinEquiv, Fin.divNat]

theorem colEquiv_symm_snd (j : Fin 5120) : ((colEquiv.symm j).2).val = j.val % 256 := by
  simp [colEquiv, finProdFinEquiv, Fin.modNat]

/-- The join, given the two readings over the reals (the kernel side's and the reference's) as hypotheses. -/
theorem values_eq
    (htail : ∀ (zr : Fin 8192 → Fin 5120 → ℝ) (z2 : Cert.KernelIdeal.S8192x5120.Idx → EReal) (l2 : IVec Cert.KernelIdeal.S8192x1 32),
      (∀ (i : Fin 8192) (j : Fin 5120), z2 (ix2 i j) = ((zr i j : ℝ) : EReal)) →
      Cert.KernelIdeal.Hand.tailVal (F := Ideal) (Cert.KernelIdeal.Hand.sumsOut z2 l2) (Cert.KernelIdeal.Hand.sqOut z2 l2) (Cert.KernelIdeal.Hand.cntOut l2)
        = fun _ => ((Cert.Spec.loss (fun (i : Fin 8192) (k : Fin 10) => Cert.Spec.isLab (l2 (ix2 i (0 : Fin 1))) k) (5120 : ℝ)
                      (Cert.Spec.sseMoments (fun (i : Fin 8192) (k : Fin 10) => Cert.Spec.isLab (l2 (ix2 i (0 : Fin 1))) k) zr Cert.Spec.epsR) : ℝ) : EReal))
    (href : ∀ (zr : Fin 8192 → Fin 20 × Fin 256 → ℝ) (z : FVec Ideal Cert.ReferenceIdeal.S8192x20x256 .f32) (lab : IVec Cert.ReferenceIdeal.S8192 32),
      (∀ (i : Fin 8192) (a : Fin 20) (b : Fin 256), z (ix3 i a b) = ((zr i (a, b) : ℝ) : EReal)) →
      Cert.ReferenceIdeal.Hand.refVal (F := Ideal) z lab
        = fun _ => ((Cert.Spec.loss (fun (i : Fin 8192) (k : Fin 10) => Cert.Spec.isLab (lab (ix1 i)) k) (5120 : ℝ)
                      (Cert.Spec.sseDirect (fun (i : Fin 8192) (k : Fin 10) => Cert.Spec.isLab (lab (ix1 i)) k) zr Cert.Spec.epsR) : ℝ) : EReal))
    (z : FVec Ideal Cert.KernelIdeal.S8192x20x256 .f32) (lab : IVec Cert.KernelIdeal.S8192 32)
    (hfin : ∀ i, ∃ r : ℝ, z i = (r : EReal)) :
    Cert.KernelIdeal.Hand.tailVal (F := Ideal)
        (Cert.KernelIdeal.Hand.sumsOut (shapeCast Cert.KernelIdeal.S8192x5120 z Cert.KernelIdeal.Facts₀.shapeCasts_S8192x20x256_S8192x5120)
          (shapeCast Cert.KernelIdeal.S8192x1 lab Cert.KernelIdeal.Facts₀.shapeCasts_S8192_S8192x1))
        (Cert.KernelIdeal.Hand.sqOut (shapeCast Cert.KernelIdeal.S8192x5120 z Cert.KernelIdeal.Facts₀.shapeCasts_S8192x20x256_S8192x5120)
          (shapeCast Cert.KernelIdeal.S8192x1 lab Cert.KernelIdeal.Facts₀.shapeCasts_S8192_S8192x1))
        (Cert.KernelIdeal.Hand.cntOut (shapeCast Cert.KernelIdeal.S8192x1 lab Cert.KernelIdeal.Facts₀.shapeCasts_S8192_S8192x1))
      = Cert.ReferenceIdeal.Hand.refVal (F := Ideal) z lab := by
  -- the real entries of the table, numbered by pairs and flat
  let zr3 : Fin 8192 → Fin 20 × Fin 256 → ℝ := fun i p => (z (ix3 i p.1 p.2)).toReal
  let zr : Fin 8192 → Fin 5120 → ℝ := fun i j => zr3 i (colEquiv.symm j)
  have hz3 : ∀ (i : Fin 8192) (a : Fin 20) (b : Fin 256), z (ix3 i a b) = ((zr3 i (a, b) : ℝ) : EReal) := by
    intro i a b
    obtain ⟨r, hr⟩ := hfin (ix3 i a b)
    show z (ix3 i a b) = (((z (ix3 i a b)).toReal : ℝ) : EReal)
    rw [hr, EReal.toReal_coe]
  have hz2 : ∀ (i : Fin 8192) (j : Fin 5120),
      shapeCast Cert.KernelIdeal.S8192x5120 z Cert.KernelIdeal.Facts₀.shapeCasts_S8192x20x256_S8192x5120 (ix2 i j) = ((zr i j : ℝ) : EReal) := by
    intro i j
    rw [Cert.Reshape.table_apply z _ i j]
    have e : (ix3 i (⟨j.val / 256, by have := j.isLt; omega⟩ : Fin 20) (⟨j.val % 256, by omega⟩ : Fin 256)
        : (⟨3, ![8192, 20, 256]⟩ : Shape).Idx) = ix3 i (colEquiv.symm j).1 (colEquiv.symm j).2 := by
      have h1 : (⟨j.val / 256, by have := j.isLt; omega⟩ : Fin 20) = (colEquiv.symm j).1 := Fin.ext (colEquiv_symm_fst j).symm
      have h2 : (⟨j.val % 256, by omega⟩ : Fin 256) = (colEquiv.symm j).2 := Fin.ext (colEquiv_symm_snd j).symm
      rw [h1, h2]
    rw [e]
    exact hz3 i _ _
  have hl2 : ∀ i : Fin 8192,
      shapeCast Cert.KernelIdeal.S8192x1 lab Cert.KernelIdeal.Facts₀.shapeCasts_S8192_S8192x1 (ix2 i (0 : Fin 1)) = lab (ix1 i) :=
    fun i => Cert.Reshape.column_apply lab _ i
  rw [htail zr _ _ hz2, href zr3 z lab hz3]
  funext _
  congr 1
  rw [Cert.Spec.loss_moments_eq_direct]
  rw [Cert.Spec.loss_sseDirect_reindex _ _ _ colEquiv zr3 zr (fun i p => by show zr3 i (colEquiv.symm (colEquiv p)) = zr3 i p; rw [Equiv.symm_apply_apply])]
  exact Cert.Spec.loss_congr_sel _ _ _ _ (fun i k => by rw [hl2 i]) zr3

end Cert.Bridge

end
-- ==== Proof.Finite.lean ====
/-
  The precondition read back: when every entry of z has |z| < +∞ as an extended real, every entry of z is a real
  number.

  The predicate is the conjunction over all entries (a reduce by `and` from 1) of the comparison |z| < +∞, where |x| is
  max(x, −x) on the extended reals and +∞ is the top element; max(x, −x) < ⊤ rules out x = ⊤ and x = ⊥.
-/
import proofs.«411193_j75273596830476_3_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Hand

open Idealize.ShloMosaic Cert.Pre_finite_inputs

variable [Facts]

/-- The f32 word of +∞ denotes the top extended real. -/
theorem ofBits_inf : Ideal.ofBits .f32 0x7F800000#32 = ⊤ := by simp [Ideal.ofBits, Ideal.ieee]

/-- An extended real whose absolute value is below the top is a real. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the float argument is a real. -/
theorem finite_of_pre (z : FVec Ideal S8192x20x256 .f32) (lab : IVec S8192 32)
    (h : fn (F := Ideal) z lab = fun _ => 1#1) (i : S8192x20x256.Idx) : ∃ r : ℝ, z i = (r : EReal) := by
  have h0 := congrFun h ValueIdx.ix0
  dsimp only [fn] at h0
  haveI : Subsingleton S_.Idx := ⟨fun a b => funext fun d => d.elim0⟩
  have h1 := Host.reduce_andi_all _ _ _ _ _ h0 i
  apply real_of_abs_lt_top
  have h2 : Ideal.cmp .olt (max (z i) (-(z i))) (Ideal.ofBits .f32 0x7F800000#32) = 1#1 := h1
  rw [ofBits_inf] at h2
  unfold Ideal.cmp at h2
  by_contra hc
  simp only [hc, decide_false] at h2
  exact absurd h2 (by decide)

end Cert.Pre_finite_inputs.Hand

end
-- ==== Proof.lean ====
/-
  The certificate of the one-hot segment-statistics kernel against its jnp reference.

  Both programs compute, for labels in 0..9 and a table z : [8192, 20, 256] of finite entries, the sum over the classes
  that occur of the class's sum of squared errors of the rows shifted by ε against the class mean, divided by
  max(count, 1) · 5120. The kernel program gets each class's sum of squared errors from the class's moments — per-label
  column sums, sums of the shifted rows' squared lengths and counts, accumulated by one-hot matrix products over a
  2 × 8 grid of 512-row blocks and added across the two row blocks on the host —; the reference computes it row by row
  (a scatter-add for the sums and counts, a gather of the means back to the rows, a scatter-add of the rows' squared
  distances). Over real entries the two are equal: the binomial expansion of Σ ((x + ε) − μ)², summed.

  The three frames: the kernel program's (at both instances) from the pipeline's launch theorem around the region,
  with the body run case by case (first step of a row block: the accumulators are zero-filled; later steps: they carry
  on from the step before); the reference's from its run as a straight line of host operations.
-/
import proofs.«411193_j75273596830476_3_alg».proof.Defs
import proofs.«411193_j75273596830476_3_alg».proof.Proof.Gen.Kernel
import proofs.«411193_j75273596830476_3_alg».proof.Proof.Gen.KernelIdeal
import proofs.«411193_j75273596830476_3_alg».proof.Proof.Gen.ReferenceIdeal
import proofs.«411193_j75273596830476_3_alg».proof.Proof.Gen.Pre_finite_inputs
import proofs.«411193_j75273596830476_3_alg».proof.Proof.K.Frame
import proofs.«411193_j75273596830476_3_alg».proof.Proof.KI.Frame
import proofs.«411193_j75273596830476_3_alg».proof.Proof.KI.RunValue
import proofs.«411193_j75273596830476_3_alg».proof.Proof.KI.Inputs
import proofs.«411193_j75273596830476_3_alg».proof.Proof.KI.Arrays
import proofs.«411193_j75273596830476_3_alg».proof.Proof.KI.Accum
import proofs.«411193_j75273596830476_3_alg».proof.Proof.KI.TailReal
import proofs.«411193_j75273596830476_3_alg».proof.Proof.Ref.Run
import proofs.«411193_j75273596830476_3_alg».proof.Proof.Ref.RefReal
import proofs.«411193_j75273596830476_3_alg».proof.Proof.Bridge
import proofs.«411193_j75273596830476_3_alg».proof.Proof.Finite

noncomputable section

namespace Cert.Proof

open Idealize.ShloMosaic Idealize.SL.Sem

/-- The word-level kernel program runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories agreeing on the arguments both programs end with the reference's value of the arguments: the
    kernel program's result is its host tail applied to the three arrays the grid leaves, which over the finite
    entries the precondition gives is the loss from the moments, equal to the loss row by row. -/
theorem algebraic : Cert.algebraic_KernelIdeal_ReferenceIdeal := by
  intro m ρ m' ρ' hpre hagree
  refine ⟨fun c => Cert.ReferenceIdeal.Hand.refVal (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Hand.run_value (F := Ideal) m ρ)
    rw [Cert.KernelIdeal.Hand.arr2_of m (Cert.KernelIdeal.Hand.flushed2 m) c,
      Cert.KernelIdeal.Hand.arr3_of m (Cert.KernelIdeal.Hand.flushed3 m) c,
      Cert.KernelIdeal.Hand.arr4_of m (Cert.KernelIdeal.Hand.flushed4 m) c,
      Cert.KernelIdeal.Hand.V_v0, Cert.KernelIdeal.Hand.V_v1]
    exact Cert.Bridge.values_eq Cert.KernelIdeal.Hand.tail_real Cert.ReferenceIdeal.Hand.ref_real _ _
      (fun i => Cert.Pre_finite_inputs.Hand.finite_of_pre _ _ (hpre c) i)
  · refine (θ_run Cert.ReferenceIdeal.defs _ _).mono (fun r h c => ⟨(h c).1.trans ?_, (h c).2⟩)
      (Cert.ReferenceIdeal.Hand.run (F := Ideal) m' ρ')
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
